-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_arg9 : FVec F S32x1 .f32) (main_arg10 : FVec F S1 .f32) (main_v33 : IVec S_ 1) : IVec S_ 1 :=
  let main_v34 : FVec F S32x1 .f32 := Host.absf main_arg9
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : IVec S1x1600000 32 := (extractStridedSlice S1x1600000 ![1, 0] · slices_S2x1600000_S1x1600000_1_0) main_arg1
  let main_v45 : IVec S1600000 32 := shapeCast S1600000 main_v44 shapeCasts_S1x1600000_S1600000
  let main_c_16 : IVec S_ 32 := constantI S_ 32 0#32
  let main_v46 : IVec S1600000 32 := broadcastInDim S1600000 ![] bcast_S_S1600000 main_c_16
  let main_v47 : IVec S1600000 1 := cmpi .sge main_v45 main_v46
  let main_c_17 : IVec S_ 1 := constantI S_ 1 1#1
  let main_v48 : IVec S_ 1 := (fun x v => Host.reduce IntOp.andi x v reducesTo_S1600000_S_d0 h_S_) main_v47 main_c_17
  let main_v49 : IVec S_ 1 := andi main_v43 main_v48
  main_v49

def fn_part1 {F : FTy → Type} [FloatOps F] (main_arg1 : IVec S2x1600000 32) (main_arg6 : FVec F S128 .f32) (main_arg7 : FVec F S128x32 .f32) (main_arg8 : FVec F S32 .f32) (main_arg9 : FVec F S32x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg7
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg9 main_arg10 main_v33

def fn {F : FTy → Type} [FloatOps F] (main_arg0 : FVec F S100000x1 .f32) (main_arg1 : IVec S2x1600000 32) (main_arg2 : IVec S100000 32) (main_arg3 : FVec F S1x128 .f32) (main_arg4 : FVec F S128 .f32) (main_arg5 : FVec F S128x128 .f32) (main_arg6 : FVec F S128 .f32) (main_arg7 : FVec F S128x32 .f32) (main_arg8 : FVec F S32 .f32) (main_arg9 : FVec F S32x1 .f32) (main_arg10 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_v13 main_v16
-- ==== Kernel.lean ====
abbrev S100000x1 : Shape := ⟨2, ![100000, 1]⟩
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1024 : Shape := ⟨1, ![1024]⟩
abbrev S1024x1 : Shape := ⟨2, ![1024, 1]⟩
abbrev S100000x128 : Shape := ⟨2, ![100000, 128]⟩
abbrev S2000x1 : Shape := ⟨2, ![2000, 1]⟩
abbrev S2000x128 : Shape := ⟨2, ![2000, 128]⟩
abbrev S1600000x128 : Shape := ⟨2, ![1600000, 128]⟩
abbrev S1024x128 : Shape := ⟨2, ![1024, 128]⟩
abbrev S1x1024 : Shape := ⟨2, ![1, 1024]⟩
abbrev S2000x1024 : Shape := ⟨2, ![2000, 1024]⟩
abbrev S1x32 : Shape := ⟨2, ![1, 32]⟩
abbrev S1x1 : Shape := ⟨2, ![1, 1]⟩
abbrev S1024x32 : Shape := ⟨2, ![1024, 32]⟩

abbrev nBuf : Space → Nat
  | .hbm => 80
  | .vmem => 27
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S100000, .i32⟩
  | .hbm, ⟨3, _⟩ => ⟨S1x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x1, .i32⟩
  | .hbm, ⟨27, _⟩ => ⟨S_, .f32⟩
  | .hbm, ⟨28, _⟩ => ⟨S100000, .f32⟩
  | .hbm, ⟨29, _⟩ => ⟨S_, .f32⟩
  | .hbm, ⟨30, _⟩ => ⟨S1024, .f32⟩
  | .hbm, ⟨31, _⟩ => ⟨S100000x1, .i32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1024x1, .f32⟩
  | .hbm, ⟨40, _⟩ => ⟨S100000, .f32⟩
  | .hbm, ⟨41, _⟩ => ⟨S100000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S1x128, .f32⟩
  | .hbm, ⟨59, _⟩ => ⟨S1x128, .f32⟩
  | .hbm, ⟨60, _⟩ => ⟨S100000x128, .bf16⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .bf16⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S1024x128, .f32⟩
  | .hbm, ⟨76, _⟩ => ⟨S1x32, .f32⟩
  | .hbm, ⟨77, _⟩ => ⟨S1x1, .f32⟩
  | .hbm, ⟨78, _⟩ => ⟨S1024x1, .f32⟩
  | .hbm, ⟨79, _⟩ => ⟨S1024, .f32⟩
  | .local _ .vmem, ⟨0, _⟩ => ⟨S2000x1, .f32⟩
  | .local _ .vmem, ⟨1, _⟩ => ⟨S2000x1, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S2000x1, .f32⟩
  | .local _ .vmem, ⟨6, _⟩ => ⟨S2000x1, .f32⟩
  | .local _ .vmem, ⟨7, _⟩ => ⟨S2000x128, .bf16⟩
  | .local _ .vmem, ⟨8, _⟩ => ⟨S2000x128, .bf16⟩
  | .local _ .vmem, ⟨9, _⟩ => ⟨S2000x128, .f32⟩
  | .local _ .vmem, ⟨10, _⟩ => ⟨S2000x128, .f32⟩
  | .local _ .vmem, ⟨11, _⟩ => ⟨S2000x128, .bf16⟩
  | .local _ .vmem, ⟨12, _⟩ => ⟨S2000x128, .bf16⟩
  | .local _ .vmem, ⟨13, _⟩ => ⟨S2000x1, .f32⟩
  | .local _ .vmem, ⟨14, _⟩ => ⟨S2000x1, .f32⟩
  | .local _ .vmem, ⟨15, _⟩ => ⟨S1x128, .f32⟩
  | .local _ .vmem, ⟨16, _⟩ => ⟨S2000x1, .i32⟩
  | .local _ .vmem, ⟨17, _⟩ => ⟨S2000x1, .i32⟩
  | .local _ .vmem, ⟨18, _⟩ => ⟨S1024x1, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S128x32, .f32⟩
  | .local _ .vmem, ⟨23, _⟩ => ⟨S1x32, .f32⟩
  | .local _ .vmem, ⟨24, _⟩ => ⟨S32x1, .f32⟩
  | .local _ .vmem, ⟨25, _⟩ => ⟨S1x1, .f32⟩
  | .local _ .vmem, ⟨26, _⟩ => ⟨S1024x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem6_0 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v35 : BitVec 1 := Scalar.cmpi .eq arg0 c49_i32
  let v36 : BitVec 32 := Scalar.extui v35
  let c0_i32_15 : BitVec 32 := 0#32
  let v37 : BitVec 1 := Scalar.cmpi .ne v36 c0_i32_15
  v37

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S1024 : S_.BroadcastsInDim S1024 (![] : Fin 0 → Fin S1024.rank)
  bcast_S100000_S100000x1_0 : S100000.BroadcastsInDim S100000x1 (![0] : Fin 1 → Fin S100000x1.rank)
  shapeCasts_S1024_S1024x1 : S1024.ShapeCasts S1024x1
  shapeCasts_S100000x1_S100000 : S100000x1.ShapeCasts S100000
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S100000x128 : S_.BroadcastsInDim S100000x128 (![] : Fin 0 → Fin S100000x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S2000x128_S2000x128 : S2000x128.ShapeCasts S2000x128
  iota_S1x1024_d1_w32 : S1x1024.Iotas .tc 32 [1]
  broadcasts_S2000x1_S2000x1024 : S2000x1.Broadcasts S2000x1024
  broadcasts_S1x1024_S2000x1024 : S1x1024.Broadcasts S2000x1024
  natLt_1_32 : 1 < 32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  shapeCasts_S32_S1x32 : S32.ShapeCasts S1x32
  shapeCasts_S1_S1x1 : S1.ShapeCasts S1x1
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  shapeCasts_S1024x1_S1024 : S1024x1.ShapeCasts S1024
  scatter_S100000_S1600000x1_S1600000_n_0_0_1_wf : ScatterDims.WF S100000 S1600000x1 S1600000 [] [0] [0] 1
  scatter_S1024_S100000x1_S100000_n_0_0_1_wf : ScatterDims.WF S1024 S100000x1 S100000 [] [0] [0] 1
  gather_S100000_S1600000x1_S1600000_n_0_n_n_0_1_1_wf : GatherDims.WF S100000 S1600000x1 S1600000 [] [0] [] [0] [] 1 ![1]
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x1024_S2000x128_S1024x128_0_0_1_1_n_n_wf : DotDims.WF S2000x1024 S2000x128 S1024x128 [0] [0] [1] [1] [] []
  dot_S1024x128_S128x32_S1024x32_1_0_0_1_n_n_wf : DotDims.WF S1024x128 S128x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .f32 = 32 ∨ (Rect.block (s := S100000x1) S2000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S100000x1.size a
  hwx0_4 : ∀ i : grid0.Coords, EltTy.bits .f32 = 32 ∨ (Rect.block (s := S100000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .bf16 = 32 ∨ (Rect.block (s := S100000x128) S2000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .bf16 = 32 ∨ (Rect.block (s := S100000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S100000x1.size a
  hwx1_4 : ∀ i : grid1.Coords, EltTy.bits .i32 = 32 ∨ (Rect.block (s := S100000x1) S2000x1.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S1024x1.size a
  hwx1_5 : ∀ i : grid1.Coords, EltTy.bits .f32 = 32 ∨ (Rect.block (s := S1024x1) S1024x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S1024x128.size a
  hwx1_6 : ∀ i : grid1.Coords, EltTy.bits .f32 = 32 ∨ (Rect.block (s := S1024x128) S1024x128.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S1024x128.size a
  hwx2_0 : ∀ i : grid2.Coords, EltTy.bits .f32 = 32 ∨ (Rect.block (s := S1024x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x32.size a ≤ S128x32.size a
  hwx2_1 : ∀ i : grid2.Coords, EltTy.bits .f32 = 32 ∨ (Rect.block (s := S128x32) S128x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x1.size a ≤ S32x1.size a
  hwx2_3 : ∀ i : grid2.Coords, EltTy.bits .f32 = 32 ∨ (Rect.block (s := S32x1) S32x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x1.size a ≤ S1024x1.size a
  hwx2_5 : ∀ i : grid2.Coords, EltTy.bits .f32 = 32 ∨ (Rect.block (s := S1024x1) S1024x1.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x1024_S2000x128_S1024x128_0_0_1_1_n_n : DotDims S2000x1024 S2000x128 S1024x128 where
  lhsContracting := [0]
  rhsContracting := [0]
  lhsNonContracting := [1]
  rhsNonContracting := [1]
  lhsBatch := []
  rhsBatch := []
  wf := dot_S2000x1024_S2000x128_S1024x128_0_0_1_1_n_n_wf
def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_v36) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v39) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v50) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1024x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1024x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v51) S1024x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S32x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S1024x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1024x128 : Shape := ⟨2, ![1024, 128]⟩
abbrev S1024 : Shape := ⟨1, ![1024]⟩
abbrev S1024x1 : Shape := ⟨2, ![1024, 1]⟩
abbrev S1024x32 : Shape := ⟨2, ![1024, 32]⟩
abbrev S1x32 : Shape := ⟨2, ![1, 32]⟩
abbrev S1x1 : Shape := ⟨2, ![1, 1]⟩

abbrev nBuf : Space → Nat
  | .hbm => 175
  | .vmem => 0
  | .smem => 0
  | _ => 0

abbrev hbmTy0_0 (i : Nat) : BufTy := match i % 128 with
  | 0 => ⟨S100000x1, .f32⟩
  | 1 => ⟨S2x1600000, .i32⟩
  | 2 => ⟨S100000, .i32⟩
  | 3 => ⟨S1x128, .f32⟩
  | 4 => ⟨S128, .f32⟩
  | 5 => ⟨S128x128, .f32⟩
  | 6 => ⟨S128, .f32⟩
  | 7 => ⟨S128x32, .f32⟩
  | 8 => ⟨S32, .f32⟩
  | 9 => ⟨S32x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S_, .f32⟩
  | 17 => ⟨S100000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S_, .f32⟩
  | 27 => ⟨S1600000, .f32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x1, .f32⟩
  | 62 => ⟨S1600000x128, .f32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S_, .f32⟩
  | 69 => ⟨S100000, .f32⟩
  | 70 => ⟨S100000, .f32⟩
  | 71 => ⟨S100000x1, .f32⟩
  | 72 => ⟨S100000x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S_, .f32⟩
  | 83 => ⟨S100000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S_, .f32⟩
  | 93 => ⟨S1600000, .f32⟩
  | 94 => ⟨S100000, .f32⟩
  | 95 => ⟨S_, .f32⟩
  | 96 => ⟨S100000, .f32⟩
  | 97 => ⟨S100000, .f32⟩
  | 98 => ⟨S100000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000, .f32⟩
  | 117 => ⟨S1600000, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x128, .f32⟩
  | 127 => ⟨S1600000x1, .f32⟩
  | _ => ⟨S100000x1, .f32⟩

abbrev hbmTy0_1 (i : Nat) : BufTy := match i % 128 with
  | 0 => ⟨S1600000x128, .f32⟩
  | 1 => ⟨S1600000x128, .f32⟩
  | 2 => ⟨S_, .f32⟩
  | 3 => ⟨S100000x128, .f32⟩
  | 4 => ⟨S1600000x1, .i32⟩
  | 5 => ⟨S100000x128, .f32⟩
  | 6 => ⟨S_, .f32⟩
  | 7 => ⟨S100000, .f32⟩
  | 8 => ⟨S100000, .f32⟩
  | 9 => ⟨S100000x1, .f32⟩
  | 10 => ⟨S100000x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S_, .f32⟩
  | 20 => ⟨S1024x128, .f32⟩
  | 21 => ⟨S100000x1, .i32⟩
  | 22 => ⟨S1024x128, .f32⟩
  | 23 => ⟨S_, .f32⟩
  | 24 => ⟨S100000, .f32⟩
  | 25 => ⟨S_, .f32⟩
  | 26 => ⟨S1024, .f32⟩
  | 27 => ⟨S100000x1, .i32⟩
  | 28 => ⟨S1024, .f32⟩
  | 29 => ⟨S_, .f32⟩
  | 30 => ⟨S1024, .f32⟩
  | 31 => ⟨S1024, .f32⟩
  | 32 => ⟨S1024x1, .f32⟩
  | 33 => ⟨S1024x128, .f32⟩
  | 34 => ⟨S1024x128, .f32⟩
  | 35 => ⟨S1024x32, .f32⟩
  | 36 => ⟨S1x32, .f32⟩
  | 37 => ⟨S1024x32, .f32⟩
  | 38 => ⟨S1024x32, .f32⟩
  | 39 => ⟨S_, .f32⟩
  | 40 => ⟨S1024x32, .f32⟩
  | 41 => ⟨S1024x32, .f32⟩
  | 42 => ⟨S1024x1, .f32⟩
  | 43 => ⟨S1x1, .f32⟩
  | 44 => ⟨S1024x1, .f32⟩
  | 45 => ⟨S1024x1, .f32⟩
  | 46 => ⟨S1024, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call0_cst : Ref sig .tc := ⟨.hbm, 78, rfl⟩
abbrev main_call0_v0 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_c_17 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_18 : Ref sig .tc := ⟨.hbm, 108, rfl⟩
abbrev main_v75 : Ref sig .tc := ⟨.hbm, 109, rfl⟩
abbrev main_v76 : Ref sig .tc := ⟨.hbm, 110, rfl⟩
abbrev main_c_19 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_20 : Ref sig .tc := ⟨.hbm, 118, rfl⟩
abbrev main_v83 : Ref sig .tc := ⟨.hbm, 119, rfl⟩
abbrev main_v84 : Ref sig .tc := ⟨.hbm, 120, rfl⟩
abbrev main_c_21 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_22 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_23 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_call1_cst : Ref sig .tc := ⟨.hbm, 144, rfl⟩
abbrev main_call1_v0 : Ref sig .tc := ⟨.hbm, 145, rfl⟩
abbrev main_v105 : Ref sig .tc := ⟨.hbm, 146, rfl⟩
abbrev main_cst_24 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_25 : Ref sig .tc := ⟨.hbm, 151, rfl⟩
abbrev main_v109 : Ref sig .tc := ⟨.hbm, 152, rfl⟩
abbrev main_cst_26 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_27 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_call2_cst : Ref sig .tc := ⟨.hbm, 167, rfl⟩
abbrev main_call2_v0 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1024x128 : S_.BroadcastsInDim S1024x128 (![] : Fin 0 → Fin S1024x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  dot_S100000x1_S1x128_S100000x128_1_0_0_1_n_n_wf : DotDims.WF S100000x1 S1x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1
  dot_S1024x128_S128x32_S1024x32_1_0_0_1_n_n_wf : DotDims.WF S1024x128 S128x32 S1024x32 [1] [0] [0] [1] [] []
  dot_S1024x32_S32x1_S1024x1_1_0_0_1_n_n_wf : DotDims.WF S1024x32 S32x1 S1024x1 [1] [0] [0] [1] [] []

variable [Facts₀]

def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

class Facts : Prop extends Facts₀ where

variable [Facts]
-- ==== Proof.KI.R0.lean ====
import proofs.«420787_j68083821576362_3_alg».proof.Proof.Gen.KernelIdeal.Launch
import proofs.«420787_j68083821576362_3_alg».proof.Proof.Gen.KernelIdeal.Skeleton
import proofs.«420787_j68083821576362_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the fused two-layer kernel, one grid point at a time

The first pipelined region of the program walks a grid of 50 points. At each point it sees a block of 2000 rows
of the scaled feature column `s` and of the normalisation column `dinv`, the whole first-layer weight row and
bias row, and the whole second-layer weight matrix; it writes one 2000 × 128 block of the half-precision output.
The body reads each input buffer whole and overwrites the output buffer whole with one value, a closed function of
the five inputs: `relu(s · W1 + b1)` rounded to half precision, multiplied into `W2`, scaled row-wise by
`dinv`, rounded again.

Everything is stated at a parameter `V`: the buffer contents of the core when the region is entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at grid point `t`: the part of the window's array, as the region finds it, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: an input the body only reads keeps its block in its staging buffer, so at every point the
    buffer holds that point's block of the array, whether a transfer refilled it there or the block index stood still
    since the last refill. Stated for ANY proof data over the entry contents `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: an input the body only reads keeps its block in its staging buffer, so at every point the
    buffer holds that point's block of the array, whether a transfer refilled it there or the block index stood still
    since the last refill. Stated for ANY proof data over the entry contents `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: an input the body only reads keeps its block in its staging buffer, so at every point the
    buffer holds that point's block of the array, whether a transfer refilled it there or the block index stood still
    since the last refill. Stated for ANY proof data over the entry contents `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: an input the body only reads keeps its block in its staging buffer, so at every point the
    buffer holds that point's block of the array, whether a transfer refilled it there or the block index stood still
    since the last refill. Stated for ANY proof data over the entry contents `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: an input the body only reads keeps its block in its staging buffer, so at every point the
    buffer holds that point's block of the array, whether a transfer refilled it there or the block index stood still
    since the last refill. Stated for ANY proof data over the entry contents `V` whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one is the whole of its buffer -/

abbrev r0_a : Rect S2000x1 := Rect.unit (s := S2000x1) ![0, 0] S2000x1.size inb_S2000x1_S2000x1_0_0
abbrev r0_b : Rect S1x128 := Rect.unit (s := S1x128) ![0, 0] S1x128.size inb_S1x128_S1x128_0_0
abbrev r0_c : Rect S128x128 := Rect.unit (s := S128x128) ![0, 0] S128x128.size inb_S128x128_S128x128_0_0
abbrev r0_d : Rect S2000x128 := Rect.unit (s := S2000x128) ![0, 0] S2000x128.size inb_S2000x128_S2000x128_0_0

/-! ## What the body leaves in the output buffer -/

/-- The output buffer after the body, from the five input blocks: the single whole-block store, its payload the
    kernel's value of the whole-block loads. -/
def out0_5 (x0 : Vec F S2000x1 .f32) (x1 x2 : Vec F S1x128 .f32) (x3 : Vec F S128x128 .f32) (x4 : Vec F S2000x1 .f32) : Vec F S2000x128 .bf16 :=
  View.canon [⟨r0_d, k0_pay1 (View.ld x0 r0_a) (View.ld x1 r0_b) (View.ld x2 r0_b) (View.ld x3 r0_c) (View.ld x4 r0_a)⟩]

/-- One store of the whole block covers the block. -/
theorem cover0_5 (p0 : Vec F S2000x128 .bf16) (y : S2000x128.Idx) :
    ∃ pc ∈ ([⟨r0_d, p0⟩] : List (View.Piece (Elt F) S2000x128 .bf16)), y ∈ pc.1.set :=
  View.cover_of_tiled [⟨r0_d, p0⟩] S2000x128.size (by rfl) y

/-! ## The body's triple -/

set_option maxHeartbeats 1000000 in
/-- The kernel body on whole staging memrefs — the five inputs at read contents `x0 … x4`, the output at anything —
    runs to a continuation that holds the inputs as they were and the output at `out0_5` of them. The body also
    loads the output buffer before it stores; that value is never used, so any contents will do. -/
theorem sound_kernel0 (c : Dev nD) (E : Set ℕ) (i : grid0.Coords) (arg1 : Memref sig .tc .vmem S2000x1 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S2000x1 .f32) (harg5 : arg5.IsWhole) (arg6 : Memref sig .tc .vmem S2000x128 .bf16) (harg6 : arg6.IsWhole)
    (x0 : Vec F S2000x1 .f32) (x1 x2 : Vec F S1x128 .f32) (x3 : Vec F S128x128 .f32) (x4 : Vec F S2000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__fused_l1_l2_kernel_body i arg1 harg1 arg2 harg2 arg3 harg3 arg4 harg4 arg5 harg5 arg6 harg6) K := by
  simp only [cc0__fused_l1_l2_kernel_body_eq_skeleton]; unfold cc0__fused_l1_l2_kernel_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the region on core `c`: the arrays as the region finds them; after the body at point `t` each
    input's buffer still at its block and the output's at `out0_5` of the five input blocks; the invariant is the rest
    of the core's scoped memory and its generator register, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, the core's dues, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand
-- ==== Proof.KI.R1.lean ====
import proofs.«420787_j68083821576362_3_alg».proof.Proof.Gen.KernelIdeal.Launch
import proofs.«420787_j68083821576362_3_alg».proof.Proof.Gen.KernelIdeal.Skeleton
import proofs.«420787_j68083821576362_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! Region 1 of the program: the call that combines the two feature arrays, normalises, applies bias and ReLU, and pools
the rows of each of the fifty row blocks into per-graph sums by a one-hot product, accumulating in a scratch buffer
that lives across the grid; at the last block the sums are scaled by the reciprocal graph sizes and stored as the
result. Here: what the accumulator holds after each block (`acc1`), the pipeline's proof data (`dat1`) with the
invariant that carries the accumulator from block to block, and the body obligation — the body's run at the first, a
middle and the last block. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the pooling call, at the buffer contents `V` found when the region is entered -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (where it is not
    fetched its block index has not moved), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions on the grid point -/

/-- The first branch (the accumulator is reset): taken exactly at the first point. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)

/-- The second branch (the pooled sums are scaled and stored as the result): taken exactly at the last point. -/
abbrev cond1_1 (i : grid1.Coords) : Prop := k1_cond2 i = 1#1
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Off the last point nothing is stored into the result window, and its block is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last point the result window is live. -/
theorem liveAt1_6 : ∀ t : Fin cfg1.N, cond1_1 (grid1.coords t) → cfg1.idle 6 (grid1.coords t) = false := by decide +kernel

/-! ## The body's triple, case by case

Every load and store of the body is of a whole buffer: through the unit rectangle at zero offsets a load reads the
contents and a store leaves its payload. So each case's result is a payload term of the contents found. -/

/-! ### Whole-buffer accesses

Through the unit rectangle at zero offsets and the buffer's own sizes a load reads the contents, and a store made
last leaves its payload whatever came before. -/

section Whole
variable {sg : RefSig} {κ : Kind} {sp : Space} {S : Shape} {e : EltTy}

theorem r1_readAt_unit (v : View sg κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

theorem r1_read_writes_head (v : View sg κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

end Whole

/-- The zero offsets of a rank-two rectangle, however spelt. -/
theorem off2_zero1 : (![0, 0] : Fin 2 → ℕ) = fun _ => 0 := by
  funext a; fin_cases a <;> rfl

/-- The accumulation step read back: after the store of `k1_pay3` of the loaded blocks over a carried value `z`, the
    scratch holds that payload of the buffers' contents. -/
theorem r1_end_step (arg1 : Memref sig .tc .vmem S2000x128 .f32) (arg2 : Memref sig .tc .vmem S2000x128 .bf16) (arg3 : Memref sig .tc .vmem S2000x1 .f32) (arg4 : Memref sig .tc .vmem S1x128 .f32) (arg5 : Memref sig .tc .vmem S2000x1 .i32) (arg8 : Memref sig .tc .vmem S1024x128 .f32) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f8 : BufTy.Contents (Elt F) arg8.view.ty)
    (z : Vec F S1024x128 .f32) (L : List (View.Piece (Elt F) S1024x128 .f32)) :
    View.read (Elt F) arg8.view (arg8.view.writes (Elt F) f8 (⟨Rect.unit ![0, 0] S1024x128.size inb_S1024x128_S1024x128_0_0, k1_pay3 (View.readAt (Elt F) arg3.view (Rect.unit ![0, 0] S2000x1.size inb_S2000x1_S2000x1_0_0).toLoadRect f2) (View.readAt (Elt F) arg2.view (Rect.unit ![0, 0] S2000x128.size inb_S2000x128_S2000x128_0_0).toLoadRect f1) (View.readAt (Elt F) arg1.view (Rect.unit ![0, 0] S2000x128.size inb_S2000x128_S2000x128_0_0).toLoadRect f0) (View.readAt (Elt F) arg4.view (Rect.unit ![0, 0] S1x128.size inb_S1x128_S1x128_0_0).toLoadRect f3) (View.readAt (Elt F) arg5.view (Rect.unit ![0, 0] S2000x1.size inb_S2000x1_S2000x1_0_0).toLoadRect f4) z⟩ :: L))
      = k1_pay3 (View.read (Elt F) arg3.view f2) (View.read (Elt F) arg2.view f1) (View.read (Elt F) arg1.view f0) (View.read (Elt F) arg4.view f3) (View.read (Elt F) arg5.view f4) z := by
  refine (r1_read_writes_head (S := S1024x128) _ _ off2_zero1 _ _ _).trans ?_
  rw [r1_readAt_unit (S := S2000x1) arg3.view f2 off2_zero1, r1_readAt_unit (S := S2000x128) arg2.view f1 off2_zero1,
    r1_readAt_unit (S := S2000x128) arg1.view f0 off2_zero1, r1_readAt_unit (S := S1x128) arg4.view f3 off2_zero1,
    r1_readAt_unit (S := S2000x1) arg5.view f4 off2_zero1]

/-- A load of the scratch straight after the zeroing store reads the zeros. -/
theorem r1_end_zero (arg8 : Memref sig .tc .vmem S1024x128 .f32) :
    arg8.view.readCov [(⟨Rect.unit ![0, 0] S1024x128.size inb_S1024x128_S1024x128_0_0, k1_pay2 (F := F)⟩ : View.Piece (Elt F) S1024x128 .f32)] (Rect.unit ![0, 0] S1024x128.size inb_S1024x128_S1024x128_0_0).toLoadRect = k1_pay2 (F := F) :=
  View.readCov_unit_zero (S := S1024x128) arg8.view off2_zero1 _ _

/-- A load of the scratch straight after a covering store reads the payload stored. -/
theorem r1_end_back (arg8 : Memref sig .tc .vmem S1024x128 .f32) (w : Vec F S1024x128 .f32) :
    arg8.view.readCov [(⟨Rect.unit ![0, 0] S1024x128.size inb_S1024x128_S1024x128_0_0, w⟩ : View.Piece (Elt F) S1024x128 .f32)] (Rect.unit ![0, 0] S1024x128.size inb_S1024x128_S1024x128_0_0).toLoadRect = w :=
  View.readCov_unit_zero (S := S1024x128) arg8.view off2_zero1 _ _

/-- The result read back: after the store of `k1_pay1` of a value `z` and the loaded reciprocal counts. -/
theorem r1_end_out (arg6 : Memref sig .tc .vmem S1024x1 .f32) (arg7 : Memref sig .tc .vmem S1024x128 .f32) (f5 : BufTy.Contents (Elt F) arg6.view.ty) (f6 : BufTy.Contents (Elt F) arg7.view.ty)
    (z : Vec F S1024x128 .f32) (L : List (View.Piece (Elt F) S1024x128 .f32)) :
    View.read (Elt F) arg7.view (arg7.view.writes (Elt F) f6 (⟨Rect.unit ![0, 0] S1024x128.size inb_S1024x128_S1024x128_0_0, k1_pay1 z (View.readAt (Elt F) arg6.view (Rect.unit ![0, 0] S1024x1.size inb_S1024x1_S1024x1_0_0).toLoadRect f5)⟩ :: L))
      = k1_pay1 z (View.read (Elt F) arg6.view f5) := by
  refine (r1_read_writes_head (S := S1024x128) _ _ off2_zero1 _ _ _).trans ?_
  rw [r1_readAt_unit (S := S1024x1) arg6.view f5 off2_zero1]

/-- The accumulation payload of the loaded blocks and the loaded scratch is that of the buffers' contents. -/
theorem r1_pay3_reads (arg1 : Memref sig .tc .vmem S2000x128 .f32) (arg2 : Memref sig .tc .vmem S2000x128 .bf16) (arg3 : Memref sig .tc .vmem S2000x1 .f32) (arg4 : Memref sig .tc .vmem S1x128 .f32) (arg5 : Memref sig .tc .vmem S2000x1 .i32) (arg8 : Memref sig .tc .vmem S1024x128 .f32) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f8 : BufTy.Contents (Elt F) arg8.view.ty) :
    k1_pay3 (View.readAt (Elt F) arg3.view (Rect.unit ![0, 0] S2000x1.size inb_S2000x1_S2000x1_0_0).toLoadRect f2) (View.readAt (Elt F) arg2.view (Rect.unit ![0, 0] S2000x128.size inb_S2000x128_S2000x128_0_0).toLoadRect f1) (View.readAt (Elt F) arg1.view (Rect.unit ![0, 0] S2000x128.size inb_S2000x128_S2000x128_0_0).toLoadRect f0) (View.readAt (Elt F) arg4.view (Rect.unit ![0, 0] S1x128.size inb_S1x128_S1x128_0_0).toLoadRect f3) (View.readAt (Elt F) arg5.view (Rect.unit ![0, 0] S2000x1.size inb_S2000x1_S2000x1_0_0).toLoadRect f4) (View.readAt (Elt F) arg8.view (Rect.unit ![0, 0] S1024x128.size inb_S1024x128_S1024x128_0_0).toLoadRect f8)
      = k1_pay3 (View.read (Elt F) arg3.view f2) (View.read (Elt F) arg2.view f1) (View.read (Elt F) arg1.view f0) (View.read (Elt F) arg4.view f3) (View.read (Elt F) arg5.view f4) (View.read (Elt F) arg8.view f8) := by
  rw [r1_readAt_unit (S := S2000x1) arg3.view f2 off2_zero1, r1_readAt_unit (S := S2000x128) arg2.view f1 off2_zero1,
    r1_readAt_unit (S := S2000x128) arg1.view f0 off2_zero1, r1_readAt_unit (S := S1x128) arg4.view f3 off2_zero1,
    r1_readAt_unit (S := S2000x1) arg5.view f4 off2_zero1, r1_readAt_unit (S := S1024x128) arg8.view f8 off2_zero1]

/-- The scratch operand: a whole scoped buffer of the call's own, carried from point to point. -/
abbrev scM1 : Memref sig .tc .vmem S1024x128 .f32 := Memref.whole cc1_scratch0

set_option maxHeartbeats 1000000 in
/-- CASE A, the first point: the accumulator is reset to zeros, then this point's pooled block is added; the result
    window is not touched. -/
theorem sound_kernel1_A (c : Dev nD) (E : Set ℕ) (i : grid1.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x1 .i32) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x128 .f32) (harg8 : arg8.IsWhole)
    (hc0 : cond1_0 i) (hc1 : ¬cond1_1 i)
    (x0 : Vec F S2000x128 .f32) (x1 : Vec F S2000x128 .bf16) (x2 : Vec F S2000x1 .f32) (x3 : Vec F S1x128 .f32) (x4 : Vec F S2000x1 .i32) (x5 : Vec F S1024x1 .f32) (xi6 : Vec F S1024x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare (k1_pay3 x2 x1 x0 x3 x4 k1_pay2)) -∗ K ⟨⟩))
      ⊢ wp frame (wpE (defs₀ (F := F)) Variants.none c none) E (cc1__combine_pool_kernel_body i arg1 harg1 arg2 harg2 arg3 harg3 arg4 harg4 arg5 harg5 arg6 harg6 arg7 harg7 arg8 harg8) K := by
  simp only [cc1__combine_pool_kernel_body_eq_skeleton]; unfold cc1__combine_pool_kernel_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, Hk⟩
  subst hf0 hf1 hf2 hf3 hf4 hf5
  subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  exact (r1_end_step arg1 arg2 arg3 arg4 arg5 arg8 f0 f1 f2 f3 f4 f8 _ _).trans
    (congrArg (k1_pay3 _ _ _ _ _) (r1_end_zero arg8))

set_option maxHeartbeats 1000000 in
/-- CASE B, a middle point: this point's pooled block is added to the accumulator the point before left (`xs`). -/
theorem sound_kernel1_B (c : Dev nD) (E : Set ℕ) (i : grid1.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x1 .i32) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x128 .f32) (harg8 : arg8.IsWhole)
    (hc0 : ¬cond1_0 i) (hc1 : ¬cond1_1 i)
    (x0 : Vec F S2000x128 .f32) (x1 : Vec F S2000x128 .bf16) (x2 : Vec F S2000x1 .f32) (x3 : Vec F S1x128 .f32) (x4 : Vec F S2000x1 .i32) (x5 : Vec F S1024x1 .f32) (xi6 : Vec F S1024x128 .f32) (xs : Vec F S1024x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare (k1_pay3 x2 x1 x0 x3 x4 xs)) -∗ K ⟨⟩))
      ⊢ wp frame (wpE (defs₀ (F := F)) Variants.none c none) E (cc1__combine_pool_kernel_body i arg1 harg1 arg2 harg2 arg3 harg3 arg4 harg4 arg5 harg5 arg6 harg6 arg7 harg7 arg8 harg8) K := by
  simp only [cc1__combine_pool_kernel_body_eq_skeleton]; unfold cc1__combine_pool_kernel_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, Hk⟩
  subst hf0 hf1 hf2 hf3 hf4 hf5
  subst hf6 hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  exact (r1_end_step arg1 arg2 arg3 arg4 arg5 arg8 f0 f1 f2 f3 f4 f8 _ _).trans
    (congrArg (k1_pay3 _ _ _ _ _) (r1_readAt_unit (S := S1024x128) arg8.view f8 off2_zero1 _))

set_option maxHeartbeats 1000000 in
/-- CASE C, the last point: as a middle point, and then the accumulator scaled row by row is stored as the result. -/
theorem sound_kernel1_C (c : Dev nD) (E : Set ℕ) (i : grid1.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x1 .i32) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x128 .f32) (harg8 : arg8.IsWhole)
    (hc0 : ¬cond1_0 i) (hc1 : cond1_1 i)
    (x0 : Vec F S2000x128 .f32) (x1 : Vec F S2000x128 .bf16) (x2 : Vec F S2000x1 .f32) (x3 : Vec F S1x128 .f32) (x4 : Vec F S2000x1 .i32) (x5 : Vec F S1024x1 .f32) (xs : Vec F S1024x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay1 (k1_pay3 x2 x1 x0 x3 x4 xs) x5) ∗ owns (c : Thread nD τ) arg8 fullShare (k1_pay3 x2 x1 x0 x3 x4 xs)) -∗ K ⟨⟩))
      ⊢ wp frame (wpE (defs₀ (F := F)) Variants.none c none) E (cc1__combine_pool_kernel_body i arg1 harg1 arg2 harg2 arg3 harg3 arg4 harg4 arg5 harg5 arg6 harg6 arg7 harg7 arg8 harg8) K := by
  simp only [cc1__combine_pool_kernel_body_eq_skeleton]; unfold cc1__combine_pool_kernel_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f8, %hf8, H8⟩, Hk⟩
  subst hf0 hf1 hf2 hf3 hf4 hf5
  subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact (r1_end_out arg6 arg7 f5 f6 _ _).trans
      (congrArg (fun z => k1_pay1 z _) ((r1_end_back arg8 _).trans (r1_pay3_reads arg1 arg2 arg3 arg4 arg5 arg8 f0 f1 f2 f3 f4 f8)))
  iexists _; isplitr
  swap; · iexact H8
  ipureintro
  exact (r1_end_step arg1 arg2 arg3 arg4 arg5 arg8 f0 f1 f2 f3 f4 f8 _ _).trans
    (congrArg (k1_pay3 _ _ _ _ _) (r1_readAt_unit (S := S1024x128) arg8.view f8 off2_zero1 _))

/-! ## What the accumulator holds after each point -/

/-- THE ACCUMULATION. The scratch after the body at position `n`: at the first point the payload `k1_pay3` of that
    point's blocks (row scales, features, aggregate, bias, graph ids: windows 2, 1, 0, 3, 4) over the zeros `k1_pay2`;
    at a later point the same payload of that point's blocks over what the point before left. -/
def acc1 (c : Dev nD) : (n : ℕ) → n < cfg1.N → Vec F S1024x128 .f32
  | 0, hn => k1_pay3 (iblk1 V c 2 ⟨0, hn⟩) (iblk1 V c 1 ⟨0, hn⟩) (iblk1 V c 0 ⟨0, hn⟩) (iblk1 V c 3 ⟨0, hn⟩) (iblk1 V c 4 ⟨0, hn⟩) k1_pay2
  | n + 1, hn => k1_pay3 (iblk1 V c 2 ⟨n + 1, hn⟩) (iblk1 V c 1 ⟨n + 1, hn⟩) (iblk1 V c 0 ⟨n + 1, hn⟩) (iblk1 V c 3 ⟨n + 1, hn⟩) (iblk1 V c 4 ⟨n + 1, hn⟩) (acc1 c n (Nat.lt_of_succ_lt hn))

/-- The accumulator after the first point. -/
theorem acc1_zero (c : Dev nD) (hn : 0 < cfg1.N) :
    acc1 V c 0 hn = k1_pay3 (iblk1 V c 2 ⟨0, hn⟩) (iblk1 V c 1 ⟨0, hn⟩) (iblk1 V c 0 ⟨0, hn⟩) (iblk1 V c 3 ⟨0, hn⟩) (iblk1 V c 4 ⟨0, hn⟩) k1_pay2 := rfl

/-- The accumulator after a later point, over the one before. -/
theorem acc1_succ (c : Dev nD) (n : ℕ) (hn : n + 1 < cfg1.N) :
    acc1 V c (n + 1) hn = k1_pay3 (iblk1 V c 2 ⟨n + 1, hn⟩) (iblk1 V c 1 ⟨n + 1, hn⟩) (iblk1 V c 0 ⟨n + 1, hn⟩) (iblk1 V c 3 ⟨n + 1, hn⟩) (iblk1 V c 4 ⟨n + 1, hn⟩) (acc1 V c n (Nat.lt_of_succ_lt hn)) := rfl

/-- At the first point, stated at the point. -/
theorem acc1_first (c : Dev nD) (t : Fin cfg1.N) (hz : t.val = 0) :
    acc1 V c t.val t.isLt = k1_pay3 (iblk1 V c 2 t) (iblk1 V c 1 t) (iblk1 V c 0 t) (iblk1 V c 3 t) (iblk1 V c 4 t) k1_pay2 := by
  obtain ⟨n, hn⟩ := t
  cases n with
  | zero => rfl
  | succ n => exact absurd hz (Nat.succ_ne_zero n)

/-- At a later point, stated at the point. -/
theorem acc1_later (c : Dev nD) (t : Fin cfg1.N) (hz : t.val ≠ 0) :
    acc1 V c t.val t.isLt = k1_pay3 (iblk1 V c 2 t) (iblk1 V c 1 t) (iblk1 V c 0 t) (iblk1 V c 3 t) (iblk1 V c 4 t) (acc1 V c (t.val - 1) (Nat.lt_of_le_of_lt (Nat.sub_le _ _) t.isLt)) := by
  obtain ⟨n, hn⟩ := t
  cases n with
  | zero => exact absurd rfl hz
  | succ n => rfl

/-! ## The region invariant -/

/-- The class's invariant with the scratch split off the other scoped buffers, which stay unopened. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide), bigSepL_singleton]
  simp only [scM1, owns_whole]
  try rfl

/-- Before the first point the class's invariant; afterwards the scratch at what the point before left, beside the other
    scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r))

/-! The invariant's two shapes, by the position. -/
theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the pooling call on core `c`: the arrays as the region finds them; after the body each input's
    buffer at its block; the result window at the accumulator scaled row by row by the reciprocal counts (window 5's
    block) — what the last point stores; at the other points, where the window is idle and not written back, nothing
    consults it —; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay1 (acc1 V c t.val t.isLt) (iblk1 V c 5 t)
  Φ t := PhiS1 V c t.val (Nat.le_of_lt_succ t.isLt)
  q _ := fullShare
  owed _ := 0

/-- The proof data's arrays are the contents found when the region is entered. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay1 (acc1 V c t.val t.isLt) (iblk1 V c 5 t) := by dsimp only [dat1]

/-- What the result window holds after the last point: the last accumulator, scaled by the reciprocal counts. -/
theorem after1_6_last (c : Dev nD) (t : Fin cfg1.N) (ht : t.val = 49) :
    (dat1 V c).after 6 t = k1_pay1 (acc1 V c t.val t.isLt) (iblk1 V c 5 t) := after1_6 V c t

/-! Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-! Each window's current staging buffer at point `t`, and that it is a whole buffer. -/
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2000x1 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks; the point is the first, a middle one or the last
    (the two conditions in closed form); the invariant hands the body the scratch — at anything at the first point, at
    what the point before left afterwards — and takes it back at this point's accumulator; off the last point the result
    window's buffer goes back as it came, at the last it holds the scaled accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 50 = 0
  · -- the first point
    have hz : t.val = 0 := by omega
    have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1)]
    rw [acc1_first V c t hz]
    rw [PhiS1_castSucc V c t, PhiS1_zero V c _ _ hz, PhiA1_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := by omega
    have hc0 : ¬cond1_0 (grid1.coords t) := fun h => h0 ((hcond1_0 t).mp h)
    rw [acc1_later V c t hz]
    rw [PhiS1_castSucc V c t, PhiS1_pos V c _ _ hz]
    by_cases h1 : t.val % 50 = 49
    · -- the last point
      have hc1 : cond1_1 (grid1.coords t) := (hcond1_1 t).mpr h1
      rw [show (dat1 V c).leavesExact 6 t = owns (c : Thread nD τ) (ms1_6 t) fullShare ((dat1 V c).after 6 t) from by
        unfold Dat.leavesExact; rw [liveAt1_6 t hc1], after1_6, acc1_later V c t hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_C c Set.univ (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hc1 : ¬cond1_1 (grid1.coords t) := fun h => h1 ((hcond1_1 t).mp h)
      rw [Dat.leavesExact_idle (dat1 V c) 6 t (idleAt1_6 t hc1) (noFlush1_6 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_B c Set.univ (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of the pooling call, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 50 := N_1; omega)

end Cert.KernelIdeal.Hand

end
-- ==== Proof.KI.R2.lean ====
import proofs.«420787_j68083821576362_3_alg».proof.Proof.Gen.KernelIdeal.Launch
import proofs.«420787_j68083821576362_3_alg».proof.Proof.Gen.KernelIdeal.Skeleton
import proofs.«420787_j68083821576362_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: the head kernel on its one-point grid

The third pallas_call runs once. Its body reads five whole input blocks (the pooled features, two weight
matrices and two bias rows), and writes one whole output block: the two-layer head applied to the pooled
features. This module states what each window's staging buffer holds after that single body run, as a function
of the buffer contents `V` found when the region is entered, and proves the body's obligation against it. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds that window's block at every point, for any proof data whose array is
    `V`'s and whose body leaves the block in place. One lemma per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take the whole block -/

abbrev r2_0 : Rect S1024x128 := Rect.unit (s := S1024x128) ![0, 0] S1024x128.size inb_S1024x128_S1024x128_0_0
abbrev r2_1 : Rect S128x32 := Rect.unit (s := S128x32) ![0, 0] S128x32.size inb_S128x32_S128x32_0_0
abbrev r2_2 : Rect S1x32 := Rect.unit (s := S1x32) ![0, 0] S1x32.size inb_S1x32_S1x32_0_0
abbrev r2_3 : Rect S32x1 := Rect.unit (s := S32x1) ![0, 0] S32x1.size inb_S32x1_S32x1_0_0
abbrev r2_4 : Rect S1x1 := Rect.unit (s := S1x1) ![0, 0] S1x1.size inb_S1x1_S1x1_0_0
abbrev r2_5 : Rect S1024x1 := Rect.unit (s := S1024x1) ![0, 0] S1024x1.size inb_S1024x1_S1024x1_0_0

/-! ## What the body leaves in the output window's buffer -/

/-- The output buffer after the body, from the five input blocks: its single store, of the head's value on
    the blocks as loaded. -/
def out2_5 (x0 : Vec F S1024x128 .f32) (x1 : Vec F S128x32 .f32) (x2 : Vec F S1x32 .f32) (x3 : Vec F S32x1 .f32) (x4 : Vec F S1x1 .f32) : Vec F S1024x1 .f32 :=
  View.canon [⟨r2_5, k2_pay1 (View.ld x0 r2_0) (View.ld x1 r2_1) (View.ld x2 r2_2) (View.ld x3 r2_3) (View.ld x4 r2_4)⟩]

/-- The one store takes the whole buffer, so it covers it. -/
theorem cover2_5 (p0 : Vec F S1024x1 .f32) (y : S1024x1.Idx) :
    ∃ pc ∈ ([⟨r2_5, p0⟩] : List (View.Piece (Elt F) S1024x1 .f32)), y ∈ pc.1.set :=
  View.cover_of_tiled [⟨r2_5, p0⟩] S1024x1.size (by rfl) y

/-! ## The body's triple -/

set_option maxHeartbeats 1000000 in
/-- The body on whole staging memrefs, the inputs' at contents `x0 … x4` and the output's at anything, runs to
    the continuation holding the inputs' as they were and the output's at `out2_5` of the inputs'. -/
theorem sound_kernel2 (c : Dev nD) (E : Set ℕ) (i : grid2.Coords)
    (arg1 : Memref sig .tc .vmem S1024x128 .f32) (harg1 : arg1.IsWhole) (arg2 : Memref sig .tc .vmem S128x32 .f32) (harg2 : arg2.IsWhole)
    (arg3 : Memref sig .tc .vmem S1x32 .f32) (harg3 : arg3.IsWhole) (arg4 : Memref sig .tc .vmem S32x1 .f32) (harg4 : arg4.IsWhole)
    (arg5 : Memref sig .tc .vmem S1x1 .f32) (harg5 : arg5.IsWhole) (arg6 : Memref sig .tc .vmem S1024x1 .f32) (harg6 : arg6.IsWhole)
    (x0 : Vec F S1024x128 .f32) (x1 : Vec F S128x32 .f32) (x2 : Vec F S1x32 .f32) (x3 : Vec F S32x1 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__head_kernel_body i arg1 harg1 arg2 harg2 arg3 harg3 arg4 harg4 arg5 harg5 arg6 harg6) K := by
  simp only [cc2__head_kernel_body_eq_skeleton]; unfold cc2__head_kernel_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body each input's
    buffer at its block and the output's at `out2_5` of the input blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

/-- Each input's staging buffer holds its block when the body is called. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at its point: the inputs' memrefs hold their blocks, so the body's triple applies; the invariant
    and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Run.lean ====
import proofs.«420787_j68083821576362_3_alg».proof.Proof.Gen.KernelIdeal.Launch
import proofs.«420787_j68083821576362_3_alg».proof.Proof.Gen.KernelIdeal.Skeleton
import proofs.«420787_j68083821576362_3_alg».proof.Proof.Gen.KernelIdeal.Points
import proofs.«420787_j68083821576362_3_alg».proof.Proof.KI.R0
import proofs.«420787_j68083821576362_3_alg».proof.Proof.KI.R1
import proofs.«420787_j68083821576362_3_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of the whole program

The program is seven pieces in a row: a stretch of host operations, the first pipelined region, a second
stretch, the second region, a third stretch, the third region, and a last stretch of one reshape. Each piece is
described by what it needs of the core's unscoped buffers when it starts and what it leaves in them when it ends;
consecutive pieces fit because the contents one leaves are, by name, the contents the next one starts from.

The contents at the eight boundaries are a fold from the launch memory: a host stretch applies its operations in
order; a region replaces its windows' arrays by what its write-backs leave and touches nothing else. Reading the
fold backwards at an argument's buffer reaches the launch memory, because no host operation writes an argument and
a region only ever reads one through an input window, whose array it never writes back.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the eight boundaries -/

/-- Core `c`'s buffers at launch. -/
abbrev W0 : Dev nD → Valuation τ sig (Elt F) := fun c b => (s₀ m ρ).mem ((c : Dev nD), b)
/-- After the first host stretch: what the first region is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- After the first region: its windows' arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- At the first region's exit each of its arrays holds what the pipeline leaves, and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the second region is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: what the third region is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the third region. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the contents the program ends with. -/
abbrev W7 : Dev nD → Valuation τ sig (Elt F) := fun c => StableHlo.after hostOps3 (W6 m ρ c)

/-! ## What a host stretch leaves alone

Each stretch writes only the results of its own operations: a reference outside that list keeps its contents. -/

/-- The references the operations of host stretch 0 write, in order. -/
abbrev hostWrites0 : List (Ref sig .tc) := [main_v0, main_v1, main_v2, main_v3, main_cst, main_v4, main_cst_0, main_v5, main_v6, main_v7, main_cst_1, main_v8, main_v9, main_v10, main_v11, main_v12, main_cst_2, main_v13, main_cst_3, main_v14, main_v15, main_v16, main_cst_4, main_v17, main_v18, main_cst_5, main_v19, main_v20, main_v21, main_v22, main_v23, main_c, main_v24, main_v25, main_c_6, main_v26, main_v27, main_v28, main_v29, main_v30, main_cst_7, main_v31, main_v32, main_v33, main_v34, main_v35, main_v36, main_v37, main_v38]
theorem hostOps0_writes : (hostOps0 : List (HloOp τ sig (Elt F))).Forall fun op => op.writes ⊆ (hostWrites0.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- The references the operations of host stretch 1 write, in order. -/
abbrev hostWrites1 : List (Ref sig .tc) := [main_c_8, main_v40, main_v41, main_c_9, main_v42, main_v43, main_v44, main_v45, main_v46, main_v47, main_cst_10, main_v48, main_v49, main_v50]
theorem hostOps1_writes : (hostOps1 : List (HloOp τ sig (Elt F))).Forall fun op => op.writes ⊆ (hostWrites1.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- The references the operations of host stretch 2 write, in order. -/
abbrev hostWrites2 : List (Ref sig .tc) := [main_v52, main_v53]
theorem hostOps2_writes : (hostOps2 : List (HloOp τ sig (Elt F))).Forall fun op => op.writes ⊆ (hostWrites2.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- The references the operations of host stretch 3 write, in order. -/
abbrev hostWrites3 : List (Ref sig .tc) := [main_v55]
theorem hostOps3_writes : (hostOps3 : List (HloOp τ sig (Elt F))).Forall fun op => op.writes ⊆ (hostWrites3.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
theorem W1_of (c : Dev nD) (r : Ref sig .tc) (h : r ∉ hostWrites0) :
    W1 m ρ c (Proc.devRef .tc r) = W0 m ρ c (Proc.devRef .tc r) :=
  StableHlo.after_of_writes_sub hostOps0 _ hostOps0_writes h
theorem W3_of (c : Dev nD) (r : Ref sig .tc) (h : r ∉ hostWrites1) :
    W3 m ρ c (Proc.devRef .tc r) = W2 m ρ c (Proc.devRef .tc r) :=
  StableHlo.after_of_writes_sub hostOps1 _ hostOps1_writes h
theorem W5_of (c : Dev nD) (r : Ref sig .tc) (h : r ∉ hostWrites2) :
    W5 m ρ c (Proc.devRef .tc r) = W4 m ρ c (Proc.devRef .tc r) :=
  StableHlo.after_of_writes_sub hostOps2 _ hostOps2_writes h
theorem W7_of (c : Dev nD) (r : Ref sig .tc) (h : r ∉ hostWrites3) :
    W7 m ρ c (Proc.devRef .tc r) = W6 m ρ c (Proc.devRef .tc r) :=
  StableHlo.after_of_writes_sub hostOps3 _ hostOps3_writes h

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := W1_of m ρ c main_arg3 (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := (W2_arr m ρ c 3).trans (((dat0 (V1 m ρ) c).arrAt_in 3 rfl _).trans (A_eq0 (V1 m ρ) c 3))
    _ = W0 m ρ c (Proc.devRef .tc main_arg5) := W1_of m ρ c main_arg5 (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of m ρ c main_arg7 (by decide)
    _ = W5 m ρ c (Proc.devRef .tc main_arg7) := (W6_arr m ρ c 1).trans (((dat2 (V5 m ρ) c).arrAt_in 1 rfl _).trans (A_eq2 (V5 m ρ) c 1))
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of m ρ c main_arg9 (by decide)
    _ = W5 m ρ c (Proc.devRef .tc main_arg9) := (W6_arr m ρ c 3).trans (((dat2 (V5 m ρ) c).arrAt_in 3 rfl _).trans (A_eq2 (V5 m ρ) c 3))
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-! ## The proof data family and the thread state -/

/-- The prefetched tables' admissible contents: no pipeline has a table. -/
abbrev adm : (p : Fin 3) → (pcfgs (F := F) p).Adm := fun p => (cfgs p).toPCfg_adm
/-- Every pipeline's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every piece: the core's generator register at some state and the core
    owing nothing. -/
abbrev R (c : Dev nD) : sProp 𝕄 := iprop((∃ r, prngReg c r) ∗ ∃ W, owes (c : Thread nD τ) (0 : CellTallies nD τ sig Unit) W)
/-- A host stretch as a piece of the run: the unscoped buffers from the contents `W`, to the same buffers after the
    stretch's operations, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of the program allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents `W7`, the generator
    register at some state. -/
abbrev Tₙ (c : Dev nD) : sProp 𝕄 := iprop(StableHlo.held (c : Thread nD τ) (Pipeline.ucRefs τ sig) (W7 m ρ c) ∗ ∃ r, prngReg c r)

/-! ## The regions as pieces of the run

A region is entered from every unscoped buffer at the contents before it. Its windows' arrays are split out of the
unscoped buffers and handed to the pipeline, the rest bypasses it; the generator register goes into the region's
invariant and comes back; nothing is owed, and the kernels have no semaphore of their own. At the exit the arrays,
now at what the write-backs left, are joined with the bypassed rest into the contents after the region. -/

set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven pieces, and the launch -/

/-- The seven pieces in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The program is the run of its pieces: it is the chain of the seven fragments, and so is the pieces' run. -/
theorem main_run (c : Dev nD) : main (F := F) c = Pipeline.Seg.run (segs m ρ) := by
  rw [main_chain c, Pipeline.Seg.run_eq_chain]; rfl

set_option backward.isDefEq.respectTransparency.types false in
/-- THE RUN. From any memory with zero counters, every weakly fair execution of the program on the TensorCores
    terminates, nothing faulting, and in every final state each unscoped buffer holds the end of the fold, `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      (show iprop(StableHlo.held (c : Thread nD τ) (Pipeline.ucRefs τ sig) (W7 m ρ c) ∗ R c)
          ⊢ (iprop(Tₙ m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-- THE FRAME: every argument array ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c)⟩) (run_all m ρ)

end Cert.KernelIdeal.Hand

end
-- ==== Proof.KI.R0Value.lean ====
import proofs.«420787_j68083821576362_3_alg».proof.Proof.KI.R0
import Idealize.ShloMosaic.Lib.Pipeline.Value
import Idealize.ShloMosaic.Lib.ValueIdx
import Idealize.ShloMosaic.PureOps.Ideal.Laws

/-!
# Region 0: the array the first kernel leaves, entry by entry

Row `i` of the result is the row vector `relu(s i · W1 + b1)` of length 128 multiplied into the
128 × 128 matrix `W2` and scaled by `dinv i`. First the value of one block at one of its entries, then the
blocks put side by side: the point that writes row `i` is `i / 2000`, and every input block is read at the rows
the output block names.
-/

noncomputable section

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat)

/-! ## The contraction's operand indices, axis by axis -/

theorem lhs_mm0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product at an entry: row `r` of the left factor against column `j` of the right one. -/
theorem mm0_apply (a : FVec Ideal S2000x128 .bf16) (b : FVec Ideal S128x128 .bf16) (r : Fin 2000) (j : Fin 128) :
    matmul dot_S2000x128_S128x128_S2000x128_1_0_0_1_n_n none a b (constant (F := Ideal) S2000x128 .f32 0x00000000#32) (ix2 r j)
      = ∑ k : Fin 128, a (ix2 r k) * b (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun a => Fin.ext (by
    match a with
    | ⟨0, _⟩ => exact lhs_mm0_0 _ _
    | ⟨1, _⟩ => exact (lhs_mm0_1 _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun a => Fin.ext (by
    match a with
    | ⟨0, _⟩ => exact (rhs_mm0_0 _ _).trans hk
    | ⟨1, _⟩ => exact rhs_mm0_1 _ _)
  rw [el, er]

/-- A column [2000,1] spread over 128 lanes reads its row's one entry. -/
theorem bcol_apply (x : FVec Ideal S2000x1 .f32) (r : Fin 2000) (j : Fin 128) :
    broadcastTo S2000x128 x broadcasts_S2000x1_S2000x128 (ix2 r j) = x (ix2 r 0) :=
  broadcastTo_apply x broadcasts_S2000x1_S2000x128 (ix2 r j) (ix2 r 0) (fun a => match a with
    | ⟨0, _⟩ => by show r.val = if (2000 : Nat) = 1 then 0 else r.val; rw [if_neg (by decide)]
    | ⟨1, _⟩ => by show 0 = if (1 : Nat) = 1 then 0 else j.val; rw [if_pos rfl])

/-- A row [1,128] spread over 2000 rows reads its lane's one entry. -/
theorem brow_apply (x : FVec Ideal S1x128 .f32) (r : Fin 2000) (j : Fin 128) :
    broadcastTo S2000x128 x broadcasts_S1x128_S2000x128 (ix2 r j) = x (ix2 0 j) :=
  broadcastTo_apply x broadcasts_S1x128_S2000x128 (ix2 r j) (ix2 0 j) (fun a => match a with
    | ⟨0, _⟩ => by show 0 = if (1 : Nat) = 1 then 0 else r.val; rw [if_pos rfl]
    | ⟨1, _⟩ => by show j.val = if (128 : Nat) = 1 then 0 else j.val; rw [if_neg (by decide)])

/-- The kernel's value at an entry of the block. -/
theorem pay0_apply (v0 v16 : Vec Ideal S2000x1 .f32) (v2 v3 : Vec Ideal S1x128 .f32) (v13 : Vec Ideal S128x128 .f32)
    (r : Fin 2000) (j : Fin 128) :
    k0_pay1 (F := Ideal) v0 v2 v3 v13 v16 (ix2 r j)
      = (∑ k : Fin 128, max (v0 (ix2 r 0) * v2 (ix2 0 k) + v3 (ix2 0 k)) 0 * v13 (ix2 k j)) * v16 (ix2 r 0) := by
  unfold k0_pay1
  simp only [shapeCast_self]
  rw [truncf_apply, mulf_apply, mm0_apply, bcol_apply]
  refine congrArg (· * v16 (ix2 r 0)) (Finset.sum_congr rfl fun k _ => ?_)
  rw [truncf_apply, truncf_apply, maximumf_apply, addf_apply, mulf_apply, bcol_apply, brow_apply, brow_apply,
    broadcast_apply]
  show max _ (Ideal.ofBits .f32 0x00000000#32) * _ = _
  rw [Ideal.ofBits_zero_f32]

/-! ## The closed form -/

/-- Entry `(i, j)` of the result from the five arrays the region reads. -/
abbrev r0Val (s : S100000x1.Idx → EReal) (w1 b1 : S1x128.Idx → EReal) (w2 : S128x128.Idx → EReal)
    (dinv : S100000x1.Idx → EReal) (i : Fin 100000) (j : Fin 128) : EReal :=
  (∑ k : Fin 128, max (s (ix2 i 0) * w1 (ix2 0 k) + b1 (ix2 0 k)) 0 * w2 (ix2 k j)) * dinv (ix2 i 0)

theorem r0Val_def (s : S100000x1.Idx → EReal) (w1 b1 : S1x128.Idx → EReal) (w2 : S128x128.Idx → EReal)
    (dinv : S100000x1.Idx → EReal) (i : Fin 100000) (j : Fin 128) :
    r0Val s w1 b1 w2 dinv i j
      = (∑ k : Fin 128, max (s (ix2 i 0) * w1 (ix2 0 k) + b1 (ix2 0 k)) 0 * w2 (ix2 k j)) * dinv (ix2 i 0) := rfl

/-- The whole result as one function of its index. -/
def r0Arr (s : S100000x1.Idx → EReal) (w1 b1 : S1x128.Idx → EReal) (w2 : S128x128.Idx → EReal)
    (dinv : S100000x1.Idx → EReal) : S100000x128.Idx → EReal :=
  fun i => r0Val s w1 b1 w2 dinv (i 0) (i 1)

/-- A block's entry `(p, q)` is the closed form at row `i` as soon as the two column blocks hold row `i` at `p`
    and the three whole-array blocks are their arrays. -/
theorem pay0_at (x0 x4 : Vec Ideal S2000x1 .f32) (x1 x2 : Vec Ideal S1x128 .f32) (x3 : Vec Ideal S128x128 .f32)
    (s dinv : S100000x1.Idx → EReal) (w1 b1 : S1x128.Idx → EReal) (w2 : S128x128.Idx → EReal)
    (p : Fin 2000) (q : Fin 128) (i : Fin 100000)
    (h0 : x0 (ix2 p 0) = s (ix2 i 0)) (h1 : ∀ k : Fin 128, x1 (ix2 0 k) = w1 (ix2 0 k))
    (h2 : ∀ k : Fin 128, x2 (ix2 0 k) = b1 (ix2 0 k)) (h3 : ∀ k : Fin 128, x3 (ix2 k q) = w2 (ix2 k q))
    (h4 : x4 (ix2 p 0) = dinv (ix2 i 0)) :
    k0_pay1 (F := Ideal) x0 x1 x2 x3 x4 (ix2 p q) = r0Val s w1 b1 w2 dinv i q := by
  rw [pay0_apply, h0, h4]
  refine congrArg (· * dinv (ix2 i 0)) (Finset.sum_congr rfl fun k _ => ?_)
  rw [h1, h2, h3]

section Region0Value
variable (V : (c : Dev nD) → (b : Ref sig .tc) → Buf (Elt Ideal) ((c : Thread nD τ).loc b))

/-! ## Where each window's block sits -/

theorem zero_offsets : (![0, 0] : Fin 2 → Nat) = fun _ => 0 := funext fun a => by fin_cases a <;> rfl

/-- The block indices over the grid: the two column windows and the output move one block of rows per point, the
    three whole-array windows stand still. -/
theorem grid_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The block of `s` at point `t` holds rows `2000 t … 2000 t + 1999`. -/
theorem blk0_0_apply (c : Dev nD) (t : Fin cfg0.N) (x : S2000x1.Idx) (k : S100000x1.Idx)
    (hk0 : (k 0).val = 2000 * t.val + (x 0).val) (hk1 : (k 1).val = (x 1).val) :
    (iblk0 V c 0 t : Vec Ideal S2000x1 .f32) x = (V c main_v36 : S100000x1.Idx → Elt Ideal .f32) k := by
  obtain ⟨e0, e1, -⟩ := grid_index0 t
  unfold iblk0
  rw [View.read_apply]
  show V c main_v36 _ = V c main_v36 _
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 1 + 1 * (x 1).val = (k 1).val; rw [e1, hk1]; omega

/-- The block of `dinv` at point `t` holds the same rows. -/
theorem blk0_4_apply (c : Dev nD) (t : Fin cfg0.N) (x : S2000x1.Idx) (k : S100000x1.Idx)
    (hk0 : (k 0).val = 2000 * t.val + (x 0).val) (hk1 : (k 1).val = (x 1).val) :
    (iblk0 V c 4 t : Vec Ideal S2000x1 .f32) x = (V c main_v11 : S100000x1.Idx → Elt Ideal .f32) k := by
  obtain ⟨-, -, -, -, -, -, -, -, e0, e1, -⟩ := grid_index0 t
  unfold iblk0
  rw [View.read_apply]
  show V c main_v11 _ = V c main_v11 _
  congr 1
  funext a
  apply Fin.ext
  match a with
  | ⟨0, _⟩ => show win0_4.index t (0 : Fin 2) * 2000 + 1 * (x 0).val = (k 0).val; rw [e0, hk0]; omega
  | ⟨1, _⟩ => show win0_4.index t (1 : Fin 2) * 1 + 1 * (x 1).val = (k 1).val; rw [e1, hk1]; omega

/-- The first-layer weight row is read whole at every point. -/
theorem blk0_1_apply (c : Dev nD) (t : Fin cfg0.N) (x : S1x128.Idx) :
    (iblk0 V c 1 t : Vec Ideal S1x128 .f32) x = (V c main_arg3 : S1x128.Idx → Elt Ideal .f32) x := by
  obtain ⟨-, -, e0, e1, -⟩ := grid_index0 t
  unfold iblk0
  rw [View.read_apply]
  show V c main_arg3 _ = V c main_arg3 _
  congr 1
  funext a
  apply Fin.ext
  match a with
  | ⟨0, _⟩ => show win0_1.index t (0 : Fin 2) * 1 + 1 * (x 0).val = (x 0).val; rw [e0]; omega
  | ⟨1, _⟩ => show win0_1.index t (1 : Fin 2) * 128 + 1 * (x 1).val = (x 1).val; rw [e1]; omega

/-- So is the first-layer bias row. -/
theorem blk0_2_apply (c : Dev nD) (t : Fin cfg0.N) (x : S1x128.Idx) :
    (iblk0 V c 2 t : Vec Ideal S1x128 .f32) x = (V c main_v37 : S1x128.Idx → Elt Ideal .f32) x := by
  obtain ⟨-, -, -, -, e0, e1, -⟩ := grid_index0 t
  unfold iblk0
  rw [View.read_apply]
  show V c main_v37 _ = V c main_v37 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-- And the second-layer weight matrix. -/
theorem blk0_3_apply (c : Dev nD) (t : Fin cfg0.N) (x : S128x128.Idx) :
    (iblk0 V c 3 t : Vec Ideal S128x128 .f32) x = (V c main_arg5 : S128x128.Idx → Elt Ideal .f32) x := by
  obtain ⟨-, -, -, -, -, -, e0, e1, -⟩ := grid_index0 t
  unfold iblk0
  rw [View.read_apply]
  show V c main_arg5 _ = V c main_arg5 _
  congr 1
  funext a
  apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-! ## What a point writes back -/

/-- Point `t` writes back block `t` of the closed form. -/
theorem flushed0_eq (c : Dev nD) (t : Fin cfg0.N) :
    (dat0 V c).flushed 5 t = ((cfg0.win 5).blk t).view.read (Elt Ideal)
      (r0Arr (V c main_v36) (V c main_arg3) (V c main_v37) (V c main_arg5) (V c main_v11)) := by
  show (cfg0.win 5).cut (grid0.coords t) ((dat0 V c).after 5 t) = _
  rw [after0_5]
  unfold out0_5
  rw [View.canon_unit_zero zero_offsets]
  simp only [View.ld_unit_zero (S := S2000x1) zero_offsets, View.ld_unit_zero (S := S1x128) zero_offsets,
    View.ld_unit_zero (S := S128x128) zero_offsets]
  have hN : grid0.N = 50 := N_0
  have ht : t.val < 50 := by have h : t.val < grid0.N := t.isLt; omega
  obtain ⟨-, -, -, -, -, -, -, -, -, -, e0, e1⟩ := grid_index0 t
  funext y
  rw [View.read_apply]
  obtain ⟨p, q, rfl⟩ : ∃ (p : Fin 2000) (q : Fin 128), y = ix2 p q := ⟨y 0, y 1, eq_ix2 y⟩
  have hp : p.val < 2000 := p.isLt
  have e5 : ((cfg0.win 5).blk t).view.emb (ix2 p q) = ix2 (⟨2000 * t.val + p.val, by omega⟩ : Fin 100000) q := by
    funext a
    apply Fin.ext
    match a with
    | ⟨0, _⟩ => show win0_5.index t (0 : Fin 2) * 2000 + 1 * p.val = 2000 * t.val + p.val; rw [e0]; omega
    | ⟨1, _⟩ => show win0_5.index t (1 : Fin 2) * 128 + 1 * q.val = q.val; rw [e1]; omega
  rw [e5]
  exact pay0_at _ _ _ _ _ _ _ _ _ _ p q ⟨2000 * t.val + p.val, by omega⟩
    (blk0_0_apply V c t _ _ rfl rfl) (fun k => blk0_1_apply V c t _) (fun k => blk0_2_apply V c t _)
    (fun k => blk0_3_apply V c t _) (blk0_4_apply V c t _ _ rfl rfl)

/-! ## The blocks cover the array -/

/-- An index is in point `t`'s block when each coordinate is in the block's range on its axis. -/
theorem mem_blk0 (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v39).slice (win0_5.rect t)).set ↔ _
  rw [View.set_slice_whole, Rect.mem_set_unit]
  exact Iff.rfl

/-- Row `r` is written by point `r / 2000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 50 := N_0
  have hd : (i 0).val / 2000 < grid0.N := by omega
  obtain ⟨-, -, -, -, -, -, -, -, -, -, e0, e1⟩ := grid_index0 ⟨(i 0).val / 2000, hd⟩
  refine ⟨⟨(i 0).val / 2000, hd⟩, flush0_5 _, ?_⟩
  rw [mem_blk0]
  intro a
  match a with
  | ⟨0, _⟩ =>
    show win0_5.index ⟨(i 0).val / 2000, hd⟩ (0 : Fin 2) * 2000 ≤ (i 0).val
      ∧ (i 0).val < win0_5.index ⟨(i 0).val / 2000, hd⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, hd⟩ (1 : Fin 2) * 128 ≤ (i 1).val
      ∧ (i 1).val < win0_5.index ⟨(i 0).val / 2000, hd⟩ (1 : Fin 2) * 128 + 128
    rw [e1]; omega

/-! ## The array after the region -/

/-- After the last point the output array is the closed form. -/
theorem final0_arr (c : Dev nD) :
    (dat0 (F := Ideal) V c).arrAt 5 cfg0.N
      = r0Arr (V c main_v36) (V c main_arg3) (V c main_v37) (V c main_arg5) (V c main_v11) :=
  (dat0 V c).arrAt_eq_of_cover 5 _ (fun t _ => flushed0_eq V c t) cover0

/-- The same, entry by entry. -/
theorem final0 (c : Dev nD) (i : Fin 100000) (j : Fin 128) :
    (dat0 (F := Ideal) V c).arrAt 5 cfg0.N (ix2 i j)
      = r0Val (V c main_v36) (V c main_arg3) (V c main_v37) (V c main_arg5) (V c main_v11) i j := by
  rw [final0_arr]
  rfl

end Region0Value

end Cert.KernelIdeal.Hand
-- ==== Proof.KI.R1Pay.lean ====
import proofs.«420787_j68083821576362_3_alg».proof.Proof.Gen.KernelIdeal.Skeleton
import Idealize.ShloMosaic.Lib.ValueIdx
import Idealize.ShloMosaic.Lib.Pipeline.Value
import Idealize.ShloMosaic.PureOps.Ideal.Laws

/-! # The pooling kernel's three payloads, entry by entry

The second kernel walks the node rows in fifty blocks of two thousand. At every block it adds to a carried
[1024,128] table the product (one-hot of the graph ids)ᵀ · (second-layer features of the block), where the
features of node row r are relu((agg r + hd r) · dinv r + b2). The table starts from zeros, and after the last
block it is scaled row by row by the reciprocal graph sizes. This module reads each of those three pure terms at
one entry (q, j) over the extended reals, where every float format change is the identity and the contraction is
an exact finite sum. -/

set_option maxRecDepth 16384

noncomputable section

namespace Cert.KernelIdeal.Hand

open Cert.KernelIdeal Cert.KernelIdeal.Gen
open Idealize.ShloMosaic Idealize.ShloMosaic.ValueIdx

/-! ## The one-hot entry -/

/-- Comparing two 32-bit words for equality, widening the bit and converting it to a float gives exactly one when
    the words agree and exactly zero when they do not. -/
theorem onehot_word (a b : BitVec 32) :
    (FloatOps.sitofp (F := Ideal) .f32 ((IntOp.cmpi .eq a b).setWidth 32) : EReal) = if a = b then (1 : EReal) else 0 := by
  show (((BitVec.setWidth 32 (BitVec.ofBool (a == b))).toInt : ℝ) : EReal) = _
  by_cases h : a = b
  · have hb : (a == b) = true := by simpa using h
    have h1 : (BitVec.setWidth 32 (BitVec.ofBool true)).toInt = 1 := by decide
    rw [hb, if_pos h, h1]
    simp
  · have hb : (a == b) = false := by simpa using h
    have h0 : (BitVec.setWidth 32 (BitVec.ofBool false)).toInt = 0 := by decide
    rw [hb, if_neg h, h0]
    simp

/-- The lane counter along the second axis of a one-row vector reads its column number. -/
theorem iota_row_apply (h : S1x1024.Iotas .tc 32 [1]) (q : Fin 1024) :
    iota .tc S1x1024 32 [1] h (ix2 0 q) = BitVec.ofNat 32 q.val := by
  show BitVec.ofNat 32 (0 * 1024 + q.val) = _
  rw [Nat.zero_mul, Nat.zero_add]

/-! ## The contraction's operand indices

The product contracts the node-row axis of both operands: at output entry (q, j) and contraction position r the
left operand (the one-hot, [2000,1024]) is read at (r, q) and the right operand (the features, [2000,128]) at
(r, j). -/

theorem lhs_pool_0 (i : S1024x128.Idx) (k : dot_S2000x1024_S2000x128_S1024x128_0_0_1_1_n_n.contr.Idx) :
    (dot_S2000x1024_S2000x128_S1024x128_0_0_1_1_n_n.lhsIdx i k 0).val = (k ⟨0, by decide⟩).val :=
  dot_S2000x1024_S2000x128_S1024x128_0_0_1_1_n_n.lhsIdx_val_of_single rfl i k

theorem lhs_pool_1 (i : S1024x128.Idx) (k : dot_S2000x1024_S2000x128_S1024x128_0_0_1_1_n_n.contr.Idx) :
    (dot_S2000x1024_S2000x128_S1024x128_0_0_1_1_n_n.lhsIdx i k 1).val = (i 0).val := by
  unfold DotDims.lhsIdx
  rw [dif_neg (show ¬(1 : Fin S2000x1024.rank) ∈ dot_S2000x1024_S2000x128_S1024x128_0_0_1_1_n_n.lhsBatch by decide),
    dif_pos (show (1 : Fin S2000x1024.rank) ∈ dot_S2000x1024_S2000x128_S1024x128_0_0_1_1_n_n.lhsNonContracting by decide)]
  rfl

theorem rhs_pool_0 (i : S1024x128.Idx) (k : dot_S2000x1024_S2000x128_S1024x128_0_0_1_1_n_n.contr.Idx) :
    (dot_S2000x1024_S2000x128_S1024x128_0_0_1_1_n_n.rhsIdx i k 0).val = (k ⟨0, by decide⟩).val :=
  dot_S2000x1024_S2000x128_S1024x128_0_0_1_1_n_n.rhsIdx_val_of_single rfl i k

theorem rhs_pool_1 (i : S1024x128.Idx) (k : dot_S2000x1024_S2000x128_S1024x128_0_0_1_1_n_n.contr.Idx) :
    (dot_S2000x1024_S2000x128_S1024x128_0_0_1_1_n_n.rhsIdx i k 1).val = (i 1).val := by
  unfold DotDims.rhsIdx
  rw [dif_neg (show ¬(1 : Fin S2000x128.rank) ∈ dot_S2000x1024_S2000x128_S1024x128_0_0_1_1_n_n.rhsBatch by decide),
    dif_pos (show (1 : Fin S2000x128.rank) ∈ dot_S2000x1024_S2000x128_S1024x128_0_0_1_1_n_n.rhsNonContracting by decide)]
  rfl

/-- The contraction read at an entry: a sum over the two thousand rows of the block. -/
theorem pool_matmul_apply (l : FVec Ideal S2000x1024 .bf16) (r : FVec Ideal S2000x128 .bf16) (q : Fin 1024) (j : Fin 128) :
    FloatOps.matmul dot_S2000x1024_S2000x128_S1024x128_0_0_1_1_n_n none l r (constant S1024x128 .f32 0x00000000#32) (ix2 q j)
      = ∑ k : Fin 2000, l (ix2 k q) * r (ix2 k j) := by
  rw [Ideal.matmul_constant_zero_apply,
    ← Equiv.sum_comp (contrEquiv1 dot_S2000x1024_S2000x128_S1024x128_0_0_1_1_n_n 2000 rfl rfl).symm]
  refine Finset.sum_congr rfl fun k _ => ?_
  have hk := contrEquiv1_symm_val dot_S2000x1024_S2000x128_S1024x128_0_0_1_1_n_n 2000 rfl rfl k
  have el : dot_S2000x1024_S2000x128_S1024x128_0_0_1_1_n_n.lhsIdx (ix2 q j)
      ((contrEquiv1 dot_S2000x1024_S2000x128_S1024x128_0_0_1_1_n_n 2000 rfl rfl).symm k) = ix2 k q :=
    funext fun a => Fin.ext (by
      match a with
      | ⟨0, _⟩ => exact (lhs_pool_0 _ _).trans hk
      | ⟨1, _⟩ => exact lhs_pool_1 _ _)
  have er : dot_S2000x1024_S2000x128_S1024x128_0_0_1_1_n_n.rhsIdx (ix2 q j)
      ((contrEquiv1 dot_S2000x1024_S2000x128_S1024x128_0_0_1_1_n_n 2000 rfl rfl).symm k) = ix2 k j :=
    funext fun a => Fin.ext (by
      match a with
      | ⟨0, _⟩ => exact (rhs_pool_0 _ _).trans hk
      | ⟨1, _⟩ => exact rhs_pool_1 _ _)
  rw [el, er]

/-! ## The three payloads -/

/-- The table the first block starts from is zero everywhere. -/
theorem k1_pay2_apply (q : Fin 1024) (j : Fin 128) : k1_pay2 (F := Ideal) (ix2 q j) = 0 := by
  unfold k1_pay2
  simp only [shapeCast_self, broadcast_apply]
  exact Ideal.ofBits_zero_f32

/-- After the last block the table's row q is scaled by the q-th reciprocal graph size. -/
theorem k1_pay1_apply (v38 : Vec Ideal S1024x128 .f32) (v39 : Vec Ideal S1024x1 .f32) (q : Fin 1024) (j : Fin 128) :
    k1_pay1 (F := Ideal) v38 v39 (ix2 q j) = v38 (ix2 q j) * v39 (ix2 q 0) := by
  unfold k1_pay1
  simp only [shapeCast_self]
  refine (mulf_apply _ _ _).trans ?_
  exact congrArg (v38 (ix2 q j) * ·) (broadcastTo_apply v39 _ (ix2 q j) (ix2 q 0) (fun a => by
    match a with
    | ⟨0, _⟩ => rfl
    | ⟨1, _⟩ => rfl))

/-- One block's update: entry (q, j) gains the sum, over the block's rows whose graph id is q, of the row's
    second-layer feature j. -/
theorem k1_pay3_apply (v3 : Vec Ideal S2000x1 .f32) (v5 : Vec Ideal S2000x128 .bf16) (v8 : Vec Ideal S2000x128 .f32)
    (v13 : Vec Ideal S1x128 .f32) (v19 : Vec Ideal S2000x1 .i32) (v30 : Vec Ideal S1024x128 .f32) (q : Fin 1024) (j : Fin 128) :
    k1_pay3 (F := Ideal) v3 v5 v8 v13 v19 v30 (ix2 q j)
      = v30 (ix2 q j) + ∑ r : Fin 2000, (if v19 (ix2 r 0) = BitVec.ofNat 32 q.val then (1 : EReal) else 0)
          * max ((v8 (ix2 r j) + v5 (ix2 r j)) * v3 (ix2 r 0) + v13 (ix2 0 j)) 0 := by
  unfold k1_pay3
  simp only [shapeCast_self]
  refine (addf_apply _ _ _).trans ?_
  refine congrArg (v30 (ix2 q j) + ·) ?_
  refine (pool_matmul_apply _ _ q j).trans ?_
  refine Finset.sum_congr rfl fun r _ => ?_
  refine congrArg₂ (· * ·) ?_ ?_
  · -- the one-hot entry (r, q): the block's graph id of row r against the lane counter at column q
    show FloatOps.sitofp (F := Ideal) .f32 ((IntOp.cmpi .eq (broadcastTo S2000x1024 v19 broadcasts_S2000x1_S2000x1024 (ix2 r q))
      (broadcastTo S2000x1024 (iota .tc S1x1024 32 [1] iota_S1x1024_d1_w32) broadcasts_S1x1024_S2000x1024 (ix2 r q))).setWidth 32) = _
    rw [broadcastTo_apply v19 broadcasts_S2000x1_S2000x1024 (ix2 r q) (ix2 r 0) (fun a => by
        match a with
        | ⟨0, _⟩ => rfl
        | ⟨1, _⟩ => rfl),
      broadcastTo_apply (iota .tc S1x1024 32 [1] iota_S1x1024_d1_w32) broadcasts_S1x1024_S2000x1024 (ix2 r q) (ix2 0 q) (fun a => by
        match a with
        | ⟨0, _⟩ => rfl
        | ⟨1, _⟩ => rfl),
      iota_row_apply, onehot_word]
  · -- the feature entry (r, j): every format change is the identity, the two column vectors are read at row r
    -- and the bias row at column j
    show max ((v8 (ix2 r j) + v5 (ix2 r j)) * broadcastTo S2000x128 v3 broadcasts_S2000x1_S2000x128 (ix2 r j)
        + broadcastTo S2000x128 v13 broadcasts_S1x128_S2000x128 (ix2 r j)) (Ideal.ofBits .f32 0x00000000#32) = _
    rw [broadcastTo_apply v3 broadcasts_S2000x1_S2000x128 (ix2 r j) (ix2 r 0) (fun a => by
        match a with
        | ⟨0, _⟩ => rfl
        | ⟨1, _⟩ => rfl),
      broadcastTo_apply v13 broadcasts_S1x128_S2000x128 (ix2 r j) (ix2 0 j) (fun a => by
        match a with
        | ⟨0, _⟩ => rfl
        | ⟨1, _⟩ => rfl),
      Ideal.ofBits_zero_f32]

end Cert.KernelIdeal.Hand

end
-- ==== Proof.KI.R1Acc.lean ====
import proofs.«420787_j68083821576362_3_alg».proof.Proof.Gen.KernelIdeal.Launch
import proofs.«420787_j68083821576362_3_alg».proof.Proof.Gen.KernelIdeal.Points
import proofs.«420787_j68083821576362_3_alg».proof.Proof.KI.R1Pay
import Idealize.ShloMosaic.Lib.Pipeline.Value

/-! # The pooling kernel over its fifty grid points: the carried table as a sum over node rows

Point t of the second kernel sees rows 2000 t … 2000 t + 1999 of the four node-indexed arrays (aggregated
messages, first-layer half product, inverse square-root degrees, graph ids) and the whole bias row, and adds to
entry (q, j) of the carried [1024,128] table the second-layer feature j of each of those rows whose graph id is
q. Hence after point n the table holds, at (q, j), the sum of these node terms over all rows below 2000 (n + 1);
after the last point, over all hundred thousand rows. The last point multiplies row q by the q-th reciprocal
graph size and its block, which is the whole [1024,128] output array, is the only one written back.

The module is written over an arbitrary family acc of tables with the two equations that define the carried
table (zeros updated by point 0; the previous table updated by point n + 1) as hypotheses, and over arbitrary
proof data whose output window holds, after the last point, the scaled table. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## Sums over the rows of the first blocks -/

/-- A function of the hundred thousand node rows, continued by zero to every natural number. -/
def pool_rowExt (f : Fin 100000 → EReal) (k : ℕ) : EReal := if h : k < 100000 then f ⟨k, h⟩ else 0

theorem pool_rowExt_of_lt (f : Fin 100000 → EReal) (k : ℕ) (h : k < 100000) : pool_rowExt f k = f ⟨k, h⟩ := dif_pos h

/-- The sum of f over the rows of the first n blocks of two thousand. -/
def pool_rowsBelow (f : Fin 100000 → EReal) (n : ℕ) : EReal := ∑ k ∈ Finset.range (2000 * n), pool_rowExt f k

theorem pool_rowsBelow_zero (f : Fin 100000 → EReal) : pool_rowsBelow f 0 = 0 := by
  simp [pool_rowsBelow]

/-- One more block adds its two thousand rows. -/
theorem pool_rowsBelow_succ (f : Fin 100000 → EReal) (n : ℕ) :
    pool_rowsBelow f (n + 1) = pool_rowsBelow f n + ∑ r : Fin 2000, pool_rowExt f (2000 * n + r.val) := by
  unfold pool_rowsBelow
  rw [Nat.mul_succ, Finset.sum_range_add, Finset.sum_range (fun x => pool_rowExt f (2000 * n + x))]

/-- Fifty blocks are all the rows. -/
theorem pool_rowsBelow_all (f : Fin 100000 → EReal) : pool_rowsBelow f 50 = ∑ i : Fin 100000, f i := by
  unfold pool_rowsBelow
  rw [show 2000 * 50 = 100000 from rfl, Finset.sum_range]
  exact Finset.sum_congr rfl fun i _ => pool_rowExt_of_lt f i.val i.isLt

/-! ## The node term and the pooled table, as functions of the six arrays -/

/-- What node row i adds to entry (q, j) of the pooled table: its second-layer feature j,
    relu((agg i j + hd i j) · dinv i + b2 j), when its graph id is q, and zero otherwise. -/
abbrev pool_nodeTerm (bt : S100000x1.Idx → BitVec 32) (agg hd : S100000x128.Idx → EReal) (dinv : S100000x1.Idx → EReal)
    (b2 : S1x128.Idx → EReal) (q : Fin 1024) (j : Fin 128) (i : Fin 100000) : EReal :=
  (if bt (ix2 i 0) = BitVec.ofNat 32 q.val then (1 : EReal) else 0)
    * max ((agg (ix2 i j) + hd (ix2 i j)) * dinv (ix2 i 0) + b2 (ix2 0 j)) 0

/-- Entry (q, j) of the pooled table: all node terms, scaled by the q-th reciprocal graph size. -/
abbrev poolVal (bt : S100000x1.Idx → BitVec 32) (agg hd : S100000x128.Idx → EReal) (dinv : S100000x1.Idx → EReal)
    (b2 : S1x128.Idx → EReal) (ic : S1024x1.Idx → EReal) (q : Fin 1024) (j : Fin 128) : EReal :=
  (∑ i : Fin 100000, pool_nodeTerm bt agg hd dinv b2 q j i) * ic (ix2 q 0)

theorem poolVal_def (bt : S100000x1.Idx → BitVec 32) (agg hd : S100000x128.Idx → EReal) (dinv : S100000x1.Idx → EReal)
    (b2 : S1x128.Idx → EReal) (ic : S1024x1.Idx → EReal) (q : Fin 1024) (j : Fin 128) :
    poolVal bt agg hd dinv b2 ic q j
      = (∑ i : Fin 100000, (if bt (ix2 i 0) = BitVec.ofNat 32 q.val then (1 : EReal) else 0)
          * max ((agg (ix2 i j) + hd (ix2 i j)) * dinv (ix2 i 0) + b2 (ix2 0 j)) 0) * ic (ix2 q 0) := rfl

section Region1
-- the buffer contents when the region is entered
variable (V : (c : Dev nD) → (b : Ref sig .tc) → Buf (Elt Ideal) ((c : Thread nD τ).loc b))

/-- The whole output array as one function of the six arrays the region finds. -/
abbrev pool_G (c : Dev nD) : S1024x128.Idx → EReal := fun y =>
  poolVal (V c main_v12) (V c main_v50) (V c main_v39) (V c main_v11) (V c main_v38) (V c main_v21)
    ⟨(y 0).val, idx2_lt0 y⟩ ⟨(y 1).val, idx2_lt1 y⟩

/-! ## Where each window's block sits in its array -/

/-- Window w's block at point t, read off its array as the region finds it. -/
def pool_blk (c : Dev nD) (w : Fin cfg1.W) (t : Fin cfg1.N) :
    ((cfg1.win w).xblock (cfg1.grid.coords t)).Idx → Elt Ideal (cfg1.win w).elt :=
  ((cfg1.win w).blk t).view.read (Elt Ideal) (V c (Pipeline.arrRef spec1 w))

/-- The four node-indexed windows step one block of rows per point; the bias row, the reciprocal sizes and the
    output stay at block zero (decided once over the fifty points). -/
theorem pool_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem pool_row_lt (t : Fin cfg1.N) (r : Fin 2000) : 2000 * t.val + r.val < 100000 := by
  have := t.isLt; have hN : cfg1.N = 50 := N_1; omega

theorem pool_last_lt : 49 < cfg1.N := by rw [show cfg1.N = 50 from N_1]; decide

/-- Row r of point t's block of aggregated messages is row 2000 t + r of the array. -/
theorem pool_blk0_apply (c : Dev nD) (t : Fin cfg1.N) (r : Fin 2000) (j : Fin 128) :
    (pool_blk V c 0 t : S2000x128.Idx → EReal) (ix2 r j) = V c main_v50 (ix2 ⟨2000 * t.val + r.val, pool_row_lt t r⟩ j) := by
  obtain ⟨e0, e1, -⟩ := pool_idx_facts t
  show V c main_v50 (((cfg1.win 0).blk t).view.emb (ix2 r j)) = _
  refine congrArg _ (funext fun a => Fin.ext ?_)
  match a with
  | ⟨0, _⟩ => show win1_0.index t (0 : Fin 2) * 2000 + 1 * r.val = 2000 * t.val + r.val; omega
  | ⟨1, _⟩ => show win1_0.index t (1 : Fin 2) * 128 + 1 * j.val = j.val; omega

/-- The same for the first-layer half product … -/
theorem pool_blk1_apply (c : Dev nD) (t : Fin cfg1.N) (r : Fin 2000) (j : Fin 128) :
    (pool_blk V c 1 t : S2000x128.Idx → EReal) (ix2 r j) = V c main_v39 (ix2 ⟨2000 * t.val + r.val, pool_row_lt t r⟩ j) := by
  obtain ⟨-, -, e0, e1, -⟩ := pool_idx_facts t
  show V c main_v39 (((cfg1.win 1).blk t).view.emb (ix2 r j)) = _
  refine congrArg _ (funext fun a => Fin.ext ?_)
  match a with
  | ⟨0, _⟩ => show win1_1.index t (0 : Fin 2) * 2000 + 1 * r.val = 2000 * t.val + r.val; omega
  | ⟨1, _⟩ => show win1_1.index t (1 : Fin 2) * 128 + 1 * j.val = j.val; omega

/-- … the inverse square-root degrees … -/
theorem pool_blk2_apply (c : Dev nD) (t : Fin cfg1.N) (r : Fin 2000) :
    (pool_blk V c 2 t : S2000x1.Idx → EReal) (ix2 r 0) = V c main_v11 (ix2 ⟨2000 * t.val + r.val, pool_row_lt t r⟩ 0) := by
  obtain ⟨-, -, -, -, e0, e1, -⟩ := pool_idx_facts t
  show V c main_v11 (((cfg1.win 2).blk t).view.emb (ix2 r 0)) = _
  refine congrArg _ (funext fun a => Fin.ext ?_)
  match a with
  | ⟨0, _⟩ => show win1_2.index t (0 : Fin 2) * 2000 + 1 * r.val = 2000 * t.val + r.val; omega
  | ⟨1, _⟩ => show win1_2.index t (1 : Fin 2) * 1 + 1 * 0 = 0; omega

/-- … and the graph ids. -/
theorem pool_blk4_apply (c : Dev nD) (t : Fin cfg1.N) (r : Fin 2000) :
    (pool_blk V c 4 t : S2000x1.Idx → BitVec 32) (ix2 r 0) = V c main_v12 (ix2 ⟨2000 * t.val + r.val, pool_row_lt t r⟩ 0) := by
  obtain ⟨-, -, -, -, -, -, -, -, e0, e1, -⟩ := pool_idx_facts t
  show V c main_v12 (((cfg1.win 4).blk t).view.emb (ix2 r 0)) = _
  refine congrArg _ (funext fun a => Fin.ext ?_)
  match a with
  | ⟨0, _⟩ => show win1_4.index t (0 : Fin 2) * 2000 + 1 * r.val = 2000 * t.val + r.val; omega
  | ⟨1, _⟩ => show win1_4.index t (1 : Fin 2) * 1 + 1 * 0 = 0; omega

/-- The bias row's block is the bias row at every point … -/
theorem pool_blk3_apply (c : Dev nD) (t : Fin cfg1.N) (j : Fin 128) :
    (pool_blk V c 3 t : S1x128.Idx → EReal) (ix2 0 j) = V c main_v38 (ix2 0 j) := by
  obtain ⟨-, -, -, -, -, -, e0, e1, -⟩ := pool_idx_facts t
  show V c main_v38 (((cfg1.win 3).blk t).view.emb (ix2 0 j)) = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * j.val = j.val; omega

/-- … and so is the column of reciprocal graph sizes. -/
theorem pool_blk5_apply (c : Dev nD) (t : Fin cfg1.N) (q : Fin 1024) :
    (pool_blk V c 5 t : S1024x1.Idx → EReal) (ix2 q 0) = V c main_v21 (ix2 q 0) := by
  obtain ⟨-, -, -, -, -, -, -, -, -, -, e0, e1, -⟩ := pool_idx_facts t
  show V c main_v21 (((cfg1.win 5).blk t).view.emb (ix2 q 0)) = _
  refine congrArg _ (funext fun a => Fin.ext ?_)
  match a with
  | ⟨0, _⟩ => show win1_5.index t (0 : Fin 2) * 1024 + 1 * q.val = q.val; omega
  | ⟨1, _⟩ => show win1_5.index t (1 : Fin 2) * 1 + 1 * 0 = 0; omega

/-! ## The accumulation over the grid -/

/-- One point's update of entry (q, j), read off the arrays: the node terms of rows 2000 t … 2000 t + 1999. -/
theorem pool_block_update (c : Dev nD) (t : Fin cfg1.N) (tbl : Vec Ideal S1024x128 .f32) (q : Fin 1024) (j : Fin 128) :
    k1_pay3 (F := Ideal) (pool_blk V c 2 t) (pool_blk V c 1 t) (pool_blk V c 0 t) (pool_blk V c 3 t) (pool_blk V c 4 t) tbl (ix2 q j)
      = tbl (ix2 q j) + ∑ r : Fin 2000,
          pool_rowExt (pool_nodeTerm (V c main_v12) (V c main_v50) (V c main_v39) (V c main_v11) (V c main_v38) q j) (2000 * t.val + r.val) := by
  refine (k1_pay3_apply (pool_blk V c 2 t) (pool_blk V c 1 t) (pool_blk V c 0 t) (pool_blk V c 3 t) (pool_blk V c 4 t) tbl q j).trans ?_
  refine congrArg (tbl (ix2 q j) + ·) (Finset.sum_congr rfl fun r _ => ?_)
  rw [pool_rowExt_of_lt _ _ (pool_row_lt t r), pool_blk0_apply V c t r j, pool_blk1_apply V c t r j, pool_blk2_apply V c t r,
    pool_blk3_apply V c t j, pool_blk4_apply V c t r]

section Carried
variable {c : Dev nD} (acc : (n : ℕ) → n < cfg1.N → Vec Ideal S1024x128 .f32)

/-- The table after point n holds, at (q, j), the node terms of all rows below 2000 (n + 1): by induction on the
    point, the first point starting from zeros. -/
theorem pool_acc_eq
    (hzero : ∀ h : 0 < cfg1.N, acc 0 h = k1_pay3 (F := Ideal) (pool_blk V c 2 ⟨0, h⟩) (pool_blk V c 1 ⟨0, h⟩) (pool_blk V c 0 ⟨0, h⟩)
      (pool_blk V c 3 ⟨0, h⟩) (pool_blk V c 4 ⟨0, h⟩) (k1_pay2 (F := Ideal)))
    (hsucc : ∀ (n : ℕ) (h : n + 1 < cfg1.N), acc (n + 1) h = k1_pay3 (F := Ideal) (pool_blk V c 2 ⟨n + 1, h⟩) (pool_blk V c 1 ⟨n + 1, h⟩)
      (pool_blk V c 0 ⟨n + 1, h⟩) (pool_blk V c 3 ⟨n + 1, h⟩) (pool_blk V c 4 ⟨n + 1, h⟩) (acc n (Nat.lt_of_succ_lt h)))
    (q : Fin 1024) (j : Fin 128) : ∀ (n : ℕ) (hn : n < cfg1.N),
    acc n hn (ix2 q j)
      = pool_rowsBelow (pool_nodeTerm (V c main_v12) (V c main_v50) (V c main_v39) (V c main_v11) (V c main_v38) q j) (n + 1)
  | 0, hn => by
    rw [hzero hn, pool_block_update V c ⟨0, hn⟩ (k1_pay2 (F := Ideal)) q j, k1_pay2_apply, pool_rowsBelow_succ, pool_rowsBelow_zero]
  | n + 1, hn => by
    rw [hsucc n hn, pool_block_update V c ⟨n + 1, hn⟩ (acc n (Nat.lt_of_succ_lt hn)) q j,
      pool_acc_eq hzero hsucc q j n (Nat.lt_of_succ_lt hn), pool_rowsBelow_succ _ (n + 1)]

/-! ## The output array -/

variable (dat : Dat τ (Elt Ideal) Unit ℕ (UR sig nD τ) ℕ cfg1 c)

/-- The one write-back, at the last point, writes the one block of the pooled table, which is all of it. -/
theorem pool_flushed_eq
    (hzero : ∀ h : 0 < cfg1.N, acc 0 h = k1_pay3 (F := Ideal) (pool_blk V c 2 ⟨0, h⟩) (pool_blk V c 1 ⟨0, h⟩) (pool_blk V c 0 ⟨0, h⟩)
      (pool_blk V c 3 ⟨0, h⟩) (pool_blk V c 4 ⟨0, h⟩) (k1_pay2 (F := Ideal)))
    (hsucc : ∀ (n : ℕ) (h : n + 1 < cfg1.N), acc (n + 1) h = k1_pay3 (F := Ideal) (pool_blk V c 2 ⟨n + 1, h⟩) (pool_blk V c 1 ⟨n + 1, h⟩)
      (pool_blk V c 0 ⟨n + 1, h⟩) (pool_blk V c 3 ⟨n + 1, h⟩) (pool_blk V c 4 ⟨n + 1, h⟩) (acc n (Nat.lt_of_succ_lt h)))
    (hlast : dat.after 6 ⟨49, pool_last_lt⟩ = k1_pay1 (F := Ideal) (acc 49 pool_last_lt) (pool_blk V c 5 ⟨49, pool_last_lt⟩))
    (t : Fin cfg1.N) (hf : (cfg1.win 6).flush t = true) :
    dat.flushed 6 t = ((cfg1.win 6).blk t).view.read (Elt Ideal) (pool_G V c) := by
  have h49 : t.val = 49 := by
    have := (flush1_6 t).mp hf; have := t.isLt; have hN : cfg1.N = 50 := N_1; omega
  obtain rfl : t = ⟨49, pool_last_lt⟩ := Fin.ext h49
  show (cfg1.win 6).cut (grid1.coords _) (dat.after 6 _) = _
  rw [hlast]
  obtain ⟨-, -, -, -, -, -, -, -, -, -, -, -, e0, e1⟩ := pool_idx_facts ⟨49, pool_last_lt⟩
  refine funext fun (y : S1024x128.Idx) => ?_
  obtain ⟨p, j, rfl⟩ : ∃ (p : Fin 1024) (j : Fin 128), y = ix2 p j := ⟨y 0, y 1, eq_ix2 y⟩
  show k1_pay1 (F := Ideal) (acc 49 pool_last_lt) (pool_blk V c 5 ⟨49, pool_last_lt⟩) (ix2 p j)
    = pool_G V c (((cfg1.win 6).blk ⟨49, pool_last_lt⟩).view.emb (ix2 p j))
  have hemb : ((cfg1.win 6).blk ⟨49, pool_last_lt⟩).view.emb (ix2 p j) = (ix2 p j : S1024x128.Idx) :=
    funext fun a => Fin.ext (by
      match a with
      | ⟨0, _⟩ => show win1_6.index ⟨49, pool_last_lt⟩ (0 : Fin 2) * 1024 + 1 * p.val = p.val; omega
      | ⟨1, _⟩ => show win1_6.index ⟨49, pool_last_lt⟩ (1 : Fin 2) * 128 + 1 * j.val = j.val; omega)
  rw [hemb, k1_pay1_apply, pool_acc_eq V acc hzero hsucc p j 49 pool_last_lt, pool_rowsBelow_all, pool_blk5_apply]

/-- An index of the output array lies in a point's block iff each coordinate lies in the block's range. -/
theorem pool_mem_blk (t : Fin cfg1.N) (i : S1024x128.Idx) :
    i ∈ ((cfg1.win 6).blk t).view.set ↔ ∀ a : Fin 2, win1_6.index t a * S1024x128.size a ≤ (i a).val
      ∧ (i a).val < win1_6.index t a * S1024x128.size a + S1024x128.size a := by
  show i ∈ ((View.whole main_v51).slice (win1_6.rect t)).set ↔ _
  rw [View.set_slice_whole, Rect.mem_set_unit]
  exact Iff.rfl

/-- The last point's block is the whole output array. -/
theorem pool_cover (i : S1024x128.Idx) :
    ∃ t : Fin cfg1.N, (cfg1.win 6).flush t = true ∧ i ∈ ((cfg1.win 6).blk t).view.set := by
  refine ⟨⟨49, pool_last_lt⟩, (flush1_6 _).mpr rfl, ?_⟩
  obtain ⟨-, -, -, -, -, -, -, -, -, -, -, -, e0, e1⟩ := pool_idx_facts ⟨49, pool_last_lt⟩
  rw [pool_mem_blk]
  intro a
  have h0 : (i 0).val < 1024 := idx2_lt0 i
  have h1 : (i 1).val < 128 := idx2_lt1 i
  match a with
  | ⟨0, _⟩ =>
    show win1_6.index ⟨49, pool_last_lt⟩ (0 : Fin 2) * 1024 ≤ (i 0).val
      ∧ (i 0).val < win1_6.index ⟨49, pool_last_lt⟩ (0 : Fin 2) * 1024 + 1024
    omega
  | ⟨1, _⟩ =>
    show win1_6.index ⟨49, pool_last_lt⟩ (1 : Fin 2) * 128 ≤ (i 1).val
      ∧ (i 1).val < win1_6.index ⟨49, pool_last_lt⟩ (1 : Fin 2) * 128 + 128
    omega

/-- So the output array after the region is the pooled table of the six arrays the region finds. -/
theorem pool_final_arr
    (hzero : ∀ h : 0 < cfg1.N, acc 0 h = k1_pay3 (F := Ideal) (pool_blk V c 2 ⟨0, h⟩) (pool_blk V c 1 ⟨0, h⟩) (pool_blk V c 0 ⟨0, h⟩)
      (pool_blk V c 3 ⟨0, h⟩) (pool_blk V c 4 ⟨0, h⟩) (k1_pay2 (F := Ideal)))
    (hsucc : ∀ (n : ℕ) (h : n + 1 < cfg1.N), acc (n + 1) h = k1_pay3 (F := Ideal) (pool_blk V c 2 ⟨n + 1, h⟩) (pool_blk V c 1 ⟨n + 1, h⟩)
      (pool_blk V c 0 ⟨n + 1, h⟩) (pool_blk V c 3 ⟨n + 1, h⟩) (pool_blk V c 4 ⟨n + 1, h⟩) (acc n (Nat.lt_of_succ_lt h)))
    (hlast : dat.after 6 ⟨49, pool_last_lt⟩ = k1_pay1 (F := Ideal) (acc 49 pool_last_lt) (pool_blk V c 5 ⟨49, pool_last_lt⟩)) :
    dat.arrAt 6 cfg1.N = pool_G V c :=
  dat.arrAt_eq_of_cover 6 (pool_G V c) (fun t hf => pool_flushed_eq V acc dat hzero hsucc hlast t hf) pool_cover

/-- Entry (q, j) of the output array after the region. -/
theorem pool_final
    (hzero : ∀ h : 0 < cfg1.N, acc 0 h = k1_pay3 (F := Ideal) (pool_blk V c 2 ⟨0, h⟩) (pool_blk V c 1 ⟨0, h⟩) (pool_blk V c 0 ⟨0, h⟩)
      (pool_blk V c 3 ⟨0, h⟩) (pool_blk V c 4 ⟨0, h⟩) (k1_pay2 (F := Ideal)))
    (hsucc : ∀ (n : ℕ) (h : n + 1 < cfg1.N), acc (n + 1) h = k1_pay3 (F := Ideal) (pool_blk V c 2 ⟨n + 1, h⟩) (pool_blk V c 1 ⟨n + 1, h⟩)
      (pool_blk V c 0 ⟨n + 1, h⟩) (pool_blk V c 3 ⟨n + 1, h⟩) (pool_blk V c 4 ⟨n + 1, h⟩) (acc n (Nat.lt_of_succ_lt h)))
    (hlast : dat.after 6 ⟨49, pool_last_lt⟩ = k1_pay1 (F := Ideal) (acc 49 pool_last_lt) (pool_blk V c 5 ⟨49, pool_last_lt⟩))
    (q : Fin 1024) (j : Fin 128) :
    dat.arrAt 6 cfg1.N (ix2 q j)
      = poolVal (V c main_v12) (V c main_v50) (V c main_v39) (V c main_v11) (V c main_v38) (V c main_v21) q j :=
  congrFun (pool_final_arr V acc dat hzero hsucc hlast) (ix2 q j)

end Carried

end Region1

end Cert.KernelIdeal.Hand

end
-- ==== Proof.KI.R1Value.lean ====
import proofs.«420787_j68083821576362_3_alg».proof.Proof.KI.R1
import proofs.«420787_j68083821576362_3_alg».proof.Proof.KI.R1Acc

/-! # The second kernel's output array in closed form, at the ideal values

The region's proof data carries a [1024,128] table from point to point: zeros updated by point 0, then the
previous table updated by each later point, and the output window holds after the last point that table with
row q scaled by the q-th reciprocal graph size. Those are exactly the three equations under which the table was
summed over the node rows, so the output array after the region is, at entry (q, j),

  (∑ over all node rows i of [graph id of i = q] · relu((agg i j + hd i j) · dinv i + b2 j)) · inv_cnt q,

the mean-pooled second-layer features, as a function of the six arrays the region finds. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

section Region1
-- the buffer contents when the region is entered
variable (V : (c : Dev nD) → (b : Ref sig .tc) → Buf (Elt Ideal) ((c : Thread nD τ).loc b))

/-- The whole output array after the region: the pooled table of the six arrays. -/
theorem final1_arr (c : Dev nD) : (dat1 (F := Ideal) V c).arrAt 6 cfg1.N = pool_G V c :=
  pool_final_arr V (acc1 (F := Ideal) V c) (dat1 (F := Ideal) V c)
    (fun h => acc1_zero (F := Ideal) V c h) (fun n h => acc1_succ (F := Ideal) V c n h)
    (after1_6_last (F := Ideal) V c ⟨49, pool_last_lt⟩ rfl)

/-- Entry (q, j) of the output array after the region. -/
theorem final1 (c : Dev nD) (q : Fin 1024) (j : Fin 128) :
    (dat1 (F := Ideal) V c).arrAt 6 cfg1.N (ix2 q j)
      = poolVal (V c main_v12) (V c main_v50) (V c main_v39) (V c main_v11) (V c main_v38) (V c main_v21) q j :=
  congrFun (final1_arr V c) (ix2 q j)

end Region1

end Cert.KernelIdeal.Hand

end
-- ==== Proof.KI.R2Value.lean ====
import proofs.«420787_j68083821576362_3_alg».proof.Proof.KI.R2
import Idealize.ShloMosaic.Lib.Pipeline.Value
import Idealize.ShloMosaic.Lib.ValueIdx
import Idealize.ShloMosaic.PureOps.Ideal.Laws

/-! # Region 2's output array in closed form, at the ideal values

At the extended reals the head kernel's output is, row by row, a two-layer perceptron of the pooled features:
row `q` of the output is `∑ r, max (∑ j, pooled q j * Wf1 j r + bf1 r) 0 * Wf2 r + bf2`. First the body's value
read at one row (the two matmuls as sums over their one contraction axis, the biases broadcast down the rows, the
format changes the identity, the zero word the real zero), then the passage from the single block the one grid
point writes back to the whole array, every window's block being its whole array. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The first matmul's operand indices -/

theorem lhs_mm1_0 (i : S1024x32.Idx) (q : dot_S1024x128_S128x32_S1024x32_1_0_0_1_n_n.contr.Idx) :
    (dot_S1024x128_S128x32_S1024x32_1_0_0_1_n_n.lhsIdx i q 0).val = (i 0).val := by
  unfold DotDims.lhsIdx
  rw [dif_neg (show ¬(0 : Fin S1024x128.rank) ∈ dot_S1024x128_S128x32_S1024x32_1_0_0_1_n_n.lhsBatch by decide), dif_pos (show (0 : Fin S1024x128.rank) ∈ dot_S1024x128_S128x32_S1024x32_1_0_0_1_n_n.lhsNonContracting by decide)]
  rfl
theorem lhs_mm1_1 (i : S1024x32.Idx) (q : dot_S1024x128_S128x32_S1024x32_1_0_0_1_n_n.contr.Idx) :
    (dot_S1024x128_S128x32_S1024x32_1_0_0_1_n_n.lhsIdx i q 1).val = (q ⟨0, by decide⟩).val :=
  dot_S1024x128_S128x32_S1024x32_1_0_0_1_n_n.lhsIdx_val_of_single rfl i q
theorem rhs_mm1_0 (i : S1024x32.Idx) (q : dot_S1024x128_S128x32_S1024x32_1_0_0_1_n_n.contr.Idx) :
    (dot_S1024x128_S128x32_S1024x32_1_0_0_1_n_n.rhsIdx i q 0).val = (q ⟨0, by decide⟩).val :=
  dot_S1024x128_S128x32_S1024x32_1_0_0_1_n_n.rhsIdx_val_of_single rfl i q
theorem rhs_mm1_1 (i : S1024x32.Idx) (q : dot_S1024x128_S128x32_S1024x32_1_0_0_1_n_n.contr.Idx) :
    (dot_S1024x128_S128x32_S1024x32_1_0_0_1_n_n.rhsIdx i q 1).val = (i 1).val := by
  unfold DotDims.rhsIdx
  rw [dif_neg (show ¬(1 : Fin S128x32.rank) ∈ dot_S1024x128_S128x32_S1024x32_1_0_0_1_n_n.rhsBatch by decide), dif_pos (show (1 : Fin S128x32.rank) ∈ dot_S1024x128_S128x32_S1024x32_1_0_0_1_n_n.rhsNonContracting by decide)]
  rfl

/-- The first matmul into the zero accumulator, read at row `p` and column `r`: the row of the left operand
    against the column of the right one. -/
theorem mm1_apply (a : FVec Ideal S1024x128 .bf16) (b : FVec Ideal S128x32 .bf16) (p : Fin 1024) (r : Fin 32) :
    matmul dot_S1024x128_S128x32_S1024x32_1_0_0_1_n_n none a b (constant S1024x32 .f32 0x00000000#32) (ix2 p r)
      = ∑ j : Fin 128, a (ix2 p j) * b (ix2 j r) := by
  simp only [matmul]
  rw [Ideal.matmul_constant_zero_apply, ← Equiv.sum_comp (ValueIdx.contrEquiv1 dot_S1024x128_S128x32_S1024x32_1_0_0_1_n_n 128 rfl rfl).symm]
  refine Finset.sum_congr rfl fun k _ => ?_
  have hk := ValueIdx.contrEquiv1_symm_val dot_S1024x128_S128x32_S1024x32_1_0_0_1_n_n 128 rfl rfl k
  have el : dot_S1024x128_S128x32_S1024x32_1_0_0_1_n_n.lhsIdx (ix2 p r) ((ValueIdx.contrEquiv1 dot_S1024x128_S128x32_S1024x32_1_0_0_1_n_n 128 rfl rfl).symm k) = ix2 p k := funext fun a => Fin.ext (by
    match a with
    | ⟨0, _⟩ => exact lhs_mm1_0 _ _
    | ⟨1, _⟩ => exact (lhs_mm1_1 _ _).trans hk)
  have er : dot_S1024x128_S128x32_S1024x32_1_0_0_1_n_n.rhsIdx (ix2 p r) ((ValueIdx.contrEquiv1 dot_S1024x128_S128x32_S1024x32_1_0_0_1_n_n 128 rfl rfl).symm k) = ix2 k r := funext fun a => Fin.ext (by
    match a with
    | ⟨0, _⟩ => exact (rhs_mm1_0 _ _).trans hk
    | ⟨1, _⟩ => exact rhs_mm1_1 _ _)
  rw [el, er]

/-! ## The second matmul's operand indices -/

theorem lhs_mm2_0 (i : S1024x1.Idx) (q : dot_S1024x32_S32x1_S1024x1_1_0_0_1_n_n.contr.Idx) :
    (dot_S1024x32_S32x1_S1024x1_1_0_0_1_n_n.lhsIdx i q 0).val = (i 0).val := by
  unfold DotDims.lhsIdx
  rw [dif_neg (show ¬(0 : Fin S1024x32.rank) ∈ dot_S1024x32_S32x1_S1024x1_1_0_0_1_n_n.lhsBatch by decide), dif_pos (show (0 : Fin S1024x32.rank) ∈ dot_S1024x32_S32x1_S1024x1_1_0_0_1_n_n.lhsNonContracting by decide)]
  rfl
theorem lhs_mm2_1 (i : S1024x1.Idx) (q : dot_S1024x32_S32x1_S1024x1_1_0_0_1_n_n.contr.Idx) :
    (dot_S1024x32_S32x1_S1024x1_1_0_0_1_n_n.lhsIdx i q 1).val = (q ⟨0, by decide⟩).val :=
  dot_S1024x32_S32x1_S1024x1_1_0_0_1_n_n.lhsIdx_val_of_single rfl i q
theorem rhs_mm2_0 (i : S1024x1.Idx) (q : dot_S1024x32_S32x1_S1024x1_1_0_0_1_n_n.contr.Idx) :
    (dot_S1024x32_S32x1_S1024x1_1_0_0_1_n_n.rhsIdx i q 0).val = (q ⟨0, by decide⟩).val :=
  dot_S1024x32_S32x1_S1024x1_1_0_0_1_n_n.rhsIdx_val_of_single rfl i q
theorem rhs_mm2_1 (i : S1024x1.Idx) (q : dot_S1024x32_S32x1_S1024x1_1_0_0_1_n_n.contr.Idx) :
    (dot_S1024x32_S32x1_S1024x1_1_0_0_1_n_n.rhsIdx i q 1).val = (i 1).val := by
  unfold DotDims.rhsIdx
  rw [dif_neg (show ¬(1 : Fin S32x1.rank) ∈ dot_S1024x32_S32x1_S1024x1_1_0_0_1_n_n.rhsBatch by decide), dif_pos (show (1 : Fin S32x1.rank) ∈ dot_S1024x32_S32x1_S1024x1_1_0_0_1_n_n.rhsNonContracting by decide)]
  rfl

/-- The second matmul into the zero accumulator, read at row `p` of its one column. -/
theorem mm2_apply (a : FVec Ideal S1024x32 .bf16) (b : FVec Ideal S32x1 .bf16) (p : Fin 1024) (z : Fin 1) :
    matmul dot_S1024x32_S32x1_S1024x1_1_0_0_1_n_n none a b (constant S1024x1 .f32 0x00000000#32) (ix2 p z)
      = ∑ r : Fin 32, a (ix2 p r) * b (ix2 r z) := by
  simp only [matmul]
  rw [Ideal.matmul_constant_zero_apply, ← Equiv.sum_comp (ValueIdx.contrEquiv1 dot_S1024x32_S32x1_S1024x1_1_0_0_1_n_n 32 rfl rfl).symm]
  refine Finset.sum_congr rfl fun k _ => ?_
  have hk := ValueIdx.contrEquiv1_symm_val dot_S1024x32_S32x1_S1024x1_1_0_0_1_n_n 32 rfl rfl k
  have el : dot_S1024x32_S32x1_S1024x1_1_0_0_1_n_n.lhsIdx (ix2 p z) ((ValueIdx.contrEquiv1 dot_S1024x32_S32x1_S1024x1_1_0_0_1_n_n 32 rfl rfl).symm k) = ix2 p k := funext fun a => Fin.ext (by
    match a with
    | ⟨0, _⟩ => exact lhs_mm2_0 _ _
    | ⟨1, _⟩ => exact (lhs_mm2_1 _ _).trans hk)
  have er : dot_S1024x32_S32x1_S1024x1_1_0_0_1_n_n.rhsIdx (ix2 p z) ((ValueIdx.contrEquiv1 dot_S1024x32_S32x1_S1024x1_1_0_0_1_n_n 32 rfl rfl).symm k) = ix2 k z := funext fun a => Fin.ext (by
    match a with
    | ⟨0, _⟩ => exact (rhs_mm2_0 _ _).trans hk
    | ⟨1, _⟩ => exact rhs_mm2_1 _ _)
  rw [el, er]

/-! ## The two bias broadcasts -/

/-- The first bias row broadcast down the 1024 rows, read at `(p, r)`, is the row's entry `r`. -/
theorem bias1_apply (x : FVec Ideal S1x32 .f32) (p : Fin 1024) (r : Fin 32) :
    broadcastTo S1024x32 x broadcasts_S1x32_S1024x32 (ix2 p r) = x (ix2 0 r) :=
  broadcastTo_apply x broadcasts_S1x32_S1024x32 (ix2 p r) (ix2 0 r) (fun a => by
    match a with
    | ⟨0, _⟩ => rfl
    | ⟨1, _⟩ => rfl)

/-- The second bias, one number, broadcast down the 1024 rows. -/
theorem bias2_apply (x : FVec Ideal S1x1 .f32) (p : Fin 1024) (z : Fin 1) :
    broadcastTo S1024x1 x broadcasts_S1x1_S1024x1 (ix2 p z) = x (ix2 0 0) :=
  broadcastTo_apply x broadcasts_S1x1_S1024x1 (ix2 p z) (ix2 0 0) (fun a => by
    match a with
    | ⟨0, _⟩ => rfl
    | ⟨1, _⟩ => rfl)

/-! ## The payload at an index -/

/-- The two-layer head at row `p`, as a function of the five arrays at their literal shapes: the pooled row against
    the first weight matrix plus the first bias, clamped below at zero, against the second weight column, plus the
    second bias. -/
abbrev headVal (a0 : S1024x128.Idx → EReal) (a1 : S128x32.Idx → EReal) (a2 : S1x32.Idx → EReal) (a3 : S32x1.Idx → EReal)
    (a4 : S1x1.Idx → EReal) (p : Fin 1024) : EReal :=
  (∑ r : Fin 32, max ((∑ j : Fin 128, a0 (ix2 p j) * a1 (ix2 j r)) + a2 (ix2 0 r)) 0 * a3 (ix2 r 0)) + a4 (ix2 0 0)

/-- The same, as an equation to rewrite with. -/
theorem headVal_def (a0 : S1024x128.Idx → EReal) (a1 : S128x32.Idx → EReal) (a2 : S1x32.Idx → EReal) (a3 : S32x1.Idx → EReal)
    (a4 : S1x1.Idx → EReal) (p : Fin 1024) : headVal a0 a1 a2 a3 a4 p
      = (∑ r : Fin 32, max ((∑ j : Fin 128, a0 (ix2 p j) * a1 (ix2 j r)) + a2 (ix2 0 r)) 0 * a3 (ix2 r 0)) + a4 (ix2 0 0) := rfl

/-- The body's stored value at row `p` is the head there. -/
theorem pay2_apply (x0 : Vec Ideal S1024x128 .f32) (x1 : Vec Ideal S128x32 .f32) (x2 : Vec Ideal S1x32 .f32)
    (x3 : Vec Ideal S32x1 .f32) (x4 : Vec Ideal S1x1 .f32) (p : Fin 1024) :
    k2_pay1 (F := Ideal) x0 x1 x2 x3 x4 (ix2 p 0) = headVal x0 x1 x2 x3 x4 p := by
  show _ = (∑ r : Fin 32, max ((∑ j : Fin 128, x0 (ix2 p j) * x1 (ix2 j r)) + x2 (ix2 0 r)) 0 * x3 (ix2 r 0)) + x4 (ix2 0 0)
  unfold k2_pay1
  simp only [shapeCast_self]
  rw [addf_apply, mm2_apply, bias2_apply]
  refine congrArg (· + x4 (ix2 0 0)) (Finset.sum_congr rfl fun r _ => ?_)
  rw [truncf_apply, truncf_apply, maximumf_apply, addf_apply, mm1_apply, bias1_apply, broadcast_apply]
  simp only [truncf_apply]
  rw [show (Scalar.ofBits (F := Ideal) .f32 0x00000000#32 : Ideal .f32) = 0 from Ideal.ofBits_zero_f32]

/-! ## From the one block to the array -/

section Array
variable (V : (c : Dev nD) → (b : Ref sig .tc) → Buf (Elt Ideal) ((c : Thread nD τ).loc b))

theorem hz2 : (![0, 0] : Fin 2 → Nat) = fun _ => 0 := funext fun a => by fin_cases a <;> rfl

/-- Each window's one block is the block of index zero on both axes (decided over the one-point grid). -/
theorem idx_facts2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- So each input window's block is the whole array as the region finds it. -/
theorem iblk2_0 (c : Dev nD) (t : Fin cfg2.N) : (iblk2 V c 0 t : S1024x128.Idx → EReal) = V c main_v51 := by
  obtain ⟨e0, e1, -⟩ := idx_facts2 t
  funext y
  show V c main_v51 (((cfg2.win 0).blk t).view.emb y) = V c main_v51 y
  refine congrArg _ (funext fun a => Fin.ext ?_)
  match a with
  | ⟨0, _⟩ => show win2_0.index t (0 : Fin 2) * 1024 + 1 * (y 0).val = (y 0).val; omega
  | ⟨1, _⟩ => show win2_0.index t (1 : Fin 2) * 128 + 1 * (y 1).val = (y 1).val; omega
theorem iblk2_1 (c : Dev nD) (t : Fin cfg2.N) : (iblk2 V c 1 t : S128x32.Idx → EReal) = V c main_arg7 := by
  obtain ⟨-, -, e0, e1, -⟩ := idx_facts2 t
  funext y
  show V c main_arg7 (((cfg2.win 1).blk t).view.emb y) = V c main_arg7 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 32 + 1 * (y 1).val = (y 1).val; omega
theorem iblk2_2 (c : Dev nD) (t : Fin cfg2.N) : (iblk2 V c 2 t : S1x32.Idx → EReal) = V c main_v52 := by
  obtain ⟨-, -, -, -, e0, e1, -⟩ := idx_facts2 t
  funext y
  show V c main_v52 (((cfg2.win 2).blk t).view.emb y) = V c main_v52 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 32 + 1 * (y 1).val = (y 1).val; omega
theorem iblk2_3 (c : Dev nD) (t : Fin cfg2.N) : (iblk2 V c 3 t : S32x1.Idx → EReal) = V c main_arg9 := by
  obtain ⟨-, -, -, -, -, -, e0, e1, -⟩ := idx_facts2 t
  funext y
  show V c main_arg9 (((cfg2.win 3).blk t).view.emb y) = V c main_arg9 y
  refine congrArg _ (funext fun a => Fin.ext ?_)
  match a with
  | ⟨0, _⟩ => show win2_3.index t (0 : Fin 2) * 32 + 1 * (y 0).val = (y 0).val; omega
  | ⟨1, _⟩ => show win2_3.index t (1 : Fin 2) * 1 + 1 * (y 1).val = (y 1).val; omega
theorem iblk2_4 (c : Dev nD) (t : Fin cfg2.N) : (iblk2 V c 4 t : S1x1.Idx → EReal) = V c main_v53 := by
  obtain ⟨-, -, -, -, -, -, -, -, e0, e1, -⟩ := idx_facts2 t
  funext y
  show V c main_v53 (((cfg2.win 4).blk t).view.emb y) = V c main_v53 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 1 + 1 * (y 1).val = (y 1).val; omega

/-- The output array as one function of the five arrays the region finds: the head's value on them. -/
abbrev G2 (c : Dev nD) : S1024x1.Idx → EReal :=
  k2_pay1 (F := Ideal) (V c main_v51) (V c main_arg7) (V c main_v52) (V c main_arg9) (V c main_v53)

/-- What the one point writes back is the one block of `G2`. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S1024x128) hz2, View.ld_unit_zero (S := S128x32) hz2, View.ld_unit_zero (S := S1x32) hz2,
    View.ld_unit_zero (S := S32x1) hz2, View.ld_unit_zero (S := S1x1) hz2]
  rw [iblk2_0, iblk2_1, iblk2_2, iblk2_3, iblk2_4]
  obtain ⟨-, -, -, -, -, -, -, -, -, -, e0, e1⟩ := idx_facts2 t
  funext y
  show G2 V c y = G2 V c (((cfg2.win 5).blk t).view.emb y)
  refine congrArg _ (funext fun a => Fin.ext ?_)
  match a with
  | ⟨0, _⟩ => show (y 0).val = win2_5.index t (0 : Fin 2) * 1024 + 1 * (y 0).val; omega
  | ⟨1, _⟩ => show (y 1).val = win2_5.index t (1 : Fin 2) * 1 + 1 * (y 1).val; omega

/-- An index of the output array is in the point's block iff each coordinate is in the block's range on its axis. -/
theorem mem_blk2 (t : Fin cfg2.N) (i : S1024x1.Idx) :
    i ∈ ((cfg2.win 5).blk t).view.set ↔ ∀ a : Fin 2, win2_5.index t a * S1024x1.size a ≤ (i a).val ∧ (i a).val < win2_5.index t a * S1024x1.size a + S1024x1.size a := by
  show i ∈ ((View.whole main_v54).slice (win2_5.rect t)).set ↔ _
  rw [View.set_slice_whole, Rect.mem_set_unit]
  exact Iff.rfl

/-- The one point's block is the whole output array. -/
theorem cover2 (i : S1024x1.Idx) : ∃ t : Fin cfg2.N, (cfg2.win 5).flush t = true ∧ i ∈ ((cfg2.win 5).blk t).view.set := by
  refine ⟨t2_0, flush2_5 t2_0, ?_⟩
  obtain ⟨-, -, -, -, -, -, -, -, -, -, e0, e1⟩ := idx_facts2 t2_0
  rw [mem_blk2]
  intro a
  have h0 : (i 0).val < 1024 := idx2_lt0 i
  have h1 : (i 1).val < 1 := idx2_lt1 i
  match a with
  | ⟨0, _⟩ => show win2_5.index t2_0 (0 : Fin 2) * 1024 ≤ (i 0).val ∧ (i 0).val < win2_5.index t2_0 (0 : Fin 2) * 1024 + 1024; omega
  | ⟨1, _⟩ => show win2_5.index t2_0 (1 : Fin 2) * 1 ≤ (i 1).val ∧ (i 1).val < win2_5.index t2_0 (1 : Fin 2) * 1 + 1; omega

/-- The output array after the region is `G2` of the arrays the region finds. -/
theorem final2_arr (c : Dev nD) : (dat2 (F := Ideal) V c).arrAt 5 cfg2.N = G2 V c :=
  (dat2 (F := Ideal) V c).arrAt_eq_of_cover 5 (G2 V c) (fun t _ => flushed2_eq V c t) cover2

/-- Row `q` of the output array after the region: the two-layer head of row `q` of the pooled features. -/
theorem final2 (c : Dev nD) (q : Fin 1024) : (dat2 (F := Ideal) V c).arrAt 5 cfg2.N (ix2 q 0) =
    headVal (V c main_v51) (V c main_arg7) (V c main_v52) (V c main_arg9) (V c main_v53) q :=
  (congrFun (final2_arr V c) (ix2 q 0)).trans (pay2_apply _ _ _ _ _ q)

end Array

end Cert.KernelIdeal.Hand

end
-- ==== Proof.Spec.lean ====
/-
  The graph-convolution network both programs compute, as mathematics over finite index types and the
  extended reals: nodes `N`, edges `E`, hidden features `H`, graphs `G`, head features `R`.

  An edge `e` sends its message to the node `tgt e` (none: the message is dropped), and reads its source row at
  `gsrc e` and its destination's normaliser at `gdst e`.  A node `i` is pooled into the graph `tb i` (none: dropped).

  One graph-convolution layer on features `h`:   out i k = Σ_{e → i} h (gsrc e) k · (d (gsrc e) · d (gdst e)) + h i k · (1 / deg i) + b k
  with deg i = #{e → i} + 1 and d = deg^(-1/2).  The second form scales by `d` at the source BEFORE the sum and by `d` at
  the destination AFTER it, and writes the self term as h·d·d; the two agree because d i · d i = 1 / deg i for a real
  deg i ≥ 1 and because every message that reaches `i` has `gdst e = i`.
-/
import Idealize.ShloMosaic.PureOps.Ideal

noncomputable section

namespace Cert.Gcn

open Idealize.ShloMosaic

variable {E N H G R : Type} [Fintype E] [Fintype N] [Fintype H] [Fintype G] [Fintype R] [DecidableEq N] [DecidableEq G]

/-- Where each edge's message goes and which rows it reads; where each node is pooled. -/
structure Graph (E N G : Type) where
  tgt : E → Option N
  gsrc : E → N
  gdst : E → N
  tb : N → Option G

/-- The network's parameters and the node inputs. -/
structure Net (N H R : Type) where
  x : N → EReal
  W1 : H → EReal
  b1 : H → EReal
  W2 : H → H → EReal
  b2 : H → EReal
  Wf1 : H → R → EReal
  bf1 : R → EReal
  Wf2 : R → EReal
  bf2 : EReal

/-- Every parameter and input is a real number. -/
structure Net.Finite (p : Net N H R) : Prop where
  x : ∀ i, ∃ r : ℝ, p.x i = r
  W1 : ∀ k, ∃ r : ℝ, p.W1 k = r
  b1 : ∀ k, ∃ r : ℝ, p.b1 k = r
  W2 : ∀ k j, ∃ r : ℝ, p.W2 k j = r
  b2 : ∀ k, ∃ r : ℝ, p.b2 k = r
  Wf1 : ∀ k j, ∃ r : ℝ, p.Wf1 k j = r
  bf1 : ∀ k, ∃ r : ℝ, p.bf1 k = r
  Wf2 : ∀ k, ∃ r : ℝ, p.Wf2 k = r
  bf2 : ∃ r : ℝ, p.bf2 = r

variable (g : Graph E N G) (p : Net N H R)

/-- The messages that reach node `i`. -/
def into (i : N) : Finset E := Finset.univ.filter fun e => g.tgt e = some i
/-- The nodes pooled into graph `q`. -/
def pooled (q : G) : Finset N := Finset.univ.filter fun i => g.tb i = some q

/-- In-degree plus the self loop. -/
def deg (i : N) : EReal := (0 + ∑ _e ∈ into g i, (1 : EReal)) + 1
/-- deg^(-1/2). -/
def dinv (i : N) : EReal := Ideal.rsqrt (deg g i)

/-! ## The reference's arrangement -/

/-- One layer, normalising each message by both ends and the self term by 1/deg. -/
def refLayer (h : N → H → EReal) (b : H → EReal) (i : N) (k : H) : EReal :=
  ((0 + ∑ e ∈ into g i, h (g.gsrc e) k * (dinv g (g.gsrc e) * dinv g (g.gdst e))) + h i k * Ideal.div 1 (deg g i)) + b k

def refH1 (i : N) (k : H) : EReal := max (refLayer g (fun i k => p.x i * p.W1 k) p.b1 i k) 0
def refLin2 (i : N) (j : H) : EReal := ∑ k, refH1 g p i k * p.W2 k j
def refH2 (i : N) (j : H) : EReal := max (refLayer g (refLin2 g p) p.b2 i j) 0
/-- Nodes per graph. -/
def cnt (q : G) : EReal := 0 + ∑ _i ∈ pooled g q, (1 : EReal)
def refPool (q : G) (j : H) : EReal := Ideal.div (0 + ∑ i ∈ pooled g q, refH2 g p i j) (max (cnt g q) 1)

/-! ## The head, shared by both arrangements -/

def headHidden (pl : G → H → EReal) (q : G) (r : R) : EReal := max ((∑ j, pl q j * p.Wf1 j r) + p.bf1 r) 0
def head (pl : G → H → EReal) (q : G) : EReal := (∑ r, headHidden p pl q r * p.Wf2 r) + p.bf2

def refOut (q : G) : EReal := head p (refPool g p) q

/-! ## The kernel's arrangement -/

/-- The scalar input scaled at the source. -/
def kY (i : N) : EReal := p.x i * dinv g i
/-- Layer 1 aggregated on the one input feature, scaled at the destination. -/
def kS (i : N) : EReal := ((0 + ∑ e ∈ into g i, kY g p (g.gsrc e)) + kY g p i) * dinv g i
def kH1 (i : N) (k : H) : EReal := max (kS g p i * p.W1 k + p.b1 k) 0
/-- Layer 2's linear map, scaled at the source. -/
def kHd (i : N) (j : H) : EReal := (∑ k, kH1 g p i k * p.W2 k j) * dinv g i
def kAgg (i : N) (j : H) : EReal := 0 + ∑ e ∈ into g i, kHd g p (g.gsrc e) j
def kH2 (i : N) (j : H) : EReal := max ((kAgg g p i j + kHd g p i j) * dinv g i + p.b2 j) 0
/-- The pooled sum as a product with the membership indicator, times the reciprocal of the count. -/
def kPool (q : G) (j : H) : EReal :=
  (∑ i, (if g.tb i = some q then (1 : EReal) else 0) * kH2 g p i j) * Ideal.div 1 (max (cnt g q) 1)

def kOut (q : G) : EReal := head p (kPool g p) q

end Cert.Gcn

end
-- ==== Proof.LibIndexRows.lean ====
/-
  An index word read as a row of an array with `n` rows.  The word is a signed 32-bit integer.  A scatter drops an
  update whose row is outside `[0, n)` (`rowTgt`); a gather clamps its row into `[0, n - 1]` (`rowClamp`);
  numpy-style indexing first adds the extent to a negative index (`wrapIdx`).
-/
import Idealize.ShloMosaic.PureOps.Ideal

namespace Cert.Gcn

/-- The row a scatter index names, when it names one: the word read signed, inside `[0, n)`. -/
def rowTgt (n : Nat) (v : BitVec 32) : Option (Fin n) :=
  if h : 0 ≤ v.toInt ∧ v.toInt < (n : Int) then some ⟨v.toInt.toNat, by omega⟩ else none

/-- The row a gather index reads: the word read signed and clamped into `[0, n - 1]`. -/
def rowClamp (n : Nat) (hn : 0 < n) (v : BitVec 32) : Fin n := ⟨min v.toInt.toNat (n - 1), by omega⟩

/-- numpy's reading of a negative index: the extent is added to it. -/
def wrapIdx (n : BitVec 32) (v : BitVec 32) : BitVec 32 := if v.toInt < 0 then v + n else v

end Cert.Gcn
-- ==== Proof.Concrete.lean ====
/-
  The graph and the parameters of `Spec.lean` read off the argument arrays, over the literal shapes:
  100000 nodes, 1600000 edges (row 0 of `edge_index` the sources, row 1 the destinations), 128 hidden features,
  1024 graphs, 32 head features.

  An index word is read as a signed integer.  A scatter drops an update whose row is outside `[0, n)` (`rowTgt`);
  a gather clamps its row into `[0, n - 1]` (`rowClamp`); numpy-style indexing first adds `n` to a negative index
  (`wrapIdx`).  A message that reaches node `i` therefore has destination word exactly `i`, so the row its
  destination's normaliser is gathered from is `i` as well (`mkGraph_gdst`).
-/
import proofs.«420787_j68083821576362_3_alg».proof.Proof.Spec
import proofs.«420787_j68083821576362_3_alg».proof.Proof.LibIndexRows
import Idealize.ShloMosaic.Lib.ValueIdx

noncomputable section

namespace Cert.Gcn

open Idealize.ShloMosaic Idealize.ShloMosaic.ValueIdx

abbrev SEdgeIndex : Shape := ⟨2, ![2, 1600000]⟩
abbrev SNodes : Shape := ⟨1, ![100000]⟩
abbrev SX : Shape := ⟨2, ![100000, 1]⟩
abbrev SW1 : Shape := ⟨2, ![1, 128]⟩
abbrev SB : Shape := ⟨1, ![128]⟩
abbrev SW2 : Shape := ⟨2, ![128, 128]⟩
abbrev SWf1 : Shape := ⟨2, ![128, 32]⟩
abbrev SBf1 : Shape := ⟨1, ![32]⟩
abbrev SWf2 : Shape := ⟨2, ![32, 1]⟩
abbrev SBf2 : Shape := ⟨1, ![1]⟩
abbrev SOut : Shape := ⟨1, ![1024]⟩

/-- The graph of an `edge_index` array and a `batch` array. -/
def mkGraph (ei : SEdgeIndex.Idx → BitVec 32) (batch : SNodes.Idx → BitVec 32) :
    Graph (Fin 1600000) (Fin 100000) (Fin 1024) where
  tgt e := rowTgt 100000 (ei (ix2 1 e))
  gsrc e := rowClamp 100000 (by decide) (wrapIdx 100000#32 (ei (ix2 0 e)))
  gdst e := rowClamp 100000 (by decide) (wrapIdx 100000#32 (ei (ix2 1 e)))
  tb i := rowTgt 1024 (batch (ix1 i))

/-- The parameters and inputs of the argument arrays. -/
def mkNet (x : SX.Idx → EReal) (W1 : SW1.Idx → EReal) (b1 : SB.Idx → EReal) (W2 : SW2.Idx → EReal) (b2 : SB.Idx → EReal)
    (Wf1 : SWf1.Idx → EReal) (bf1 : SBf1.Idx → EReal) (Wf2 : SWf2.Idx → EReal) (bf2 : SBf2.Idx → EReal) :
    Net (Fin 100000) (Fin 128) (Fin 32) where
  x i := x (ix2 i 0)
  W1 k := W1 (ix2 0 k)
  b1 k := b1 (ix1 k)
  W2 k j := W2 (ix2 k j)
  b2 k := b2 (ix1 k)
  Wf1 j r := Wf1 (ix2 j r)
  bf1 r := bf1 (ix1 r)
  Wf2 r := Wf2 (ix2 r 0)
  bf2 := bf2 (ix1 0)

end Cert.Gcn

end
-- ==== Proof.LibScatterGather.lean ====
/-
  Row scatter-add and row gather READ AT AN INDEX, generic in the extents.

  Scatter indices and start indices form an array `[e, 1]`: one signed 32-bit word per update (per result row).
  A scatter-add into `[n]` (updates `[e]`) or into `[n, h]` (updates `[e, h]`, each a whole row) gives, at row `i`,
  the operand's element plus the sum of the updates `a` whose word names row `i` — a word outside `[0, n)` names no
  row and its update is dropped (`rowTgt`). A gather from `[n]` or of rows from `[n, h]` reads, at result row `a`, the
  operand's row at the word of `a` clamped into `[0, n - 1]` (`rowClamp`). The dimension numbers enter only through
  their field values, taken as hypotheses, so each statement applies to any record with those fields.
-/
import proofs.«420787_j68083821576362_3_alg».proof.Proof.LibIndexRows
import Idealize.ShloMosaic.Lib.ValueIdx
import Idealize.ShloMosaic.PureOps.Ideal

noncomputable section

open scoped BigOperators
open Idealize.ShloMosaic Idealize.ShloMosaic.ValueIdx

namespace Cert.Gcn

/-! ## Scatter-add of rows into `[n, h]` -/

/-- The dimension numbers of a scatter of rows: indices `[e, 1]`, updates `[e, h]` into `[n, h]`. -/
abbrev rowsDims (n h e : Nat) (wf : ScatterDims.WF ⟨2, ![n, h]⟩ ⟨2, ![e, 1]⟩ ⟨2, ![e, h]⟩ [1] [0] [0] 1) :
    ScatterDims ⟨2, ![n, h]⟩ ⟨2, ![e, 1]⟩ ⟨2, ![e, h]⟩ where
  updateWindowDims := [1]
  insertedWindowDims := [0]
  scatterDimsToOperandDims := [0]
  indexVectorDim := 1
  wf := wf

section Rows
variable {n h e : Nat} (wf : ScatterDims.WF ⟨2, ![n, h]⟩ ⟨2, ![e, 1]⟩ ⟨2, ![e, h]⟩ [1] [0] [0] 1)
  (idx : IVec ⟨2, ![e, 1]⟩ 32) (a : Fin e) (k : Fin h)

/-- The window of update `(a, k)` starts, on the row axis, at the word of `a`, read signed … -/
theorem rowsDims_start0 (p : 0 < 2) : (rowsDims n h e wf).start (ix2 a k) idx ⟨0, p⟩ = (idx (ix2 a 0)).toInt := by
  unfold ScatterDims.start
  rw [dif_pos (show (⟨0, p⟩ : Fin 2) ∈ (rowsDims n h e wf).scatterDimsToOperandDims from List.mem_singleton.mpr rfl)]
  have hsi : (rowsDims n h e wf).siIdx (ix2 a k) ⟨List.idxOf (⟨0, p⟩ : Fin 2) (rowsDims n h e wf).scatterDimsToOperandDims,
      List.idxOf_lt_length_iff.2 (List.mem_singleton.mpr rfl)⟩ = ix2 a 0 := by
    funext b
    refine Fin.ext ?_
    match b with
    | ⟨0, _⟩ => rfl
    | ⟨1, _⟩ => rfl
  rw [hsi]

/-- … and at `0` on the column axis, which the indices do not name. -/
theorem rowsDims_start1 (p : 1 < 2) : (rowsDims n h e wf).start (ix2 a k) idx ⟨1, p⟩ = 0 := rfl
/-- The row axis is inserted: no window coordinate there … -/
theorem rowsDims_window0 (p : 0 < 2) : (rowsDims n h e wf).window (ix2 a k) ⟨0, p⟩ = 0 := rfl
/-- … and the column axis carries the update's column. -/
theorem rowsDims_window1 (p : 1 < 2) : (rowsDims n h e wf).window (ix2 a k) ⟨1, p⟩ = k.val := rfl

/-- Where the update `(a, k)` lands: in row `rowTgt` of its word, column `k`; nowhere when the word names no row. -/
theorem rowsDims_resultIdx? :
    (rowsDims n h e wf).resultIdx? (ix2 a k) idx = (rowTgt n (idx (ix2 a 0))).map (fun i => ix2 i k) := by
  unfold ScatterDims.resultIdx? rowTgt
  by_cases hv : 0 ≤ (idx (ix2 a 0)).toInt ∧ (idx (ix2 a 0)).toInt < (n : Int)
  · have hall : ∀ c : Fin 2, 0 ≤ (rowsDims n h e wf).start (ix2 a k) idx c + ((rowsDims n h e wf).window (ix2 a k) c : Int) ∧
        (rowsDims n h e wf).start (ix2 a k) idx c + ((rowsDims n h e wf).window (ix2 a k) c : Int)
          < ((⟨2, ![n, h]⟩ : Shape).size c : Int) := fun c =>
      match c with
      | ⟨0, p⟩ => by
        rw [rowsDims_start0, rowsDims_window0]
        show 0 ≤ (idx (ix2 a 0)).toInt + ((0 : Nat) : Int) ∧ (idx (ix2 a 0)).toInt + ((0 : Nat) : Int) < (n : Int)
        omega
      | ⟨1, p⟩ => by
        rw [rowsDims_start1, rowsDims_window1]
        show 0 ≤ (0 : Int) + (k.val : Int) ∧ (0 : Int) + (k.val : Int) < (h : Int)
        have := k.isLt
        omega
    rw [dif_pos hall, dif_pos hv, Option.map_some]
    congr 1
    funext c
    refine Fin.ext ?_
    match c with
    | ⟨0, p⟩ =>
      show ((rowsDims n h e wf).start (ix2 a k) idx ⟨0, p⟩ + ((rowsDims n h e wf).window (ix2 a k) ⟨0, p⟩ : Int)).toNat
        = (idx (ix2 a 0)).toInt.toNat
      rw [rowsDims_start0, rowsDims_window0]
      simp
    | ⟨1, p⟩ =>
      show ((rowsDims n h e wf).start (ix2 a k) idx ⟨1, p⟩ + ((rowsDims n h e wf).window (ix2 a k) ⟨1, p⟩ : Int)).toNat
        = k.val
      rw [rowsDims_start1, rowsDims_window1]
      simp
  · have hnall : ¬ ∀ c : Fin 2, 0 ≤ (rowsDims n h e wf).start (ix2 a k) idx c + ((rowsDims n h e wf).window (ix2 a k) c : Int) ∧
        (rowsDims n h e wf).start (ix2 a k) idx c + ((rowsDims n h e wf).window (ix2 a k) c : Int)
          < ((⟨2, ![n, h]⟩ : Shape).size c : Int) := fun hall => hv (by
      have h0 := hall ⟨0, by decide⟩
      rw [rowsDims_start0, rowsDims_window0] at h0
      have h0' : 0 ≤ (idx (ix2 a 0)).toInt + ((0 : Nat) : Int) ∧ (idx (ix2 a 0)).toInt + ((0 : Nat) : Int) < (n : Int) := h0
      omega)
    rw [dif_neg hnall, dif_neg hv]
    rfl

/-- The scatter-add of rows at `(i, k)`, for the record `rowsDims`. -/
theorem rowsDims_hostScatterAdd (x : (⟨2, ![n, h]⟩ : Shape).Idx → EReal) (upd : (⟨2, ![e, h]⟩ : Shape).Idx → EReal)
    (i : Fin n) :
    Ideal.hostScatterAdd (rowsDims n h e wf) x idx upd (ix2 i k)
      = x (ix2 i k) + ∑ a ∈ Finset.univ.filter (fun a : Fin e => rowTgt n (idx (ix2 a 0)) = some i), upd (ix2 a k) := by
  unfold Ideal.hostScatterAdd
  congr 1
  rw [Finset.sum_filter, Finset.sum_filter, sum_idx2]
  refine Finset.sum_congr rfl fun a _ => ?_
  by_cases ha : rowTgt n (idx (ix2 a 0)) = some i
  · rw [if_pos ha, Finset.sum_eq_single k]
    · rw [if_pos]
      rw [rowsDims_resultIdx?, ha]
      rfl
    · intro b _ hb
      rw [if_neg]
      rw [rowsDims_resultIdx?, ha]
      intro hh
      exact hb (congrFun (Option.some.inj hh) 1)
    · intro hk
      exact absurd (Finset.mem_univ k) hk
  · rw [if_neg ha]
    refine Finset.sum_eq_zero fun b _ => ?_
    rw [if_neg]
    rw [rowsDims_resultIdx?]
    intro hh
    apply ha
    cases hr : rowTgt n (idx (ix2 a 0)) with
    | none => rw [hr] at hh; exact absurd hh (by simp)
    | some i' =>
      rw [hr] at hh
      exact congrArg some (congrFun (Option.some.inj hh) 0)

end Rows

/-- SCATTER-ADD OF ROWS AT `(i, k)`: the operand's element plus the column-`k` entries of the update rows whose word
    names row `i`. For any dimension numbers with these field values. -/
theorem hostScatterAdd_rows_apply {n h e : Nat}
    (d : ScatterDims ⟨2, ![n, h]⟩ ⟨2, ![e, 1]⟩ ⟨2, ![e, h]⟩)
    (h1 : d.updateWindowDims = [1]) (h2 : d.insertedWindowDims = [0]) (h3 : d.scatterDimsToOperandDims = [0])
    (h4 : d.indexVectorDim = 1)
    (x : (⟨2, ![n, h]⟩ : Shape).Idx → EReal) (idx : IVec ⟨2, ![e, 1]⟩ 32) (upd : (⟨2, ![e, h]⟩ : Shape).Idx → EReal)
    (i : Fin n) (k : Fin h) :
    Ideal.hostScatterAdd d x idx upd (ix2 i k)
      = x (ix2 i k) + ∑ a ∈ Finset.univ.filter (fun a : Fin e => rowTgt n (idx (ix2 a 0)) = some i), upd (ix2 a k) := by
  obtain ⟨uw, iw, sd, iv, wf⟩ := d
  dsimp only at h1 h2 h3 h4
  subst h1 h2 h3 h4
  exact rowsDims_hostScatterAdd wf idx k x upd i

/-- The same for the host operation at the ideal instance, where it is that exact sum. -/
theorem scatterAdd_rows_apply {n h e : Nat} {φ : FTy}
    (d : ScatterDims ⟨2, ![n, h]⟩ ⟨2, ![e, 1]⟩ ⟨2, ![e, h]⟩)
    (h1 : d.updateWindowDims = [1]) (h2 : d.insertedWindowDims = [0]) (h3 : d.scatterDimsToOperandDims = [0])
    (h4 : d.indexVectorDim = 1)
    (x : FVec Ideal ⟨2, ![n, h]⟩ φ) (idx : IVec ⟨2, ![e, 1]⟩ 32) (upd : FVec Ideal ⟨2, ![e, h]⟩ φ)
    (i : Fin n) (k : Fin h) :
    Host.scatterAdd (F := Ideal) d x idx upd (ix2 i k)
      = x (ix2 i k) + ∑ a ∈ Finset.univ.filter (fun a : Fin e => rowTgt n (idx (ix2 a 0)) = some i), upd (ix2 a k) :=
  hostScatterAdd_rows_apply d h1 h2 h3 h4 x idx upd i k

/-! ## Gather of rows out of `[n, h]` -/

/-- The dimension numbers of a gather of rows: start indices `[e, 1]`, result `[e, h]` out of `[n, h]`. -/
abbrev rowsTake (n h e : Nat) (wf : GatherDims.WF ⟨2, ![n, h]⟩ ⟨2, ![e, 1]⟩ ⟨2, ![e, h]⟩ [1] [0] [] [0] [] 1 ![1, h]) :
    GatherDims ⟨2, ![n, h]⟩ ⟨2, ![e, 1]⟩ ⟨2, ![e, h]⟩ where
  offsetDims := [1]
  collapsedSliceDims := [0]
  operandBatchingDims := []
  startIndicesBatchingDims := []
  startIndexMap := [0]
  indexVectorDim := 1
  sliceSizes := ![1, h]
  wf := wf

section TakeRows
variable {α : Type} {n h e : Nat}
  (wf : GatherDims.WF ⟨2, ![n, h]⟩ ⟨2, ![e, 1]⟩ ⟨2, ![e, h]⟩ [1] [0] [] [0] [] 1 ![1, h])
  (idx : IVec ⟨2, ![e, 1]⟩ 32) (a : Fin e) (k : Fin h)

/-- On the row axis the operand index is the word of `a`, clamped. -/
theorem rowsTake_operandIdx0 (p : 0 < 2) :
    ((rowsTake n h e wf).operandIdx (ix2 a k) idx ⟨0, p⟩).val = min (idx (ix2 a 0)).toInt.toNat (n - 1) := by
  show (rowsTake n h e wf).start (ix2 a k) idx ⟨0, p⟩ + (rowsTake n h e wf).batchCoord (ix2 a k) ⟨0, p⟩
    + (rowsTake n h e wf).offCoord (ix2 a k) ⟨0, p⟩ = _
  rw [GatherDims.batchCoord_eq_zero _ _ _ List.not_mem_nil,
    GatherDims.offCoord_eq_zero _ _ _ (fun hm => ((GatherDims.mem_sKept _ _).mp hm).1 (List.mem_singleton.mpr rfl))]
  simp only [Nat.add_zero]
  unfold GatherDims.start
  rw [dif_pos (show (⟨0, p⟩ : Fin 2) ∈ (rowsTake n h e wf).startIndexMap from List.mem_singleton.mpr rfl)]
  have hsi : (rowsTake n h e wf).siIdx (ix2 a k) ⟨List.idxOf (⟨0, p⟩ : Fin 2) (rowsTake n h e wf).startIndexMap,
      List.idxOf_lt_length_iff.2 (List.mem_singleton.mpr rfl)⟩ = ix2 a 0 := by
    funext b
    refine Fin.ext ?_
    match b with
    | ⟨0, _⟩ => rfl
    | ⟨1, _⟩ => rfl
  rw [hsi]
  rfl

/-- On the column axis the operand index is the result's column. -/
theorem rowsTake_operandIdx1 (p : 1 < 2) :
    ((rowsTake n h e wf).operandIdx (ix2 a k) idx ⟨1, p⟩).val = k.val := by
  show (rowsTake n h e wf).start (ix2 a k) idx ⟨1, p⟩ + (rowsTake n h e wf).batchCoord (ix2 a k) ⟨1, p⟩
    + (rowsTake n h e wf).offCoord (ix2 a k) ⟨1, p⟩ = _
  have hs : (rowsTake n h e wf).start (ix2 a k) idx ⟨1, p⟩ = 0 := rfl
  have hb : (rowsTake n h e wf).batchCoord (ix2 a k) ⟨1, p⟩ = 0 := rfl
  have ho : (rowsTake n h e wf).offCoord (ix2 a k) ⟨1, p⟩ = k.val := rfl
  rw [hs, hb, ho]
  omega

/-- The gather of rows at `(a, k)`, for the record `rowsTake`. -/
theorem rowsTake_gather (hn : 0 < n) (x : (⟨2, ![n, h]⟩ : Shape).Idx → α) :
    Host.gather (rowsTake n h e wf) x idx (ix2 a k) = x (ix2 (rowClamp n hn (idx (ix2 a 0))) k) := by
  unfold Host.gather
  congr 1
  funext c
  refine Fin.ext ?_
  match c with
  | ⟨0, p⟩ => exact rowsTake_operandIdx0 wf idx a k p
  | ⟨1, p⟩ => exact rowsTake_operandIdx1 wf idx a k p

end TakeRows

/-- GATHER OF ROWS AT `(a, k)`: the operand at the row the word of `a` names, clamped into `[0, n - 1]`, column `k`.
    For any dimension numbers with these field values. -/
theorem gather_rows_apply {α : Type} {n h e : Nat} (hn : 0 < n)
    (d : GatherDims ⟨2, ![n, h]⟩ ⟨2, ![e, 1]⟩ ⟨2, ![e, h]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, h])
    (x : (⟨2, ![n, h]⟩ : Shape).Idx → α) (idx : IVec ⟨2, ![e, 1]⟩ 32) (a : Fin e) (k : Fin h) :
    Host.gather d x idx (ix2 a k) = x (ix2 (rowClamp n hn (idx (ix2 a 0))) k) := by
  obtain ⟨od, cd, ob, sb, sm, iv, ss, wf⟩ := d
  dsimp only at h1 h2 h3 h4 h5 h6 h7
  subst h1 h2 h3 h4 h5 h6 h7
  exact rowsTake_gather wf idx a k hn x

/-! ## Scatter-add of scalars into `[n]` -/

/-- A rank-1 index set is its one coordinate range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The dimension numbers of a scatter of scalars: indices `[e, 1]`, updates `[e]` into `[n]`. -/
abbrev vecDims (n e : Nat) (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

section Vec
variable {n e : Nat} (wf : ScatterDims.WF ⟨1, ![n]⟩ ⟨2, ![e, 1]⟩ ⟨1, ![e]⟩ [] [0] [0] 1)
  (idx : IVec ⟨2, ![e, 1]⟩ 32) (a : Fin e)

/-- The window of update `a` starts at its word, read signed. -/
theorem vecDims_start0 (p : 0 < 1) : (vecDims n e wf).start (ix1 a) idx ⟨0, p⟩ = (idx (ix2 a 0)).toInt := by
  unfold ScatterDims.start
  rw [dif_pos (show (⟨0, p⟩ : Fin 1) ∈ (vecDims n e wf).scatterDimsToOperandDims from List.mem_singleton.mpr rfl)]
  have hsi : (vecDims n e wf).siIdx (ix1 a) ⟨List.idxOf (⟨0, p⟩ : Fin 1) (vecDims n e wf).scatterDimsToOperandDims,
      List.idxOf_lt_length_iff.2 (List.mem_singleton.mpr rfl)⟩ = ix2 a 0 := by
    funext b
    refine Fin.ext ?_
    match b with
    | ⟨0, _⟩ => rfl
    | ⟨1, _⟩ => rfl
  rw [hsi]

/-- The one operand axis is inserted: no window coordinate. -/
theorem vecDims_window0 (p : 0 < 1) : (vecDims n e wf).window (ix1 a) ⟨0, p⟩ = 0 := rfl

/-- Where update `a` lands: at `rowTgt` of its word; nowhere when the word names no element. -/
theorem vecDims_resultIdx? :
    (vecDims n e wf).resultIdx? (ix1 a) idx = (rowTgt n (idx (ix2 a 0))).map (fun i => ix1 i) := by
  unfold ScatterDims.resultIdx? rowTgt
  by_cases hv : 0 ≤ (idx (ix2 a 0)).toInt ∧ (idx (ix2 a 0)).toInt < (n : Int)
  · have hall : ∀ c : Fin 1, 0 ≤ (vecDims n e wf).start (ix1 a) idx c + ((vecDims n e wf).window (ix1 a) c : Int) ∧
        (vecDims n e wf).start (ix1 a) idx c + ((vecDims n e wf).window (ix1 a) c : Int)
          < ((⟨1, ![n]⟩ : Shape).size c : Int) := fun c =>
      match c with
      | ⟨0, p⟩ => by
        rw [vecDims_start0, vecDims_window0]
        show 0 ≤ (idx (ix2 a 0)).toInt + ((0 : Nat) : Int) ∧ (idx (ix2 a 0)).toInt + ((0 : Nat) : Int) < (n : Int)
        omega
    rw [dif_pos hall, dif_pos hv, Option.map_some]
    congr 1
    funext c
    refine Fin.ext ?_
    match c with
    | ⟨0, p⟩ =>
      show ((vecDims n e wf).start (ix1 a) idx ⟨0, p⟩ + ((vecDims n e wf).window (ix1 a) ⟨0, p⟩ : Int)).toNat
        = (idx (ix2 a 0)).toInt.toNat
      rw [vecDims_start0, vecDims_window0]
      simp
  · have hnall : ¬ ∀ c : Fin 1, 0 ≤ (vecDims n e wf).start (ix1 a) idx c + ((vecDims n e wf).window (ix1 a) c : Int) ∧
        (vecDims n e wf).start (ix1 a) idx c + ((vecDims n e wf).window (ix1 a) c : Int)
          < ((⟨1, ![n]⟩ : Shape).size c : Int) := fun hall => hv (by
      have h0 := hall ⟨0, by decide⟩
      rw [vecDims_start0, vecDims_window0] at h0
      have h0' : 0 ≤ (idx (ix2 a 0)).toInt + ((0 : Nat) : Int) ∧ (idx (ix2 a 0)).toInt + ((0 : Nat) : Int) < (n : Int) := h0
      omega)
    rw [dif_neg hnall, dif_neg hv]
    rfl

/-- The scatter-add of scalars at `i`, for the record `vecDims`. -/
theorem vecDims_hostScatterAdd (x : (⟨1, ![n]⟩ : Shape).Idx → EReal) (upd : (⟨1, ![e]⟩ : Shape).Idx → EReal) (i : Fin n) :
    Ideal.hostScatterAdd (vecDims n e wf) x idx upd (ix1 i)
      = x (ix1 i) + ∑ a ∈ Finset.univ.filter (fun a : Fin e => rowTgt n (idx (ix2 a 0)) = some i), upd (ix1 a) := by
  unfold Ideal.hostScatterAdd
  congr 1
  rw [Finset.sum_filter, Finset.sum_filter, sum_idx1]
  refine Finset.sum_congr rfl fun a _ => ?_
  by_cases ha : rowTgt n (idx (ix2 a 0)) = some i
  · rw [if_pos ha, if_pos]
    rw [vecDims_resultIdx?, ha]
    rfl
  · rw [if_neg ha, if_neg]
    rw [vecDims_resultIdx?]
    intro hh
    apply ha
    cases hr : rowTgt n (idx (ix2 a 0)) with
    | none => rw [hr] at hh; exact absurd hh (by simp)
    | some i' =>
      rw [hr] at hh
      exact congrArg some (congrFun (Option.some.inj hh) 0)

end Vec

/-- SCATTER-ADD OF SCALARS AT `i`: the operand's element plus the updates whose word names `i`. For any dimension
    numbers with these field values. -/
theorem hostScatterAdd_vec_apply {n e : Nat}
    (d : ScatterDims ⟨1, ![n]⟩ ⟨2, ![e, 1]⟩ ⟨1, ![e]⟩)
    (h1 : d.updateWindowDims = []) (h2 : d.insertedWindowDims = [0]) (h3 : d.scatterDimsToOperandDims = [0])
    (h4 : d.indexVectorDim = 1)
    (x : (⟨1, ![n]⟩ : Shape).Idx → EReal) (idx : IVec ⟨2, ![e, 1]⟩ 32) (upd : (⟨1, ![e]⟩ : Shape).Idx → EReal) (i : Fin n) :
    Ideal.hostScatterAdd d x idx upd (ix1 i)
      = x (ix1 i) + ∑ a ∈ Finset.univ.filter (fun a : Fin e => rowTgt n (idx (ix2 a 0)) = some i), upd (ix1 a) := by
  obtain ⟨uw, iw, sd, iv, wf⟩ := d
  dsimp only at h1 h2 h3 h4
  subst h1 h2 h3 h4
  exact vecDims_hostScatterAdd wf idx x upd i

/-- The same for the host operation at the ideal instance, where it is that exact sum. -/
theorem scatterAdd_vec_apply {n e : Nat} {φ : FTy}
    (d : ScatterDims ⟨1, ![n]⟩ ⟨2, ![e, 1]⟩ ⟨1, ![e]⟩)
    (h1 : d.updateWindowDims = []) (h2 : d.insertedWindowDims = [0]) (h3 : d.scatterDimsToOperandDims = [0])
    (h4 : d.indexVectorDim = 1)
    (x : FVec Ideal ⟨1, ![n]⟩ φ) (idx : IVec ⟨2, ![e, 1]⟩ 32) (upd : FVec Ideal ⟨1, ![e]⟩ φ) (i : Fin n) :
    Host.scatterAdd (F := Ideal) d x idx upd (ix1 i)
      = x (ix1 i) + ∑ a ∈ Finset.univ.filter (fun a : Fin e => rowTgt n (idx (ix2 a 0)) = some i), upd (ix1 a) :=
  hostScatterAdd_vec_apply d h1 h2 h3 h4 x idx upd i

/-! ## Gather of scalars out of `[n]` -/

/-- The dimension numbers of a gather of scalars: start indices `[e, 1]`, result `[e]` out of `[n]`. -/
abbrev vecTake (n e : Nat) (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

section TakeVec
variable {α : Type} {n e : Nat}
  (wf : GatherDims.WF ⟨1, ![n]⟩ ⟨2, ![e, 1]⟩ ⟨1, ![e]⟩ [] [0] [] [0] [] 1 ![1])
  (idx : IVec ⟨2, ![e, 1]⟩ 32) (a : Fin e)

/-- The operand index is the word of `a`, clamped. -/
theorem vecTake_operandIdx0 (p : 0 < 1) :
    ((vecTake n e wf).operandIdx (ix1 a) idx ⟨0, p⟩).val = min (idx (ix2 a 0)).toInt.toNat (n - 1) := by
  show (vecTake n e wf).start (ix1 a) idx ⟨0, p⟩ + (vecTake n e wf).batchCoord (ix1 a) ⟨0, p⟩
    + (vecTake n e wf).offCoord (ix1 a) ⟨0, p⟩ = _
  rw [GatherDims.batchCoord_eq_zero _ _ _ List.not_mem_nil,
    GatherDims.offCoord_eq_zero _ _ _ (fun hm => ((GatherDims.mem_sKept _ _).mp hm).1 (List.mem_singleton.mpr rfl))]
  simp only [Nat.add_zero]
  unfold GatherDims.start
  rw [dif_pos (show (⟨0, p⟩ : Fin 1) ∈ (vecTake n e wf).startIndexMap from List.mem_singleton.mpr rfl)]
  have hsi : (vecTake n e wf).siIdx (ix1 a) ⟨List.idxOf (⟨0, p⟩ : Fin 1) (vecTake n e wf).startIndexMap,
      List.idxOf_lt_length_iff.2 (List.mem_singleton.mpr rfl)⟩ = ix2 a 0 := by
    funext b
    refine Fin.ext ?_
    match b with
    | ⟨0, _⟩ => rfl
    | ⟨1, _⟩ => rfl
  rw [hsi]
  rfl

/-- The gather of scalars at `a`, for the record `vecTake`. -/
theorem vecTake_gather (hn : 0 < n) (x : (⟨1, ![n]⟩ : Shape).Idx → α) :
    Host.gather (vecTake n e wf) x idx (ix1 a) = x (ix1 (rowClamp n hn (idx (ix2 a 0)))) := by
  unfold Host.gather
  congr 1
  funext c
  refine Fin.ext ?_
  match c with
  | ⟨0, p⟩ => exact vecTake_operandIdx0 wf idx a p

end TakeVec

/-- GATHER OF SCALARS AT `a`: the operand at the element the word of `a` names, clamped into `[0, n - 1]`. For any
    dimension numbers with these field values. -/
theorem gather_vec_apply {α : Type} {n e : Nat} (hn : 0 < n)
    (d : GatherDims ⟨1, ![n]⟩ ⟨2, ![e, 1]⟩ ⟨1, ![e]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![n]⟩ : Shape).Idx → α) (idx : IVec ⟨2, ![e, 1]⟩ 32) (a : Fin e) :
    Host.gather d x idx (ix1 a) = x (ix1 (rowClamp n hn (idx (ix2 a 0)))) := by
  obtain ⟨od, cd, ob, sb, sm, iv, ss, wf⟩ := d
  dsimp only at h1 h2 h3 h4 h5 h6 h7
  subst h1 h2 h3 h4 h5 h6 h7
  exact vecTake_gather wf idx a hn x

end Cert.Gcn

end
-- ==== Proof.KI.Host0Value.lean ====
/-
  What the first host stretch of the kernel program computes, read at an index.

  The stretch is 49 elementwise, layout, scatter and gather operations on the argument arrays.  Each buffer it writes is
  named here as a function of the arguments (`hvN`), the buffers' contents after the stretch are shown to be those
  functions, and each function is read at one index:

  * the source and destination words of edge `e` are rows 0 and 1 of the edge array at column `e`;
  * the scatter-add of ones at the destination words into zeros, plus one, is the degree `deg`; its reciprocal square
    root is `dinv`;
  * the input scaled by `dinv` is `kY`; gathering it at the wrapped source words and scatter-adding at the destination
    words sums `kY (gsrc e)` over the messages that reach a node; adding `kY` and scaling by `dinv` gives `kS`;
  * the scatter-add of ones at the batch words is the node count `cnt` of a graph; the pooled mean's factor is
    `1 / max cnt 1`;
  * the biases and the batch words are reshaped only.
-/
import proofs.«420787_j68083821576362_3_alg».proof.Proof.Gen.KernelIdeal.Launch
import proofs.«420787_j68083821576362_3_alg».proof.Proof.Concrete
import proofs.«420787_j68083821576362_3_alg».proof.Proof.LibScatterGather
import Idealize.ShloMosaic.Lib.IdealHost
import Idealize.ShloMosaic.Lib.Affine
import Idealize.ShloMosaic.Lib.Pipeline.Value
import Idealize.ShloMosaic.Lib.ValueIdx
import Idealize.ShloMosaic.PureOps.Ideal.Laws

noncomputable section

namespace Cert.KernelIdeal.Hand

open scoped BigOperators
open Cert.KernelIdeal Cert.KernelIdeal.Gen Idealize.ShloMosaic Idealize.ShloMosaic.ValueIdx

/-- A float array read as extended reals, and an array of 32-bit words. -/
abbrev FV (S : Shape) : Type := FVec Ideal S .f32
abbrev IV (S : Shape) : Type := IVec S 32

/-! ## The buffers of the stretch as functions of the arguments -/

section Terms

variable (x : FV S100000x1) (ei : IV S2x1600000) (batch : IV S100000)

/-- Row 0 of the edge array, as a `1 × E` array. -/
def hv0 : IV S1x1600000 := extractStridedSlice S1x1600000 ![0, 0] ei slices_S2x1600000_S1x1600000_0_0
/-- The source words. -/
def hv1 : IV S1600000 := shapeCast _ (hv0 ei) shapeCasts_S1x1600000_S1600000
/-- Row 1 of the edge array, as a `1 × E` array. -/
def hv2 : IV S1x1600000 := extractStridedSlice S1x1600000 ![1, 0] ei slices_S2x1600000_S1x1600000_1_0
/-- The destination words. -/
def hv3 : IV S1600000 := shapeCast _ (hv2 ei) shapeCasts_S1x1600000_S1600000
/-- The scalars one and zero, and the integer scalars 0 and 100000. -/
def hone : FV S_ := constant (F := Ideal) S_ .f32 0x3F800000#32
def hzero : FV S_ := constant (F := Ideal) S_ .f32 0x00000000#32
def hc0 : IV S_ := constantI S_ 32 0#32
def hcN : IV S_ := constantI S_ 32 100000#32
/-- Ones per edge, zeros and ones per node, zeros and ones per graph. -/
def hv4 : FV S1600000 := broadcastInDim S1600000 ![] bcast_S_S1600000 hone
def hv5 : FV S100000 := broadcastInDim S100000 ![] bcast_S_S100000 hzero
def hv8 : FV S100000 := broadcastInDim S100000 ![] bcast_S_S100000 hone
def hv14 : FV S1024 := broadcastInDim S1024 ![] bcast_S_S1024 hzero
def hv17 : FV S1024 := broadcastInDim S1024 ![] bcast_S_S1024 hone
/-- The destination words as a column of scatter indices. -/
def hv6 : IV S1600000x1 := broadcastInDim S1600000x1 ![0] bcast_S1600000_S1600000x1_0 (hv3 ei)
/-- The number of messages that reach each node. -/
def hv7 : FV S100000 := Host.scatterAdd (F := Ideal) scatter_S100000_S1600000x1_S1600000_n_0_0_1 hv5 (hv6 ei) hv4
/-- The degree: the messages that reach a node, plus one. -/
def hv9 : FV S100000 := addf (F := Ideal) (hv7 ei) hv8
/-- The degree's reciprocal square root. -/
def hv10 : FV S100000 := Host.rsqrt (F := Ideal) (hv9 ei)
def hv11 : FV S100000x1 := shapeCast _ (hv10 ei) shapeCasts_S100000_S100000x1
/-- The batch words as a column. -/
def hv12 : IV S100000x1 := shapeCast _ batch shapeCasts_S100000_S100000x1
def hv15 : IV S100000x1 := broadcastInDim S100000x1 ![0] bcast_S100000_S100000x1_0 batch
/-- The number of nodes pooled into each graph. -/
def hv16 : FV S1024 := Host.scatterAdd (F := Ideal) scatter_S1024_S100000x1_S100000_n_0_0_1 hv14 (hv15 batch) hv8
def hv18 : FV S1024 := maximumf (F := Ideal) (hv16 batch) hv17
def hv20 : FV S1024 := Host.divf (F := Ideal) hv17 (hv18 batch)
def hv21 : FV S1024x1 := shapeCast _ (hv20 batch) shapeCasts_S1024_S1024x1
/-- The node inputs as a vector, and scaled by the degree's reciprocal square root. -/
def hv22 : FV S100000 := shapeCast _ x shapeCasts_S100000x1_S100000
def hv23 : FV S100000 := mulf (F := Ideal) (hv22 x) (hv10 ei)
/-- The source words with the extent added to the negative ones. -/
def hv24 : IV S1600000 := broadcastInDim S1600000 ![] bcast_S_S1600000 hc0
def hv25 : IVec S1600000 1 := cmpi .slt (hv1 ei) hv24
def hv26 : IV S1600000 := broadcastInDim S1600000 ![] bcast_S_S1600000 hcN
def hv27 : IV S1600000 := addi (hv1 ei) hv26
def hv28 : IV S1600000 := select (hv25 ei) (hv27 ei) (hv1 ei)
def hv29 : IV S1600000x1 := broadcastInDim S1600000x1 ![0] bcast_S1600000_S1600000x1_0 (hv28 ei)
/-- The scaled input of each edge's source node. -/
def hv30 : FV S1600000 := Host.gather gather_S100000_S1600000x1_S1600000_n_0_n_n_0_1_1 (hv23 x ei) (hv29 ei)
/-- Summed over the messages that reach each node. -/
def hv33 : FV S100000 := Host.scatterAdd (F := Ideal) scatter_S100000_S1600000x1_S1600000_n_0_0_1 hv5 (hv6 ei) (hv30 x ei)
def hv34 : FV S100000 := addf (F := Ideal) (hv33 x ei) (hv23 x ei)
def hv35 : FV S100000 := mulf (F := Ideal) (hv34 x ei) (hv10 ei)
def hv36 : FV S100000x1 := shapeCast _ (hv35 x ei) shapeCasts_S100000_S100000x1
/-- A bias vector as a row. -/
def hrow (b : FV S128) : FV S1x128 := shapeCast _ b shapeCasts_S128_S1x128

end Terms

/-! ## The buffers after the stretch

Each buffer the stretch writes holds, afterwards, its function of the argument arrays as they were before: the
operations write each buffer once and never an argument. -/

section After

variable (W : Valuation τ sig (Elt Ideal))

theorem after_v1 : StableHlo.after (hostOps0 (F := Ideal)) W (Proc.devRef .tc main_v1) = hv1 (W (Proc.devRef .tc main_arg1)) := by
  after_results_simp; rfl
theorem after_v3 : StableHlo.after (hostOps0 (F := Ideal)) W (Proc.devRef .tc main_v3) = hv3 (W (Proc.devRef .tc main_arg1)) := by
  after_results_simp; rfl
theorem after_v9 : StableHlo.after (hostOps0 (F := Ideal)) W (Proc.devRef .tc main_v9) = hv9 (W (Proc.devRef .tc main_arg1)) := by
  after_results_simp; rfl
theorem after_v10 : StableHlo.after (hostOps0 (F := Ideal)) W (Proc.devRef .tc main_v10) = hv10 (W (Proc.devRef .tc main_arg1)) := by
  after_results_simp; rfl
theorem after_v11 : StableHlo.after (hostOps0 (F := Ideal)) W (Proc.devRef .tc main_v11) = hv11 (W (Proc.devRef .tc main_arg1)) := by
  after_results_simp; rfl
theorem after_v12 : StableHlo.after (hostOps0 (F := Ideal)) W (Proc.devRef .tc main_v12) = hv12 (W (Proc.devRef .tc main_arg2)) := by
  after_results_simp; rfl
theorem after_v21 : StableHlo.after (hostOps0 (F := Ideal)) W (Proc.devRef .tc main_v21) = hv21 (W (Proc.devRef .tc main_arg2)) := by
  after_results_simp; rfl
theorem after_v36 : StableHlo.after (hostOps0 (F := Ideal)) W (Proc.devRef .tc main_v36)
    = hv36 (W (Proc.devRef .tc main_arg0)) (W (Proc.devRef .tc main_arg1)) := by
  after_results_simp; rfl
theorem after_v37 : StableHlo.after (hostOps0 (F := Ideal)) W (Proc.devRef .tc main_v37) = hrow (W (Proc.devRef .tc main_arg4)) := by
  after_results_simp; rfl
theorem after_v38 : StableHlo.after (hostOps0 (F := Ideal)) W (Proc.devRef .tc main_v38) = hrow (W (Proc.devRef .tc main_arg6)) := by
  after_results_simp; rfl

end After

/-! ## The functions read at an index -/

section Read

open Cert.Gcn (rowTgt rowClamp wrapIdx mkGraph mkNet)

variable (x : FV S100000x1) (ei : IV S2x1600000) (batch : IV S100000)

/-! ### Reshapes, slices and broadcasts -/

theorem hv1_apply (e : Fin 1600000) : hv1 ei (ix1 e) = ei (ix2 0 e) := by
  unfold hv1 hv0
  refine (shapeCast_apply _ shapeCasts_S1x1600000_S1600000 (ix1 e) (ix2 0 e) ?_).trans ?_
  · rewrite [Shape.rowMajor_val_two, Shape.rowMajor_val_one]
    show 0 * 1600000 + e.val = e.val
    omega
  · exact extractStridedSlice_apply ![0, 0] ei slices_S2x1600000_S1x1600000_0_0 (ix2 0 e) (ix2 0 e) (fun a => match a with
      | ⟨0, _⟩ => by show (0 : Nat) = 0 + 0; rfl
      | ⟨1, _⟩ => by show e.val = 0 + e.val; omega)

theorem hv3_apply (e : Fin 1600000) : hv3 ei (ix1 e) = ei (ix2 1 e) := by
  unfold hv3 hv2
  refine (shapeCast_apply _ shapeCasts_S1x1600000_S1600000 (ix1 e) (ix2 0 e) ?_).trans ?_
  · rewrite [Shape.rowMajor_val_two, Shape.rowMajor_val_one]
    show 0 * 1600000 + e.val = e.val
    omega
  · exact extractStridedSlice_apply ![1, 0] ei slices_S2x1600000_S1x1600000_1_0 (ix2 0 e) (ix2 1 e) (fun a => match a with
      | ⟨0, _⟩ => by show (1 : Nat) = 1 + 0; rfl
      | ⟨1, _⟩ => by show e.val = 0 + e.val; omega)

theorem hv4_apply (j : S1600000.Idx) : hv4 j = 1 := by
  unfold hv4 hone
  rw [broadcastInDim_scalar_apply, constant_apply, Ideal.ofBits_one_f32]
theorem hv5_apply (j : S100000.Idx) : hv5 j = 0 := by
  unfold hv5 hzero
  rw [broadcastInDim_scalar_apply, constant_apply, Ideal.ofBits_zero_f32]
theorem hv8_apply (j : S100000.Idx) : hv8 j = 1 := by
  unfold hv8 hone
  rw [broadcastInDim_scalar_apply, constant_apply, Ideal.ofBits_one_f32]
theorem hv14_apply (j : S1024.Idx) : hv14 j = 0 := by
  unfold hv14 hzero
  rw [broadcastInDim_scalar_apply, constant_apply, Ideal.ofBits_zero_f32]
theorem hv17_apply (j : S1024.Idx) : hv17 j = 1 := by
  unfold hv17 hone
  rw [broadcastInDim_scalar_apply, constant_apply, Ideal.ofBits_one_f32]
theorem hv24_apply (j : S1600000.Idx) : hv24 j = 0#32 := by
  unfold hv24 hc0
  rw [broadcastInDim_scalar_apply]; rfl
theorem hv26_apply (j : S1600000.Idx) : hv26 j = 100000#32 := by
  unfold hv26 hcN
  rw [broadcastInDim_scalar_apply]; rfl

/-- The column of destination words reads, at row `e`, the destination word of edge `e`; likewise the batch words. -/
theorem hv6_apply (e : Fin 1600000) : hv6 ei (ix2 e 0) = ei (ix2 1 e) := by
  unfold hv6
  refine (broadcastInDim_apply _ bcast_S1600000_S1600000x1_0 _ (ix2 e 0) (ix1 e) (fun a => match a with
    | ⟨0, _⟩ => by show e.val = if (1600000 : Nat) = 1 then 0 else e.val; rw [if_neg (by decide)])).trans (hv3_apply ei e)
theorem hv15_apply (a : Fin 100000) : hv15 batch (ix2 a 0) = batch (ix1 a) := by
  unfold hv15
  exact broadcastInDim_apply _ bcast_S100000_S100000x1_0 _ (ix2 a 0) (ix1 a) (fun c => match c with
    | ⟨0, _⟩ => by show a.val = if (100000 : Nat) = 1 then 0 else a.val; rw [if_neg (by decide)])

theorem hv12_apply (i : Fin 100000) : hv12 batch (ix2 i 0) = batch (ix1 i) := by
  unfold hv12
  refine shapeCast_apply _ shapeCasts_S100000_S100000x1 (ix2 i 0) (ix1 i) ?_
  rewrite [Shape.rowMajor_val_two, Shape.rowMajor_val_one]
  show i.val = i.val * 1 + 0
  omega
theorem hv22_apply (i : Fin 100000) : hv22 x (ix1 i) = x (ix2 i 0) := by
  unfold hv22
  refine shapeCast_apply _ shapeCasts_S100000x1_S100000 (ix1 i) (ix2 i 0) ?_
  rewrite [Shape.rowMajor_val_two, Shape.rowMajor_val_one]
  show i.val * 1 + 0 = i.val
  omega
theorem hrow_apply (b : FV S128) (k : Fin 128) : hrow b (ix2 0 k) = b (ix1 k) := by
  unfold hrow
  refine shapeCast_apply _ shapeCasts_S128_S1x128 (ix2 0 k) (ix1 k) ?_
  rewrite [Shape.rowMajor_val_two, Shape.rowMajor_val_one]
  show k.val = 0 * 128 + k.val
  omega

end Read

/-! ## The degree, the counts and the aggregated input -/

section Sums

open Cert.Gcn (rowTgt rowClamp wrapIdx mkGraph mkNet)

variable (x : FV S100000x1) (ei : IV S2x1600000) (batch : IV S100000)

/-- The number of messages whose destination word names node `i`. -/
theorem hv7_apply (i : Fin 100000) :
    hv7 ei (ix1 i) = 0 + ∑ _a ∈ Finset.univ.filter (fun a : Fin 1600000 => rowTgt 100000 (ei (ix2 1 a)) = some i), (1 : EReal) := by
  unfold hv7
  refine (Cert.Gcn.scatterAdd_vec_apply _ rfl rfl rfl rfl hv5 (hv6 ei) hv4 i).trans ?_
  simp only [hv5_apply, hv6_apply, hv4_apply]

theorem hv9_apply (i : Fin 100000) : hv9 ei (ix1 i) = Cert.Gcn.deg (mkGraph ei batch) i := by
  unfold hv9
  rw [addf_apply, hv7_apply, hv8_apply]
  rfl

/-- The host's reciprocal square root at an index is the ideal one of the element. -/
theorem hostRsqrt_apply {s : Shape} (a : FVec Ideal s .f32) (j : s.Idx) : Host.rsqrt (F := Ideal) a j = Ideal.rsqrt (a j) := rfl

theorem hv10_apply (i : Fin 100000) : hv10 ei (ix1 i) = Cert.Gcn.dinv (mkGraph ei batch) i := by
  unfold hv10 Cert.Gcn.dinv
  rw [hostRsqrt_apply, hv9_apply ei batch]

theorem hv11_apply (i : Fin 100000) : hv11 ei (ix2 i 0) = Cert.Gcn.dinv (mkGraph ei batch) i := by
  unfold hv11
  refine (shapeCast_apply _ shapeCasts_S100000_S100000x1 (ix2 i 0) (ix1 i) ?_).trans (hv10_apply ei batch i)
  rewrite [Shape.rowMajor_val_two, Shape.rowMajor_val_one]
  show i.val = i.val * 1 + 0
  omega

/-- The number of nodes whose batch word names graph `q`. -/
theorem hv16_apply (q : Fin 1024) : hv16 batch (ix1 q) = Cert.Gcn.cnt (mkGraph ei batch) q := by
  unfold hv16
  refine (Cert.Gcn.scatterAdd_vec_apply _ rfl rfl rfl rfl hv14 (hv15 batch) hv8 q).trans ?_
  simp only [hv14_apply, hv15_apply, hv8_apply]
  rfl

theorem hv21_apply (q : Fin 1024) : hv21 batch (ix2 q 0) = Ideal.div 1 (max (Cert.Gcn.cnt (mkGraph ei batch) q) 1) := by
  unfold hv21
  refine (shapeCast_apply _ shapeCasts_S1024_S1024x1 (ix2 q 0) (ix1 q) ?_).trans ?_
  · rewrite [Shape.rowMajor_val_two, Shape.rowMajor_val_one]
    show q.val = q.val * 1 + 0
    omega
  · unfold hv20 hv18
    rw [hostDivf_apply, maximumf_apply, hv17_apply, hv16_apply ei batch]

/-- Adding the extent to a negative word, as the compare, add and select triple does it. -/
theorem wrap_eq (v : BitVec 32) :
    Scalar.select (IntOp.cmpi .slt v 0#32) (IntOp.addi v 100000#32) v = wrapIdx 100000#32 v := by
  unfold wrapIdx IntOp.addi
  by_cases h : IntOp.cmpi .slt v 0#32 = 1#1
  · rw [h, select_one, if_pos (by simpa using IntOp.cmpi_slt.1 h)]
  · rw [eq_zero_of_ne_one h, select_zero, if_neg (fun hc => h (IntOp.cmpi_slt.2 (by simpa using hc)))]

theorem hv28_apply (e : Fin 1600000) : hv28 ei (ix1 e) = wrapIdx 100000#32 (ei (ix2 0 e)) := by
  unfold hv28 hv25 hv27
  show Scalar.select (IntOp.cmpi .slt (hv1 ei (ix1 e)) (hv24 (ix1 e))) (IntOp.addi (hv1 ei (ix1 e)) (hv26 (ix1 e))) (hv1 ei (ix1 e)) = _
  rw [hv24_apply, hv26_apply, hv1_apply, wrap_eq]

theorem hv29_apply (e : Fin 1600000) : hv29 ei (ix2 e 0) = wrapIdx 100000#32 (ei (ix2 0 e)) := by
  unfold hv29
  refine (broadcastInDim_apply _ bcast_S1600000_S1600000x1_0 _ (ix2 e 0) (ix1 e) (fun a => match a with
    | ⟨0, _⟩ => by show e.val = if (1600000 : Nat) = 1 then 0 else e.val; rw [if_neg (by decide)])).trans (hv28_apply ei e)

variable (p : Cert.Gcn.Net (Fin 100000) (Fin 128) (Fin 32)) (hp : ∀ i, p.x i = x (ix2 i 0))
include hp

/-- The input scaled at the source. -/
theorem hv23_apply (i : Fin 100000) : hv23 x ei (ix1 i) = Cert.Gcn.kY (mkGraph ei batch) p i := by
  unfold hv23 Cert.Gcn.kY
  rw [mulf_apply, hv22_apply, hv10_apply ei batch, hp]

/-- Each edge reads the scaled input of its source node. -/
theorem hv30_apply (e : Fin 1600000) :
    hv30 x ei (ix1 e) = Cert.Gcn.kY (mkGraph ei batch) p ((mkGraph ei batch).gsrc e) := by
  unfold hv30
  refine (Cert.Gcn.gather_vec_apply (by decide) _ rfl rfl rfl rfl rfl rfl rfl (hv23 x ei) (hv29 ei) e).trans ?_
  rw [hv29_apply, hv23_apply x ei batch p hp]
  rfl

theorem hv33_apply (i : Fin 100000) :
    hv33 x ei (ix1 i) = 0 + ∑ e ∈ Cert.Gcn.into (mkGraph ei batch) i, Cert.Gcn.kY (mkGraph ei batch) p ((mkGraph ei batch).gsrc e) := by
  unfold hv33
  refine (Cert.Gcn.scatterAdd_vec_apply _ rfl rfl rfl rfl hv5 (hv6 ei) (hv30 x ei) i).trans ?_
  simp only [hv5_apply, hv6_apply, hv30_apply x ei batch p hp]
  rfl

theorem hv36_apply (i : Fin 100000) : hv36 x ei (ix2 i 0) = Cert.Gcn.kS (mkGraph ei batch) p i := by
  unfold hv36
  refine (shapeCast_apply _ shapeCasts_S100000_S100000x1 (ix2 i 0) (ix1 i) ?_).trans ?_
  · rewrite [Shape.rowMajor_val_two, Shape.rowMajor_val_one]
    show i.val = i.val * 1 + 0
    omega
  · unfold hv35 hv34 Cert.Gcn.kS
    rw [mulf_apply, addf_apply, hv33_apply x ei batch p hp, hv23_apply x ei batch p hp, hv10_apply ei batch]

end Sums

/-! ## The stretch read at an index -/

section Host0

open Cert.Gcn (mkGraph mkNet)

variable (W : Valuation τ sig (Elt Ideal))

/-- The graph of a valuation's edge and batch arrays. -/
abbrev graphOf : Cert.Gcn.Graph (Fin 1600000) (Fin 100000) (Fin 1024) :=
  mkGraph (W (Proc.devRef .tc main_arg1)) (W (Proc.devRef .tc main_arg2))

/-- The parameters and node inputs of a valuation's argument arrays. -/
abbrev netOf : Cert.Gcn.Net (Fin 100000) (Fin 128) (Fin 32) :=
  mkNet (W (Proc.devRef .tc main_arg0)) (W (Proc.devRef .tc main_arg3)) (W (Proc.devRef .tc main_arg4))
    (W (Proc.devRef .tc main_arg5)) (W (Proc.devRef .tc main_arg6)) (W (Proc.devRef .tc main_arg7))
    (W (Proc.devRef .tc main_arg8)) (W (Proc.devRef .tc main_arg9)) (W (Proc.devRef .tc main_arg10))

/-- The source word of edge `e`. -/
theorem host0_v1 (e : Fin 1600000) :
    StableHlo.after (hostOps0 (F := Ideal)) W (Proc.devRef .tc main_v1) (ix1 e) = W (Proc.devRef .tc main_arg1) (ix2 0 e) := by
  rw [after_v1]; exact hv1_apply _ e

/-- The destination word of edge `e`. -/
theorem host0_v3 (e : Fin 1600000) :
    StableHlo.after (hostOps0 (F := Ideal)) W (Proc.devRef .tc main_v3) (ix1 e) = W (Proc.devRef .tc main_arg1) (ix2 1 e) := by
  rw [after_v3]; exact hv3_apply _ e

/-- The degree of node `i`. -/
theorem host0_v9 (i : Fin 100000) :
    StableHlo.after (hostOps0 (F := Ideal)) W (Proc.devRef .tc main_v9) (ix1 i) = Cert.Gcn.deg (graphOf W) i := by
  rw [after_v9]; exact hv9_apply _ _ i

/-- The degree's reciprocal square root, as a vector and as a column. -/
theorem host0_v10 (i : Fin 100000) :
    StableHlo.after (hostOps0 (F := Ideal)) W (Proc.devRef .tc main_v10) (ix1 i) = Cert.Gcn.dinv (graphOf W) i := by
  rw [after_v10]; exact hv10_apply _ _ i
theorem host0_v11 (i : Fin 100000) :
    StableHlo.after (hostOps0 (F := Ideal)) W (Proc.devRef .tc main_v11) (ix2 i 0) = Cert.Gcn.dinv (graphOf W) i := by
  rw [after_v11]; exact hv11_apply _ _ i

/-- The batch word of node `i`. -/
theorem host0_v12 (i : Fin 100000) :
    StableHlo.after (hostOps0 (F := Ideal)) W (Proc.devRef .tc main_v12) (ix2 i 0) = W (Proc.devRef .tc main_arg2) (ix1 i) := by
  rw [after_v12]; exact hv12_apply _ i

/-- The reciprocal of the number of nodes of graph `q`, the count raised to one. -/
theorem host0_v21 (q : Fin 1024) :
    StableHlo.after (hostOps0 (F := Ideal)) W (Proc.devRef .tc main_v21) (ix2 q 0)
      = Ideal.div 1 (max (Cert.Gcn.cnt (graphOf W) q) 1) := by
  rw [after_v21]; exact hv21_apply _ _ q

/-- Layer 1 aggregated on the one input feature. -/
theorem host0_v36 (i : Fin 100000) :
    StableHlo.after (hostOps0 (F := Ideal)) W (Proc.devRef .tc main_v36) (ix2 i 0) = Cert.Gcn.kS (graphOf W) (netOf W) i := by
  rw [after_v36]; exact hv36_apply _ _ _ (netOf W) (fun _ => rfl) i

/-- The two layers' biases as rows. -/
theorem host0_v37 (k : Fin 128) :
    StableHlo.after (hostOps0 (F := Ideal)) W (Proc.devRef .tc main_v37) (ix2 0 k) = (netOf W).b1 k := by
  rw [after_v37]; exact hrow_apply _ k
theorem host0_v38 (k : Fin 128) :
    StableHlo.after (hostOps0 (F := Ideal)) W (Proc.devRef .tc main_v38) (ix2 0 k) = (netOf W).b2 k := by
  rw [after_v38]; exact hrow_apply _ k

end Host0

end Cert.KernelIdeal.Hand

end
-- ==== Proof.KI.HostRestValue.lean ====
import proofs.«420787_j68083821576362_3_alg».proof.Proof.Gen.KernelIdeal.Launch
import proofs.«420787_j68083821576362_3_alg».proof.Proof.LibScatterGather
import Idealize.ShloMosaic.Lib.StableHlo.Run
import Idealize.ShloMosaic.Lib.ValueIdx
import Idealize.ShloMosaic.Lib.Pipeline.Value
import Idealize.ShloMosaic.Lib.IdealHost
import Idealize.ShloMosaic.Lib.ValueLayout

/-! # The host stretches after the first region, read at an index

Between and after the three regions the program runs three short stretches of array operations. At the extended
reals, and from ANY buffer contents `W` found when a stretch starts:

* the second stretch aggregates rows along the edges: entry `(i, j)` of its result is the sum, over the edges whose
  destination word is the row `i`, of entry `j` of the row of the first region's output that the edge's source word
  selects (a negative source word is first shifted up by the number of rows, and the row is then clamped into range);
  an edge whose destination word names no row adds nothing. The change of float format on the way is the identity.
* the third stretch lays the two head biases out as one-row matrices, and the fourth reads the one-column result of
  the last region as a vector: each entry is the entry at the same position.

-/

set_option maxRecDepth 16384

noncomputable section

namespace Cert.KernelIdeal.Hand

open Cert.KernelIdeal Cert.KernelIdeal.Gen Idealize.ShloMosaic Idealize.ShloMosaic.ValueIdx
open scoped BigOperators

/-! ## Words -/

/-- A signed word names row `q` of 1024 rows exactly when it is the word of the number `q`: the word read signed is
    in `[0, 1024)` and equals `q` iff its unsigned reading is `q`. -/
theorem rowTgt_1024_iff (v : BitVec 32) (q : Fin 1024) :
    Cert.Gcn.rowTgt 1024 v = some q ↔ v = BitVec.ofNat 32 q.val := by
  have hq := q.isLt
  have hv := v.isLt
  have hI := BitVec.toInt_eq_toNat_cond v
  unfold Cert.Gcn.rowTgt
  constructor
  · intro h
    split at h
    · rename_i hr
      have hq' : v.toInt.toNat = q.val := congrArg Fin.val (Option.some.inj h)
      apply BitVec.eq_of_toNat_eq
      rw [BitVec.toNat_ofNat]
      split at hI <;> omega
    · exact absurd h (by simp)
  · intro h
    have hn : v.toNat = q.val := by rw [h, BitVec.toNat_ofNat]; omega
    have hr : 0 ≤ v.toInt ∧ v.toInt < ((1024 : Nat) : Int) := by split at hI <;> omega
    rw [dif_pos hr]
    refine congrArg some (Fin.ext ?_)
    show v.toInt.toNat = q.val
    split at hI <;> omega

/-- Choosing `x + 100000` where `x` is negative as a signed word, and `x` otherwise, is the shift of a negative index
    by the number of rows. -/
theorem srcShift_word (x : BitVec 32) :
    Scalar.select (IntOp.cmpi .slt x 0#32) (IntOp.addi x 100000#32) x = Cert.Gcn.wrapIdx 100000#32 x := by
  show (if BitVec.ofBool (x.slt 0#32) = 1 then x + 100000#32 else x) = if x.toInt < 0 then x + 100000#32 else x
  by_cases h : x.toInt < 0
  · have hs : x.slt 0#32 = true := by simp [BitVec.slt, h]
    rw [hs, if_pos h, if_pos (by decide)]
  · have hs : x.slt 0#32 = false := by simp [BitVec.slt, h]
    rw [hs, if_neg h, if_neg (by decide)]

/-! ## Layout steps at an index -/

/-- A vector of 1600000 entries laid out as one column: entry `(a, 0)` is entry `a`. -/
theorem edgeCol_apply {α : Type} (v : S1600000.Idx → α) (a : Fin 1600000) :
    broadcastInDim S1600000x1 ![0] bcast_S1600000_S1600000x1_0 v (ix2 a 0) = v (ix1 a) :=
  broadcastInDim_apply (s := S1600000) (t := S1600000x1) _ _ _ _ _ (fun d => by match d with | ⟨0, _⟩ => rfl)

/-- The shifted source words, entry by entry. -/
theorem srcShift_apply (v : IVec S1600000 32) (a : Fin 1600000) :
    select (cmpi .slt v (broadcastInDim S1600000 ![] bcast_S_S1600000 (constantI S_ 32 0#32)))
      (addi v (broadcastInDim S1600000 ![] bcast_S_S1600000 (constantI S_ 32 100000#32))) v (ix1 a)
      = Cert.Gcn.wrapIdx 100000#32 (v (ix1 a)) :=
  srcShift_word (v (ix1 a))

/-! ## The second stretch: rows summed along the edges -/

/-- Rows of `h` summed into the rows the destination words name: row `i` receives, from every edge whose destination
    word is `i`, the row of `h` at that edge's source word (a negative source word first shifted up by the row count, the
    row then clamped into range). An edge whose destination word is no row contributes nothing. -/
abbrev aggVal (dst src : S1600000.Idx → BitVec 32) (h : S100000x128.Idx → EReal) (i : Fin 100000) (j : Fin 128) : EReal :=
  0 + ∑ e ∈ Finset.univ.filter (fun e : Fin 1600000 => Cert.Gcn.rowTgt 100000 (dst (ix1 e)) = some i),
    h (ix2 (Cert.Gcn.rowClamp 100000 (by decide) (Cert.Gcn.wrapIdx 100000#32 (src (ix1 e)))) j)

/-- The same, as an equation to rewrite with. -/
theorem aggVal_def (dst src : S1600000.Idx → BitVec 32) (h : S100000x128.Idx → EReal) (i : Fin 100000) (j : Fin 128) :
    aggVal dst src h i j = 0 + ∑ e ∈ Finset.univ.filter (fun e : Fin 1600000 => Cert.Gcn.rowTgt 100000 (dst (ix1 e)) = some i),
      h (ix2 (Cert.Gcn.rowClamp 100000 (by decide) (Cert.Gcn.wrapIdx 100000#32 (src (ix1 e)))) j) := rfl

/-- The second stretch's result at `(i, j)`: the scatter-add into zeros of the gathered rows of the first region's
    output, the scatter at the destination words, the gather at the shifted source words. -/
theorem stretch1_v50 (W : Valuation τ sig (Elt Ideal)) (i : Fin 100000) (j : Fin 128) :
    StableHlo.after (hostOps1 (F := Ideal)) W (Proc.devRef .tc main_v50) (ix2 i j)
      = aggVal (W (Proc.devRef .tc main_v3)) (W (Proc.devRef .tc main_v1)) (W (Proc.devRef .tc main_v39)) i j := by
  after_results
  refine (Cert.Gcn.scatterAdd_rows_apply (n := 100000) (h := 128) (e := 1600000) _ rfl rfl rfl rfl _ _ _ i j).trans ?_
  refine congrArg₂ (· + ·) ?_ ?_
  · refine (broadcastInDim_scalar_apply _ _ _).trans ?_
    exact Ideal.ofBits_zero_f32
  · refine Finset.sum_congr (Finset.filter_congr fun a _ => ?_) fun a _ => ?_
    · rw [edgeCol_apply]
    · refine (Cert.Gcn.gather_rows_apply (n := 100000) (h := 128) (e := 1600000) (by decide) _ rfl rfl rfl rfl rfl rfl rfl _ _ a j).trans ?_
      rw [edgeCol_apply, srcShift_apply]

/-! ## The third and fourth stretches: the same entries under another shape -/

/-- The first head bias as a one-row matrix. -/
theorem stretch2_v52 (W : Valuation τ sig (Elt Ideal)) (r : Fin 32) :
    StableHlo.after (hostOps2 (F := Ideal)) W (Proc.devRef .tc main_v52) (ix2 0 r) = W (Proc.devRef .tc main_arg8) (ix1 r) := by
  have e : (StableHlo.after (hostOps2 (F := Ideal)) W (Proc.devRef .tc main_v52) : S1x32.Idx → EReal)
      = shapeCast S1x32 (W (Proc.devRef .tc main_arg8) : S32.Idx → EReal) shapeCasts_S32_S1x32 := by
    after_results; rfl
  refine (congrFun e (ix2 0 r)).trans ?_
  refine shapeCast_apply (s := S32) (t := S1x32) _ _ _ _ ?_
  rw [Shape.rowMajor_val_two, Shape.rowMajor_val_one]
  show r.val = (0 * 32 + r.val : Nat)
  omega

/-- The second head bias as a one-by-one matrix. -/
theorem stretch2_v53 (W : Valuation τ sig (Elt Ideal)) :
    StableHlo.after (hostOps2 (F := Ideal)) W (Proc.devRef .tc main_v53) (ix2 0 0) = W (Proc.devRef .tc main_arg10) (ix1 0) := by
  have e : (StableHlo.after (hostOps2 (F := Ideal)) W (Proc.devRef .tc main_v53) : S1x1.Idx → EReal)
      = shapeCast S1x1 (W (Proc.devRef .tc main_arg10) : S1.Idx → EReal) shapeCasts_S1_S1x1 := by
    after_results; rfl
  refine (congrFun e (ix2 0 0)).trans ?_
  refine shapeCast_apply (s := S1) (t := S1x1) _ _ _ _ ?_
  rw [Shape.rowMajor_val_two, Shape.rowMajor_val_one]
  rfl

/-- The last region's one-column result as a vector. -/
theorem stretch3_v55 (W : Valuation τ sig (Elt Ideal)) (q : Fin 1024) :
    StableHlo.after (hostOps3 (F := Ideal)) W (Proc.devRef .tc main_v55) (ix1 q) = W (Proc.devRef .tc main_v54) (ix2 q 0) := by
  have e : (StableHlo.after (hostOps3 (F := Ideal)) W (Proc.devRef .tc main_v55) : S1024.Idx → EReal)
      = shapeCast S1024 (W (Proc.devRef .tc main_v54) : S1024x1.Idx → EReal) shapeCasts_S1024x1_S1024 := by
    after_results; rfl
  refine (congrFun e (ix1 q)).trans ?_
  refine shapeCast_apply (s := S1024x1) (t := S1024) _ _ _ _ ?_
  rw [Shape.rowMajor_val_two, Shape.rowMajor_val_one]
  show (q.val * 1 + 0 : Nat) = q.val
  omega

end Cert.KernelIdeal.Hand

end
-- ==== Proof.KI.Value.lean ====
import proofs.«420787_j68083821576362_3_alg».proof.Proof.KI.Run
import proofs.«420787_j68083821576362_3_alg».proof.Proof.KI.R0Value
import proofs.«420787_j68083821576362_3_alg».proof.Proof.KI.R1Value
import proofs.«420787_j68083821576362_3_alg».proof.Proof.KI.R2Value
import proofs.«420787_j68083821576362_3_alg».proof.Proof.KI.Host0Value
import proofs.«420787_j68083821576362_3_alg».proof.Proof.KI.HostRestValue
import proofs.«420787_j68083821576362_3_alg».proof.Proof.Concrete

/-! # The kernel program's value

The program is four stretches of array operations with three pipelined regions between them. Read at the extended
reals, each piece has a closed form in the contents it starts from, and the pieces chain:

* the first stretch computes, from the edge and batch words and the node inputs, the normaliser `d = deg^(-1/2)`, the
  first layer aggregated on its one input feature and scaled at the destination (`kS`), the reciprocal node counts, and
  lays out the biases and the words;
* the first region turns `kS` into the second layer's linear map of the first layer's activations, scaled at the
  source: `kHd i j = (∑ k, max (kS i · W1 k + b1 k) 0 · W2 k j) · d i`;
* the second stretch sums the rows of `kHd` over the messages that reach each node: `kAgg`;
* the second region adds the self term, scales at the destination, adds the bias, clamps at zero, and pools the rows
  of each graph by a product with the membership indicator and the reciprocal count: `kPool`;
* the third stretch lays out the head's biases, the third region applies the two-layer head, and the last stretch
  reads the one-column result as a vector: `kOut`.

A buffer is followed backwards through the pieces: a stretch keeps what it does not write, a region keeps what is not
one of its windows' arrays and leaves an input window's array as it found it; so every parameter is read, in the end,
from the launch memory.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Gcn
open scoped BigOperators

/-! ## The closed forms are the specification's stages -/

section Closed

variable (ei : SEdgeIndex.Idx → BitVec 32) (batch : SNodes.Idx → BitVec 32)
variable (p : Net (Fin 100000) (Fin 128) (Fin 32))

/-- The first region's closed form is the second layer's linear map scaled at the source, once its five arrays are
    the first layer's aggregated input, the first layer's weights and bias, the second layer's weights and the
    normaliser. -/
theorem hd_of_arrays (g : Graph (Fin 1600000) (Fin 100000) (Fin 1024))
    (s dv : S100000x1.Idx → EReal) (w1 b1 : S1x128.Idx → EReal) (w2 : S128x128.Idx → EReal)
    (i : Fin 100000) (j : Fin 128)
    (hs : s (ix2 i 0) = kS g p i) (hw1 : ∀ k : Fin 128, w1 (ix2 0 k) = p.W1 k) (hb1 : ∀ k : Fin 128, b1 (ix2 0 k) = p.b1 k)
    (hw2 : ∀ k : Fin 128, w2 (ix2 k j) = p.W2 k j) (hd : dv (ix2 i 0) = dinv g i) :
    (∑ k : Fin 128, max (s (ix2 i 0) * w1 (ix2 0 k) + b1 (ix2 0 k)) 0 * w2 (ix2 k j)) * dv (ix2 i 0) = kHd g p i j := by
  unfold kHd kH1
  rw [hs, hd]
  simp only [hw1, hb1, hw2]

/-- The rows summed along the edges are the aggregate of the scaled rows over the messages that reach a node: the
    messages that reach `i` are the edges whose destination word is `i`, and the row a message reads is the one its
    source word selects. -/
theorem agg_of_arrays (dst src : S1600000.Idx → BitVec 32) (h : S100000x128.Idx → EReal) (i : Fin 100000) (j : Fin 128)
    (hdst : ∀ e : Fin 1600000, dst (ix1 e) = ei (ix2 1 e)) (hsrc : ∀ e : Fin 1600000, src (ix1 e) = ei (ix2 0 e))
    (hh : ∀ i' : Fin 100000, h (ix2 i' j) = kHd (mkGraph ei batch) p i' j) :
    aggVal dst src h i j = kAgg (mkGraph ei batch) p i j := by
  unfold kAgg into
  rw [aggVal_def]
  simp only [hdst, hsrc, hh]
  rfl

/-- The second region's closed form is the pooled mean: a node is pooled into graph `q` exactly when its batch word is
    the word of `q`. -/
theorem pool_of_arrays (bw : S100000x1.Idx → BitVec 32) (agg hd : S100000x128.Idx → EReal) (dv : S100000x1.Idx → EReal)
    (b2 : S1x128.Idx → EReal) (rc : S1024x1.Idx → EReal) (q : Fin 1024) (j : Fin 128)
    (hbw : ∀ i : Fin 100000, bw (ix2 i 0) = batch (ix1 i))
    (hagg : ∀ i : Fin 100000, agg (ix2 i j) = kAgg (mkGraph ei batch) p i j)
    (hhd : ∀ i : Fin 100000, hd (ix2 i j) = kHd (mkGraph ei batch) p i j)
    (hdv : ∀ i : Fin 100000, dv (ix2 i 0) = dinv (mkGraph ei batch) i) (hb2 : b2 (ix2 0 j) = p.b2 j)
    (hrc : rc (ix2 q 0) = Ideal.div 1 (max (cnt (mkGraph ei batch) q) 1)) :
    (∑ i : Fin 100000, (if bw (ix2 i 0) = BitVec.ofNat 32 q.val then (1 : EReal) else 0)
        * max ((agg (ix2 i j) + hd (ix2 i j)) * dv (ix2 i 0) + b2 (ix2 0 j)) 0) * rc (ix2 q 0)
      = kPool (mkGraph ei batch) p q j := by
  unfold kPool kH2
  refine congrArg₂ (· * ·) (Finset.sum_congr rfl fun i _ => ?_) hrc
  refine congrArg₂ (· * ·) ?_ (congrArg (max · 0) ?_)
  · rw [hbw i]
    exact if_congr (rowTgt_1024_iff _ _).symm rfl rfl
  · exact congrArg₂ (· + ·) (congrArg₂ (· * ·) (congrArg₂ (· + ·) (hagg i) (hhd i)) (hdv i)) hb2

/-- The third region's closed form on the pooled features is the network's output. -/
theorem out_of_arrays (g : Graph (Fin 1600000) (Fin 100000) (Fin 1024))
    (a0 : S1024x128.Idx → EReal) (a1 : S128x32.Idx → EReal) (a2 : S1x32.Idx → EReal) (a3 : S32x1.Idx → EReal)
    (a4 : S1x1.Idx → EReal) (q : Fin 1024)
    (h0 : ∀ j : Fin 128, a0 (ix2 q j) = kPool g p q j) (h1 : ∀ (j : Fin 128) (r : Fin 32), a1 (ix2 j r) = p.Wf1 j r)
    (h2 : ∀ r : Fin 32, a2 (ix2 0 r) = p.bf1 r) (h3 : ∀ r : Fin 32, a3 (ix2 r 0) = p.Wf2 r) (h4 : a4 (ix2 0 0) = p.bf2) :
    (∑ r : Fin 32, max ((∑ j : Fin 128, a0 (ix2 q j) * a1 (ix2 j r)) + a2 (ix2 0 r)) 0 * a3 (ix2 r 0)) + a4 (ix2 0 0)
      = kOut g p q := by
  unfold kOut head headHidden
  simp only [h0, h1, h2, h3, h4]

end Closed

/-! ## The contents at the boundaries, read back to the launch memory -/

section Compose

variable (m : (ℓ : Loc nD τ sig) → Buf (Elt Ideal) ℓ) (ρ : Dev nD → PrngReg) (c : Dev nD)

/-- The graph the launch memory's edge and batch arrays describe. -/
def gOf : Graph (Fin 1600000) (Fin 100000) (Fin 1024) :=
  mkGraph (m ((c.tc : Thread nD τ).loc main_arg1)) (m ((c.tc : Thread nD τ).loc main_arg2))

/-- The parameters and node inputs the launch memory holds. -/
def pOf : Net (Fin 100000) (Fin 128) (Fin 32) :=
  mkNet (m ((c.tc : Thread nD τ).loc main_arg0)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))

/-- They are the graph and the parameters of the contents the first stretch starts from. -/
theorem gOf_eq : gOf m c = graphOf (W0 (F := Ideal) m ρ c) := rfl
theorem pOf_eq : pOf m c = netOf (W0 (F := Ideal) m ρ c) := rfl

/-- A buffer that neither of the first two stretches writes and neither of the first two regions stages is, when
    the third stretch starts, as launched. -/
theorem W4_launch (r : Ref sig .tc) (h4 : ∀ w, Pipeline.arrRef spec1 w ≠ r) (h3 : r ∉ hostWrites1)
    (h2 : ∀ w, Pipeline.arrRef spec0 w ≠ r) (h1 : r ∉ hostWrites0) :
    W4 (F := Ideal) m ρ c (Proc.devRef .tc r) = W0 m ρ c (Proc.devRef .tc r) :=
  (W4_of_ne m ρ c r h4).trans ((W3_of m ρ c r h3).trans ((W2_of_ne m ρ c r h2).trans (W1_of m ρ c r h1)))

/-! ### After the first region -/

/-- The first region leaves the second layer's linear map, scaled at the source. -/
theorem W2_v39 (i : Fin 100000) (j : Fin 128) :
    W2 (F := Ideal) m ρ c (Proc.devRef .tc main_v39) (ix2 i j) = kHd (gOf m c) (pOf m c) i j := by
  refine (congrFun (W2_arr m ρ c 5) (ix2 i j)).trans ?_
  refine ((final0 (V1 m ρ) c i j).trans (r0Val_def _ _ _ _ _ i j)).trans ?_
  exact hd_of_arrays (pOf m c) (gOf m c) _ _ _ _ _ i j (host0_v36 (W0 m ρ c) i)
    (fun k => congrFun (W1_of m ρ c main_arg3 (by decide)) (ix2 0 k)) (fun k => host0_v37 (W0 m ρ c) k)
    (fun k => congrFun (W1_of m ρ c main_arg5 (by decide)) (ix2 k j)) (host0_v11 (W0 m ρ c) i)

/-- The source and destination words pass the first region untouched. -/
theorem W2_v1 (e : Fin 1600000) :
    W2 (F := Ideal) m ρ c (Proc.devRef .tc main_v1) (ix1 e) = m ((c.tc : Thread nD τ).loc main_arg1) (ix2 0 e) :=
  (congrFun (W2_of_ne m ρ c main_v1 (by decide)) (ix1 e)).trans (host0_v1 (W0 m ρ c) e)
theorem W2_v3 (e : Fin 1600000) :
    W2 (F := Ideal) m ρ c (Proc.devRef .tc main_v3) (ix1 e) = m ((c.tc : Thread nD τ).loc main_arg1) (ix2 1 e) :=
  (congrFun (W2_of_ne m ρ c main_v3 (by decide)) (ix1 e)).trans (host0_v3 (W0 m ρ c) e)

/-- The normaliser column is an input of the first region: the region leaves it as it found it. -/
theorem W2_v11 (i : Fin 100000) :
    W2 (F := Ideal) m ρ c (Proc.devRef .tc main_v11) (ix2 i 0) = dinv (gOf m c) i :=
  (congrFun ((W2_arr m ρ c 4).trans (((dat0 (V1 m ρ) c).arrAt_in 4 rfl _).trans (A_eq0 (V1 m ρ) c 4))) (ix2 i 0)).trans
    (host0_v11 (W0 m ρ c) i)

/-! ### After the second stretch -/

/-- The second stretch leaves the aggregate of the scaled rows over the messages that reach each node. -/
theorem W3_v50 (i : Fin 100000) (j : Fin 128) :
    W3 (F := Ideal) m ρ c (Proc.devRef .tc main_v50) (ix2 i j) = kAgg (gOf m c) (pOf m c) i j := by
  refine (stretch1_v50 (W2 m ρ c) i j).trans ?_
  exact agg_of_arrays _ _ (pOf m c) _ _ _ i j (fun e => W2_v3 m ρ c e) (fun e => W2_v1 m ρ c e) (fun i' => W2_v39 m ρ c i' j)

theorem W3_v39 (i : Fin 100000) (j : Fin 128) :
    W3 (F := Ideal) m ρ c (Proc.devRef .tc main_v39) (ix2 i j) = kHd (gOf m c) (pOf m c) i j :=
  (congrFun (W3_of m ρ c main_v39 (by decide)) (ix2 i j)).trans (W2_v39 m ρ c i j)
theorem W3_v11 (i : Fin 100000) :
    W3 (F := Ideal) m ρ c (Proc.devRef .tc main_v11) (ix2 i 0) = dinv (gOf m c) i :=
  (congrFun (W3_of m ρ c main_v11 (by decide)) (ix2 i 0)).trans (W2_v11 m ρ c i)
theorem W3_v38 (j : Fin 128) :
    W3 (F := Ideal) m ρ c (Proc.devRef .tc main_v38) (ix2 0 j) = (pOf m c).b2 j :=
  (congrFun ((W3_of m ρ c main_v38 (by decide)).trans (W2_of_ne m ρ c main_v38 (by decide))) (ix2 0 j)).trans
    (host0_v38 (W0 m ρ c) j)
theorem W3_v12 (i : Fin 100000) :
    W3 (F := Ideal) m ρ c (Proc.devRef .tc main_v12) (ix2 i 0) = m ((c.tc : Thread nD τ).loc main_arg2) (ix1 i) :=
  (congrFun ((W3_of m ρ c main_v12 (by decide)).trans (W2_of_ne m ρ c main_v12 (by decide))) (ix2 i 0)).trans
    (host0_v12 (W0 m ρ c) i)
theorem W3_v21 (q : Fin 1024) :
    W3 (F := Ideal) m ρ c (Proc.devRef .tc main_v21) (ix2 q 0) = Ideal.div 1 (max (cnt (gOf m c) q) 1) :=
  (congrFun ((W3_of m ρ c main_v21 (by decide)).trans (W2_of_ne m ρ c main_v21 (by decide))) (ix2 q 0)).trans
    (host0_v21 (W0 m ρ c) q)

/-! ### After the second region -/

/-- The second region leaves the pooled means. -/
theorem W4_v51 (q : Fin 1024) (j : Fin 128) :
    W4 (F := Ideal) m ρ c (Proc.devRef .tc main_v51) (ix2 q j) = kPool (gOf m c) (pOf m c) q j := by
  refine (congrFun (W4_arr m ρ c 6) (ix2 q j)).trans ?_
  refine ((final1 (V3 m ρ) c q j).trans (poolVal_def _ _ _ _ _ _ q j)).trans ?_
  exact pool_of_arrays _ _ (pOf m c) _ _ _ _ _ _ q j (fun i => W3_v12 m ρ c i) (fun i => W3_v50 m ρ c i j)
    (fun i => W3_v39 m ρ c i j) (fun i => W3_v11 m ρ c i) (W3_v38 m ρ c j) (W3_v21 m ρ c q)

/-! ### After the third stretch and the third region -/

/-- The third region leaves the network's output as one column. -/
theorem W6_v54 (q : Fin 1024) :
    W6 (F := Ideal) m ρ c (Proc.devRef .tc main_v54) (ix2 q 0) = kOut (gOf m c) (pOf m c) q := by
  refine (congrFun (W6_arr m ρ c 5) (ix2 q 0)).trans ?_
  refine ((final2 (V5 m ρ) c q).trans (headVal_def _ _ _ _ _ q)).trans ?_
  exact out_of_arrays (pOf m c) (gOf m c) _ _ _ _ _ q
    (fun j => (congrFun (W5_of m ρ c main_v51 (by decide)) (ix2 q j)).trans (W4_v51 m ρ c q j))
    (fun j r => congrFun ((W5_of m ρ c main_arg7 (by decide)).trans (W4_launch m ρ c main_arg7 (by decide) (by decide) (by decide) (by decide))) (ix2 j r))
    (fun r => (stretch2_v52 (W4 m ρ c) r).trans (congrFun (W4_launch m ρ c main_arg8 (by decide) (by decide) (by decide) (by decide)) (ix1 r)))
    (fun r => congrFun ((W5_of m ρ c main_arg9 (by decide)).trans (W4_launch m ρ c main_arg9 (by decide) (by decide) (by decide) (by decide))) (ix2 r 0))
    ((stretch2_v53 (W4 m ρ c)).trans (congrFun (W4_launch m ρ c main_arg10 (by decide) (by decide) (by decide) (by decide)) (ix1 0)))

/-! ## The kernel's value -/

/-- The program's result, entry by entry, is the network's output in the kernel's arrangement, on the graph and
    the parameters the launch memory holds. -/
theorem kernel_value :
    W7 (F := Ideal) m ρ c (Proc.devRef .tc main_v55) = fun q => kOut (gOf m c) (pOf m c) (q 0) := by
  funext q'
  obtain ⟨q, rfl⟩ : ∃ q : Fin 1024, q' = ix1 q := ⟨q' 0, eq_ix1 q'⟩
  exact (stretch3_v55 (W6 m ρ c) q).trans (W6_v54 m ρ c q)

end Compose

end Cert.KernelIdeal.Hand

end
-- ==== Proof.RefValue1.lean ====
/-
  Layer 1 of the reference, read index by index.

  The reference computes, from the edge list, the degree of every node (the number of edges that arrive there, plus
  one for the self loop), its inverse square root, and then one graph-convolution layer on the rank-one features
  x i * W1 k: every edge carries its source's row, scaled by the normalisers of both ends, to its destination; the
  node's own row scaled by 1 / deg and the bias are added, and the result is clipped below at zero.  Each stage is
  read here at one index and identified with the corresponding function of the specification.  The degree and its
  inverse square root are computed a second time for layer 2 by the same operations; they are read again here.

  An index word below zero has the extent added to it before it is used; for a destination word that is assumed
  non-negative this changes nothing, so the degree counts exactly the edges whose destination word names the node.
-/
import proofs.«420787_j68083821576362_3_alg».proof.Proof.Gen.ReferenceIdeal.Read
import proofs.«420787_j68083821576362_3_alg».proof.Proof.Concrete
import proofs.«420787_j68083821576362_3_alg».proof.Proof.LibScatterGather

noncomputable section

open scoped BigOperators

namespace Cert.ReferenceIdeal.RefValue

open Cert.ReferenceIdeal Cert.ReferenceIdeal.Read Idealize.ShloMosaic Idealize.ShloMosaic.ValueIdx Cert.Gcn

variable (x0 : (⟨S100000x1, .f32⟩ : BufTy).Contents (Elt Ideal)) (x1 : (⟨S2x1600000, .i32⟩ : BufTy).Contents (Elt Ideal))
  (x2 : (⟨S100000, .i32⟩ : BufTy).Contents (Elt Ideal)) (x3 : (⟨S1x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x32, .f32⟩ : BufTy).Contents (Elt Ideal))
  (x8 : (⟨S32, .f32⟩ : BufTy).Contents (Elt Ideal)) (x9 : (⟨S32x1, .f32⟩ : BufTy).Contents (Elt Ideal))
  (x10 : (⟨S1, .f32⟩ : BufTy).Contents (Elt Ideal))

/-! ## Words and constants -/

/-- The pattern of the float one denotes the real one. -/
theorem ofBits_one : Ideal.ofBits .f32 0x3F800000#32 = 1 := by
  simp [Ideal.ofBits, Ideal.ieee]
  rw [← EReal.coe_mul]
  norm_num

/-- "Below zero, add the extent": the select on the signed comparison is the wrapped index. -/
theorem wrap_word (v : BitVec 32) :
    Scalar.select (IntOp.cmpi .slt v 0#32) (IntOp.addi v 100000#32) v = wrapIdx 100000#32 v := by
  have hs : v.slt 0#32 = decide (v.toInt < 0) := by simp [BitVec.slt]
  show (if BitVec.ofBool (v.slt 0#32) = 1 then v + 100000#32 else v) = if v.toInt < 0 then v + 100000#32 else v
  rw [hs]
  by_cases h : v.toInt < 0
  · simp [h]
  · simp [h]

/-- A word that is not negative is its own wrapped index. -/
theorem wrapIdx_of_nonneg (n v : BitVec 32) (h : 0 ≤ v.toInt) : wrapIdx n v = v := by
  unfold wrapIdx
  rw [if_neg (by omega)]

/-- Entry `e` of the flattened first row of the edge list is the source word of edge `e`. -/
theorem src_word (e : Fin 1600000) : val_main_v1 (F := Ideal) x1 (ix1 e) = x1 (ix2 0 e) := by
  rw [val_main_v1_apply, val_main_v0_apply]
  congr 1
  funext a
  match a with
  | ⟨0, _⟩ => rfl
  | ⟨1, _⟩ => exact Fin.ext (Nat.mod_eq_of_lt e.isLt)

/-- Entry `e` of the flattened second row of the edge list is the destination word of edge `e`. -/
theorem dst_word (e : Fin 1600000) : val_main_v3 (F := Ideal) x1 (ix1 e) = x1 (ix2 1 e) := by
  rw [val_main_v3_apply, val_main_v2_apply]
  congr 1
  funext a
  match a with
  | ⟨0, _⟩ => rfl
  | ⟨1, _⟩ => exact Fin.ext (Nat.mod_eq_of_lt e.isLt)

/-- An index map from `[n, 1]` to `[n]` that keeps the first coordinate sends `(e, 0)` to `e`. -/
theorem col_idx {n : Nat} (f : (⟨2, ![n, 1]⟩ : Shape).Idx → (⟨1, ![n]⟩ : Shape).Idx)
    (hf : ∀ j, (f j 0).val = (j 0).val) (e : Fin n) : f (ix2 e 0) = ix1 e := by
  funext a
  match a with
  | ⟨0, _⟩ => exact Fin.ext (hf (ix2 e 0))

/-! ## The index arrays of the scatters and gathers -/

/-- The degree scatter's index of edge `e`: its destination word (wrapped, which changes nothing). -/
theorem v11_word (hdst0 : ∀ e : Fin 1600000, 0 ≤ (x1 (ix2 1 e)).toInt) (e : Fin 1600000) :
    val_main_v11 (F := Ideal) x1 (ix2 e 0) = x1 (ix2 1 e) := by
  rw [val_main_v11_apply, col_idx idx_main_v11 (fun _ => rfl) e, val_main_v10_apply, val_main_v7_apply, val_main_v9_apply,
    val_main_v6_apply, val_main_v8_apply, val_main_c_apply, val_main_c_0_apply, dst_word, wrap_word,
    wrapIdx_of_nonneg _ _ (hdst0 e)]

/-- The same index array, built again for layer 2. -/
theorem v62_word (hdst0 : ∀ e : Fin 1600000, 0 ≤ (x1 (ix2 1 e)).toInt) (e : Fin 1600000) :
    val_main_v62 (F := Ideal) x1 (ix2 e 0) = x1 (ix2 1 e) := by
  rw [val_main_v62_apply, col_idx idx_main_v62 (fun _ => rfl) e, val_main_v61_apply, val_main_v58_apply, val_main_v60_apply,
    val_main_v57_apply, val_main_v59_apply, val_main_c_12_apply, val_main_c_13_apply, dst_word, wrap_word,
    wrapIdx_of_nonneg _ _ (hdst0 e)]

/-- The start index of the gather of the source's normaliser: the wrapped source word. -/
theorem v22_word (e : Fin 1600000) :
    val_main_v22 (F := Ideal) x1 (ix2 e 0) = wrapIdx 100000#32 (x1 (ix2 0 e)) := by
  rw [val_main_v22_apply, col_idx idx_main_v22 (fun _ => rfl) e, val_main_v21_apply, val_main_v18_apply, val_main_v20_apply,
    val_main_v17_apply, val_main_v19_apply, val_main_c_3_apply, val_main_c_4_apply, src_word, wrap_word]

/-- The start index of the gather of the destination's normaliser: the wrapped destination word. -/
theorem v29_word (e : Fin 1600000) :
    val_main_v29 (F := Ideal) x1 (ix2 e 0) = wrapIdx 100000#32 (x1 (ix2 1 e)) := by
  rw [val_main_v29_apply, col_idx idx_main_v29 (fun _ => rfl) e, val_main_v28_apply, val_main_v25_apply, val_main_v27_apply,
    val_main_v24_apply, val_main_v26_apply, val_main_c_5_apply, val_main_c_6_apply, dst_word, wrap_word]

/-- The start index of the gather of the source's feature row: the wrapped source word. -/
theorem v37_word (e : Fin 1600000) :
    val_main_v37 (F := Ideal) x1 (ix2 e 0) = wrapIdx 100000#32 (x1 (ix2 0 e)) := by
  rw [val_main_v37_apply, col_idx idx_main_v37 (fun _ => rfl) e, val_main_v36_apply, val_main_v33_apply, val_main_v35_apply,
    val_main_v32_apply, val_main_v34_apply, val_main_c_7_apply, val_main_c_8_apply, src_word, wrap_word]

/-- The message scatter's index of edge `e`: its destination word as it stands. -/
theorem v43_word (e : Fin 1600000) : val_main_v43 (F := Ideal) x1 (ix2 e 0) = x1 (ix2 1 e) := by
  rw [val_main_v43_apply, col_idx idx_main_v43 (fun _ => rfl) e, dst_word]

/-! ## The constant arrays -/

theorem v5_zero (i : S100000.Idx) : val_main_v5 (F := Ideal) i = 0 := by
  rw [val_main_v5_apply, val_main_cst_apply, Ideal.ofBits_def, Ideal.ofBits_zero_f32]
theorem v12_one (a : S1600000.Idx) : val_main_v12 (F := Ideal) a = 1 := by
  rw [val_main_v12_apply, val_main_cst_1_apply, Ideal.ofBits_def, ofBits_one]
theorem v14_one (i : S100000.Idx) : val_main_v14 (F := Ideal) i = 1 := by
  rw [val_main_v14_apply, val_main_cst_2_apply, Ideal.ofBits_def, ofBits_one]
theorem v42_zero (j : S100000x128.Idx) : val_main_v42 (F := Ideal) j = 0 := by
  rw [val_main_v42_apply, val_main_cst_9_apply, Ideal.ofBits_def, Ideal.ofBits_zero_f32]
theorem v45_one (i : S100000.Idx) : val_main_v45 (F := Ideal) i = 1 := by
  rw [val_main_v45_apply, val_main_cst_10_apply, Ideal.ofBits_def, ofBits_one]
theorem call0_v0_zero (j : S100000x128.Idx) : val_main_call0_v0 (F := Ideal) j = 0 := by
  rw [val_main_call0_v0_apply, val_main_call0_cst_apply, Ideal.ofBits_def, Ideal.ofBits_zero_f32]
theorem v56_zero (i : S100000.Idx) : val_main_v56 (F := Ideal) i = 0 := by
  rw [val_main_v56_apply, val_main_cst_11_apply, Ideal.ofBits_def, Ideal.ofBits_zero_f32]
theorem v63_one (a : S1600000.Idx) : val_main_v63 (F := Ideal) a = 1 := by
  rw [val_main_v63_apply, val_main_cst_14_apply, Ideal.ofBits_def, ofBits_one]
theorem v65_one (i : S100000.Idx) : val_main_v65 (F := Ideal) i = 1 := by
  rw [val_main_v65_apply, val_main_cst_15_apply, Ideal.ofBits_def, ofBits_one]

/-! ## Degree and normaliser -/

/-- The degree stage of layer 1 is the specification's degree. -/
theorem deg1_apply (hdst0 : ∀ e : Fin 1600000, 0 ≤ (x1 (ix2 1 e)).toInt) (i : Fin 100000) :
    val_main_v15 (F := Ideal) x1 (ix1 i) = deg (mkGraph x1 x2) i := by
  rw [val_main_v15_apply, Ideal.addf_def, v14_one]
  unfold val_main_v13
  rw [scatterAdd_vec_apply (φ := .f32) scatter_S100000_S1600000x1_S1600000_n_0_0_1 rfl rfl rfl rfl _ _ _ i, v5_zero]
  simp only [v12_one, v11_word x1 hdst0]
  rfl

/-- The inverse-square-root stage of layer 1 is the specification's normaliser. -/
theorem dinv1_apply (hdst0 : ∀ e : Fin 1600000, 0 ≤ (x1 (ix2 1 e)).toInt) (i : Fin 100000) :
    val_main_v16 (F := Ideal) x1 (ix1 i) = dinv (mkGraph x1 x2) i := by
  show _ = Ideal.rsqrt (deg (mkGraph x1 x2) i)
  rw [val_main_v16_apply, Ideal.hostUnary_rsqrt_def, deg1_apply x1 x2 hdst0]

/-- The degree stage computed again for layer 2 is the specification's degree. -/
theorem deg2_apply (hdst0 : ∀ e : Fin 1600000, 0 ≤ (x1 (ix2 1 e)).toInt) (i : Fin 100000) :
    val_main_v66 (F := Ideal) x1 (ix1 i) = deg (mkGraph x1 x2) i := by
  rw [val_main_v66_apply, Ideal.addf_def, v65_one]
  unfold val_main_v64
  rw [scatterAdd_vec_apply (φ := .f32) scatter_S100000_S1600000x1_S1600000_n_0_0_1 rfl rfl rfl rfl _ _ _ i, v56_zero]
  simp only [v63_one, v62_word x1 hdst0]
  rfl

/-- The inverse-square-root stage computed again for layer 2 is the specification's normaliser. -/
theorem dinv2_apply (hdst0 : ∀ e : Fin 1600000, 0 ≤ (x1 (ix2 1 e)).toInt) (i : Fin 100000) :
    val_main_v67 (F := Ideal) x1 (ix1 i) = dinv (mkGraph x1 x2) i := by
  show _ = Ideal.rsqrt (deg (mkGraph x1 x2) i)
  rw [val_main_v67_apply, Ideal.hostUnary_rsqrt_def, deg2_apply x1 x2 hdst0]

/-! ## The layer -/

/-- The one-term contraction: the feature of node `i` in column `k` is `x i * W1 k`. -/
theorem feat_apply (i : Fin 100000) (k : Fin 128) :
    val_main_v4 (F := Ideal) x0 x3 (ix2 i k) = x0 (ix2 i 0) * x3 (ix2 0 k) := by
  have hl : lidx_main_v4 (ix2 i k) 0 = ix2 i 0 := by
    funext a
    match a with
    | ⟨0, _⟩ => rfl
    | ⟨1, _⟩ => rfl
  have hr : ridx_main_v4 (ix2 i k) 0 = ix2 0 k := by
    funext a
    match a with
    | ⟨0, _⟩ => rfl
    | ⟨1, _⟩ => rfl
  rw [val_main_v4_apply, Fin.sum_univ_one, hl, hr]

/-- Entry `(a, k)` of a per-edge scalar spread over the columns is the scalar of edge `a`. -/
theorem edge_idx (a : Fin 1600000) (k : Fin 128) : idx_main_v39 (idx_main_v40 (ix2 a k)) = ix1 a := by
  funext d
  match d with
  | ⟨0, _⟩ => rfl

/-- Entry `(i, k)` of a per-node scalar spread over the columns is the scalar of node `i`. -/
theorem node_idx (i : Fin 100000) (k : Fin 128) : idx_main_v47 (idx_main_v48 (ix2 i k)) = ix1 i := by
  funext d
  match d with
  | ⟨0, _⟩ => rfl

/-- Entry `(i, k)` of a per-column scalar spread over the nodes is the scalar of column `k`. -/
theorem colm_idx (i : Fin 100000) (k : Fin 128) : idx_main_v51 (idx_main_v52 (ix2 i k)) = ix1 k := by
  funext d
  match d with
  | ⟨0, _⟩ => rfl

/-- The weight of edge `a`: the normalisers of its two ends, multiplied. -/
theorem norm_apply (hdst0 : ∀ e : Fin 1600000, 0 ≤ (x1 (ix2 1 e)).toInt) (a : Fin 1600000) :
    val_main_v31 (F := Ideal) x1 (ix1 a)
      = dinv (mkGraph x1 x2) ((mkGraph x1 x2).gsrc a) * dinv (mkGraph x1 x2) ((mkGraph x1 x2).gdst a) := by
  rw [val_main_v31_apply, Ideal.mulf_def]
  unfold val_main_v23 val_main_v30
  rw [gather_vec_apply (by decide) gather_S100000_S1600000x1_S1600000_n_0_n_n_0_1_1 rfl rfl rfl rfl rfl rfl rfl
      (val_main_v16 (F := Ideal) x1) (val_main_v22 (F := Ideal) x1) a,
    gather_vec_apply (by decide) gather_S100000_S1600000x1_S1600000_n_0_n_n_0_1_1 rfl rfl rfl rfl rfl rfl rfl
      (val_main_v16 (F := Ideal) x1) (val_main_v29 (F := Ideal) x1) a,
    v22_word, v29_word, dinv1_apply x1 x2 hdst0, dinv1_apply x1 x2 hdst0]
  rfl

/-- The message of edge `a` in column `k`: its source's feature times the edge's weight. -/
theorem msg_apply (hdst0 : ∀ e : Fin 1600000, 0 ≤ (x1 (ix2 1 e)).toInt) (a : Fin 1600000) (k : Fin 128) :
    val_main_v41 (F := Ideal) x0 x1 x3 (ix2 a k)
      = (x0 (ix2 ((mkGraph x1 x2).gsrc a) 0) * x3 (ix2 0 k))
          * (dinv (mkGraph x1 x2) ((mkGraph x1 x2).gsrc a) * dinv (mkGraph x1 x2) ((mkGraph x1 x2).gdst a)) := by
  rw [val_main_v41_apply, Ideal.mulf_def]
  unfold val_main_v38
  rw [gather_rows_apply (by decide) gather_S100000x128_S1600000x1_S1600000x128_1_0_n_n_0_1_1128 rfl rfl rfl rfl rfl rfl rfl
      (val_main_v4 (F := Ideal) x0 x3) (val_main_v37 (F := Ideal) x1) a k,
    v37_word, feat_apply, val_main_v40_apply, val_main_v39_apply, edge_idx, norm_apply x1 x2 hdst0]
  rfl

/-- The messages that reach node `i`, added up from zero. -/
theorem agg_apply (hdst0 : ∀ e : Fin 1600000, 0 ≤ (x1 (ix2 1 e)).toInt) (i : Fin 100000) (k : Fin 128) :
    val_main_v44 (F := Ideal) x0 x1 x3 (ix2 i k)
      = 0 + ∑ e ∈ into (mkGraph x1 x2) i, (x0 (ix2 ((mkGraph x1 x2).gsrc e) 0) * x3 (ix2 0 k))
          * (dinv (mkGraph x1 x2) ((mkGraph x1 x2).gsrc e) * dinv (mkGraph x1 x2) ((mkGraph x1 x2).gdst e)) := by
  unfold val_main_v44
  rw [scatterAdd_rows_apply (φ := .f32) scatter_S100000x128_S1600000x1_S1600000x128_1_0_0_1 rfl rfl rfl rfl _ _ _ i k, v42_zero]
  simp only [v43_word, msg_apply x0 x1 x2 x3 hdst0]
  rfl

/-- The node's own feature, divided by its degree. -/
theorem self_apply (hdst0 : ∀ e : Fin 1600000, 0 ≤ (x1 (ix2 1 e)).toInt) (i : Fin 100000) (k : Fin 128) :
    val_main_v49 (F := Ideal) x0 x1 x3 (ix2 i k)
      = (x0 (ix2 i 0) * x3 (ix2 0 k)) * Ideal.div 1 (deg (mkGraph x1 x2) i) := by
  rw [val_main_v49_apply, Ideal.mulf_def, feat_apply, val_main_v48_apply, val_main_v47_apply, node_idx, val_main_v46_apply,
    Ideal.hostDivf_def, v45_one, deg1_apply x1 x2 hdst0]

/-- The bias spread over the nodes. -/
theorem bias_apply (i : Fin 100000) (k : Fin 128) : val_main_v52 (F := Ideal) x4 (ix2 i k) = x4 (ix1 k) := by
  rw [val_main_v52_apply, val_main_v51_apply, colm_idx]

/-- The pre-activation of layer 1 is the specification's layer on the rank-one features. -/
theorem pre1_apply (hdst0 : ∀ e : Fin 1600000, 0 ≤ (x1 (ix2 1 e)).toInt) (i : Fin 100000) (k : Fin 128) :
    val_main_v53 (F := Ideal) x0 x1 x3 x4 (ix2 i k)
      = refLayer (mkGraph x1 x2)
          (fun i k => (mkNet x0 x3 x4 x5 x6 x7 x8 x9 x10).x i * (mkNet x0 x3 x4 x5 x6 x7 x8 x9 x10).W1 k)
          (mkNet x0 x3 x4 x5 x6 x7 x8 x9 x10).b1 i k := by
  rw [val_main_v53_apply, Ideal.addf_def, val_main_v50_apply, Ideal.addf_def, agg_apply x0 x1 x2 x3 hdst0,
    self_apply x0 x1 x2 x3 hdst0, bias_apply]
  rfl

/-- The activation of layer 1 is the specification's first hidden layer. -/
theorem h1_apply (hdst0 : ∀ e : Fin 1600000, 0 ≤ (x1 (ix2 1 e)).toInt) (i : Fin 100000) (k : Fin 128) :
    val_main_v54 (F := Ideal) x0 x1 x3 x4 (ix2 i k)
      = refH1 (mkGraph x1 x2) (mkNet x0 x3 x4 x5 x6 x7 x8 x9 x10) i k := by
  rw [val_main_v54_apply, Ideal.maximumf_def, call0_v0_zero, pre1_apply x0 x1 x2 x3 x4 x5 x6 x7 x8 x9 x10 hdst0]
  rfl

end Cert.ReferenceIdeal.RefValue

end
-- ==== Proof.RefValue2.lean ====
/-
  The reference program from its second graph-convolution layer on, read index by index: the second linear map, the
  second normalised aggregation and its rectifier, the per-graph mean, the two-layer head, and the reshape that
  delivers the result.  Each stage is identified with the corresponding function of the specification at the graph
  and the parameters read off the argument arrays.  The first layer (the hidden features after the first rectifier,
  the degrees and their inverse square roots) is taken from the module that reads it.
-/
import proofs.«420787_j68083821576362_3_alg».proof.Proof.Gen.ReferenceIdeal.Read
import proofs.«420787_j68083821576362_3_alg».proof.Proof.Concrete
import proofs.«420787_j68083821576362_3_alg».proof.Proof.LibScatterGather
import proofs.«420787_j68083821576362_3_alg».proof.Proof.RefValue1

noncomputable section

namespace Cert.ReferenceIdeal.RefValue

open Cert.ReferenceIdeal Cert.ReferenceIdeal.Read Idealize.ShloMosaic Idealize.ShloMosaic.ValueIdx
  Idealize.ShloMosaic.TcCoe Idealize.SL.Sem Cert.Gcn

/-! ## Two literals and the index words -/

namespace L2

/-- The word of `1.0` denotes the number one. -/
theorem one_word : Ideal.ofBits .f32 0x3F800000#32 = 1 := by
  simp [Ideal.ofBits, Ideal.ieee, -EReal.coe_mul]; norm_num

/-- Selecting "word plus extent" when the word is negative is the wrap-around reading of an index word. -/
theorem wrap_word (v : BitVec 32) :
    Scalar.select (IntOp.cmpi .slt v 0#32) (IntOp.addi v 100000#32) v = wrapIdx 100000#32 v := by
  unfold Scalar.select wrapIdx IntOp.addi
  by_cases h : v.toInt < 0
  · rw [if_pos h, if_pos]
    exact IntOp.cmpi_slt.mpr (by simpa using h)
  · rw [if_neg h, if_neg]
    intro hh
    exact h (by simpa using IntOp.cmpi_slt.mp hh)

section Words

variable (x1 : (⟨S2x1600000, .i32⟩ : BufTy).Contents (Elt Ideal)) (x2 : (⟨S100000, .i32⟩ : BufTy).Contents (Elt Ideal))

/-- Row 0 of the edge array: the source words. -/
theorem src_word (e : Fin 1600000) : val_main_v1 (F := Ideal) x1 (ix1 e) = x1 (ix2 0 e) := by
  rw [val_main_v1_apply, val_main_v0_apply]
  congr 1
  funext a
  refine Fin.ext ?_
  match a with
  | ⟨0, _⟩ => rfl
  | ⟨1, _⟩ => exact Nat.mod_eq_of_lt e.isLt

/-- Row 1 of the edge array: the destination words. -/
theorem dst_word (e : Fin 1600000) : val_main_v3 (F := Ideal) x1 (ix1 e) = x1 (ix2 1 e) := by
  rw [val_main_v3_apply, val_main_v2_apply]
  congr 1
  funext a
  refine Fin.ext ?_
  match a with
  | ⟨0, _⟩ => rfl
  | ⟨1, _⟩ => exact Nat.mod_eq_of_lt e.isLt

/-- The start indices of the gather of the source's normaliser: the wrapped source words. -/
theorem src_wrapped_a (e : Fin 1600000) :
    val_main_v73 (F := Ideal) x1 (ix2 e 0) = wrapIdx 100000#32 (x1 (ix2 0 e)) := by
  have hi : idx_main_v73 (ix2 e 0) = ix1 e := by
    funext a
    match a with
    | ⟨0, _⟩ => rfl
  rw [val_main_v73_apply, hi, val_main_v72_apply, val_main_v69_apply, val_main_v71_apply, val_main_v68_apply,
    val_main_v70_apply, val_main_c_16_apply, val_main_c_17_apply, src_word]
  exact wrap_word _

/-- The start indices of the gather of the destination's normaliser: the wrapped destination words. -/
theorem dst_wrapped (e : Fin 1600000) :
    val_main_v80 (F := Ideal) x1 (ix2 e 0) = wrapIdx 100000#32 (x1 (ix2 1 e)) := by
  have hi : idx_main_v80 (ix2 e 0) = ix1 e := by
    funext a
    match a with
    | ⟨0, _⟩ => rfl
  rw [val_main_v80_apply, hi, val_main_v79_apply, val_main_v76_apply, val_main_v78_apply, val_main_v75_apply,
    val_main_v77_apply, val_main_c_18_apply, val_main_c_19_apply, dst_word]
  exact wrap_word _

/-- The start indices of the gather of the source's feature row: the wrapped source words again. -/
theorem src_wrapped_b (e : Fin 1600000) :
    val_main_v88 (F := Ideal) x1 (ix2 e 0) = wrapIdx 100000#32 (x1 (ix2 0 e)) := by
  have hi : idx_main_v88 (ix2 e 0) = ix1 e := by
    funext a
    match a with
    | ⟨0, _⟩ => rfl
  rw [val_main_v88_apply, hi, val_main_v87_apply, val_main_v84_apply, val_main_v86_apply, val_main_v83_apply,
    val_main_v85_apply, val_main_c_20_apply, val_main_c_21_apply, src_word]
  exact wrap_word _

/-- The scatter indices of the messages: the destination words as they are. -/
theorem dst_raw (e : Fin 1600000) : val_main_v94 (F := Ideal) x1 (ix2 e 0) = x1 (ix2 1 e) := by
  have hi : idx_main_v94 (ix2 e 0) = ix1 e := by
    funext a
    match a with
    | ⟨0, _⟩ => rfl
  rw [val_main_v94_apply, hi, dst_word]

/-- The scatter indices of the pooled sum: the batch words as they are. -/
theorem batch_word_a (i : Fin 100000) : val_main_v107 (F := Ideal) x2 (ix2 i 0) = x2 (ix1 i) := by
  have hi : idx_main_v107 (ix2 i 0) = ix1 i := by
    funext a
    match a with
    | ⟨0, _⟩ => rfl
  rw [val_main_v107_apply, hi]

/-- The scatter indices of the node count: the batch words as they are. -/
theorem batch_word_b (i : Fin 100000) : val_main_v111 (F := Ideal) x2 (ix2 i 0) = x2 (ix1 i) := by
  have hi : idx_main_v111 (ix2 i 0) = ix1 i := by
    funext a
    match a with
    | ⟨0, _⟩ => rfl
  rw [val_main_v111_apply, hi]

end Words

end L2

/-! ## The second layer -/

section Layer2

variable (x0 : (⟨S100000x1, .f32⟩ : BufTy).Contents (Elt Ideal)) (x1 : (⟨S2x1600000, .i32⟩ : BufTy).Contents (Elt Ideal))
  (x2 : (⟨S100000, .i32⟩ : BufTy).Contents (Elt Ideal)) (x3 : (⟨S1x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x32, .f32⟩ : BufTy).Contents (Elt Ideal))
  (x8 : (⟨S32, .f32⟩ : BufTy).Contents (Elt Ideal)) (x9 : (⟨S32x1, .f32⟩ : BufTy).Contents (Elt Ideal))
  (x10 : (⟨S1, .f32⟩ : BufTy).Contents (Elt Ideal))

/-- The normaliser is the inverse square root of the degree. -/
theorem dinv2_of_deg
    (hdst0 : ∀ e : Fin 1600000, 0 ≤ (x1 (ix2 1 e)).toInt) (i : Fin 100000) :
    val_main_v67 (F := Ideal) x1 (ix1 i) = dinv (mkGraph x1 x2) i := by
  rw [val_main_v67_apply, (deg2_apply x1 x2 hdst0), Ideal.hostUnary_rsqrt_def]
  unfold dinv
  rfl

/-- The second linear map: row `i` of the hidden features against column `j` of the second weight matrix. -/
theorem lin2_apply
    (hdst0 : ∀ e : Fin 1600000, 0 ≤ (x1 (ix2 1 e)).toInt)
    (i : Fin 100000) (j : Fin 128) :
    val_main_v55 (F := Ideal) x0 x1 x3 x4 x5 (ix2 i j) = refLin2 (mkGraph x1 x2) (mkNet x0 x3 x4 x5 x6 x7 x8 x9 x10) i j := by
  rw [val_main_v55_apply]
  unfold refLin2
  refine Finset.sum_congr rfl fun k _ => ?_
  have el : lidx_main_v55 (ix2 i j) k = ix2 i k := by
    funext a
    match a with
    | ⟨0, _⟩ => rfl
    | ⟨1, _⟩ => rfl
  have er : ridx_main_v55 (ix2 i j) k = ix2 k j := by
    funext a
    match a with
    | ⟨0, _⟩ => rfl
    | ⟨1, _⟩ => rfl
  rw [el, er, (h1_apply x0 x1 x2 x3 x4 x5 x6 x7 x8 x9 x10 hdst0)]
  rfl

/-- The normaliser gathered at an edge's source row. -/
theorem dinvsrc2_apply
    (hdst0 : ∀ e : Fin 1600000, 0 ≤ (x1 (ix2 1 e)).toInt) (e : Fin 1600000) :
    val_main_v74 (F := Ideal) x1 (ix1 e) = dinv (mkGraph x1 x2) ((mkGraph x1 x2).gsrc e) := by
  unfold val_main_v74
  rw [gather_vec_apply (by decide) _ rfl rfl rfl rfl rfl rfl rfl, dinv2_of_deg x1 x2 hdst0, L2.src_wrapped_a]
  rfl

/-- The normaliser gathered at an edge's destination row. -/
theorem dinvdst2_apply
    (hdst0 : ∀ e : Fin 1600000, 0 ≤ (x1 (ix2 1 e)).toInt) (e : Fin 1600000) :
    val_main_v81 (F := Ideal) x1 (ix1 e) = dinv (mkGraph x1 x2) ((mkGraph x1 x2).gdst e) := by
  unfold val_main_v81
  rw [gather_vec_apply (by decide) _ rfl rfl rfl rfl rfl rfl rfl, dinv2_of_deg x1 x2 hdst0, L2.dst_wrapped]
  rfl

/-- The weight of an edge's message, spread along the feature axis. -/
theorem weight2_apply
    (hdst0 : ∀ e : Fin 1600000, 0 ≤ (x1 (ix2 1 e)).toInt) (e : Fin 1600000) (j : Fin 128) :
    val_main_v91 (F := Ideal) x1 (ix2 e j) = dinv (mkGraph x1 x2) ((mkGraph x1 x2).gsrc e) * dinv (mkGraph x1 x2) ((mkGraph x1 x2).gdst e) := by
  have h91 : idx_main_v91 (ix2 e j) = ix2 e 0 := by
    funext a
    match a with
    | ⟨0, _⟩ => rfl
    | ⟨1, _⟩ => rfl
  have h90 : idx_main_v90 (ix2 e 0) = ix1 e := by
    funext a
    match a with
    | ⟨0, _⟩ => rfl
  rw [val_main_v91_apply, h91, val_main_v90_apply, h90, val_main_v82_apply, dinvsrc2_apply x1 x2 hdst0,
    dinvdst2_apply x1 x2 hdst0]
  rfl

/-- The feature row gathered at an edge's source. -/
theorem rowsrc2_apply
    (hdst0 : ∀ e : Fin 1600000, 0 ≤ (x1 (ix2 1 e)).toInt)
    (e : Fin 1600000) (j : Fin 128) :
    val_main_v89 (F := Ideal) x0 x1 x3 x4 x5 (ix2 e j) = refLin2 (mkGraph x1 x2) (mkNet x0 x3 x4 x5 x6 x7 x8 x9 x10) ((mkGraph x1 x2).gsrc e) j := by
  unfold val_main_v89
  rw [gather_rows_apply (by decide) _ rfl rfl rfl rfl rfl rfl rfl, lin2_apply x0 x1 x2 x3 x4 x5 x6 x7 x8 x9 x10 hdst0, L2.src_wrapped_b]
  rfl

/-- One message: the source's feature times the two normalisers. -/
theorem msg2_apply
    (hdst0 : ∀ e : Fin 1600000, 0 ≤ (x1 (ix2 1 e)).toInt)
    (e : Fin 1600000) (j : Fin 128) :
    val_main_v92 (F := Ideal) x0 x1 x3 x4 x5 (ix2 e j)
      = refLin2 (mkGraph x1 x2) (mkNet x0 x3 x4 x5 x6 x7 x8 x9 x10) ((mkGraph x1 x2).gsrc e) j * (dinv (mkGraph x1 x2) ((mkGraph x1 x2).gsrc e) * dinv (mkGraph x1 x2) ((mkGraph x1 x2).gdst e)) := by
  rw [val_main_v92_apply, rowsrc2_apply x0 x1 x2 x3 x4 x5 x6 x7 x8 x9 x10 hdst0, weight2_apply x1 x2 hdst0]
  rfl

/-- The messages summed at their destinations. -/
theorem agg2_apply
    (hdst0 : ∀ e : Fin 1600000, 0 ≤ (x1 (ix2 1 e)).toInt)
    (i : Fin 100000) (j : Fin 128) :
    val_main_v95 (F := Ideal) x0 x1 x3 x4 x5 (ix2 i j)
      = 0 + ∑ e ∈ into (mkGraph x1 x2) i, refLin2 (mkGraph x1 x2) (mkNet x0 x3 x4 x5 x6 x7 x8 x9 x10) ((mkGraph x1 x2).gsrc e) j * (dinv (mkGraph x1 x2) ((mkGraph x1 x2).gsrc e) * dinv (mkGraph x1 x2) ((mkGraph x1 x2).gdst e)) := by
  unfold val_main_v95
  rw [scatterAdd_rows_apply _ rfl rfl rfl rfl]
  have hz : val_main_v93 (F := Ideal) (ix2 i j) = 0 := by
    rw [val_main_v93_apply, val_main_cst_22_apply]
    exact Ideal.ofBits_zero_f32
  have hf : (Finset.univ.filter fun a : Fin 1600000 => rowTgt 100000 (val_main_v94 (F := Ideal) x1 (ix2 a 0)) = some i)
      = into (mkGraph x1 x2) i :=
    Finset.filter_congr fun a _ => by rw [L2.dst_raw]; exact Iff.rfl
  rw [hz, hf]
  exact congrArg _ (Finset.sum_congr rfl fun e _ => msg2_apply x0 x1 x2 x3 x4 x5 x6 x7 x8 x9 x10 hdst0 e j)

/-- The self term: the node's own feature over its degree. -/
theorem self2_apply
    (hdst0 : ∀ e : Fin 1600000, 0 ≤ (x1 (ix2 1 e)).toInt)
    (i : Fin 100000) (j : Fin 128) :
    val_main_v100 (F := Ideal) x0 x1 x3 x4 x5 (ix2 i j) = refLin2 (mkGraph x1 x2) (mkNet x0 x3 x4 x5 x6 x7 x8 x9 x10) i j * Ideal.div 1 (deg (mkGraph x1 x2) i) := by
  have h99 : idx_main_v99 (ix2 i j) = ix2 i 0 := by
    funext a
    match a with
    | ⟨0, _⟩ => rfl
    | ⟨1, _⟩ => rfl
  have h98 : idx_main_v98 (ix2 i 0) = ix1 i := by
    funext a
    match a with
    | ⟨0, _⟩ => rfl
  rw [val_main_v100_apply, lin2_apply x0 x1 x2 x3 x4 x5 x6 x7 x8 x9 x10 hdst0, val_main_v99_apply, h99,
    val_main_v98_apply, h98, val_main_v97_apply, val_main_v96_apply, val_main_cst_23_apply, (deg2_apply x1 x2 hdst0)]
  simp only [Ideal.mulf_def, Ideal.hostDivf_def, Ideal.ofBits_def, L2.one_word]

/-- The second bias, spread along the node axis. -/
theorem bias2_apply (i : Fin 100000) (j : Fin 128) : val_main_v103 (F := Ideal) x6 (ix2 i j) = x6 (ix1 j) := by
  have h103 : idx_main_v103 (ix2 i j) = ix2 0 j := by
    funext a
    match a with
    | ⟨0, _⟩ => rfl
    | ⟨1, _⟩ => rfl
  have h102 : idx_main_v102 (ix2 0 j) = ix1 j := by
    funext a
    match a with
    | ⟨0, _⟩ => rfl
  rw [val_main_v103_apply, h103, val_main_v102_apply, h102]

/-- The second layer before its rectifier is the specification's layer on the second linear map. -/
theorem pre2_apply
    (hdst0 : ∀ e : Fin 1600000, 0 ≤ (x1 (ix2 1 e)).toInt)
    (i : Fin 100000) (j : Fin 128) :
    val_main_v104 (F := Ideal) x0 x1 x3 x4 x5 x6 (ix2 i j) = refLayer (mkGraph x1 x2) (refLin2 (mkGraph x1 x2) (mkNet x0 x3 x4 x5 x6 x7 x8 x9 x10)) (mkNet x0 x3 x4 x5 x6 x7 x8 x9 x10).b2 i j := by
  rw [val_main_v104_apply, val_main_v101_apply, agg2_apply x0 x1 x2 x3 x4 x5 x6 x7 x8 x9 x10 hdst0,
    self2_apply x0 x1 x2 x3 x4 x5 x6 x7 x8 x9 x10 hdst0, bias2_apply]
  rfl

/-- The second layer after its rectifier. -/
theorem h2_apply
    (hdst0 : ∀ e : Fin 1600000, 0 ≤ (x1 (ix2 1 e)).toInt)
    (i : Fin 100000) (j : Fin 128) :
    val_main_v105 (F := Ideal) x0 x1 x3 x4 x5 x6 (ix2 i j) = refH2 (mkGraph x1 x2) (mkNet x0 x3 x4 x5 x6 x7 x8 x9 x10) i j := by
  rw [val_main_v105_apply, pre2_apply x0 x1 x2 x3 x4 x5 x6 x7 x8 x9 x10 hdst0, val_main_call1_v0_apply,
    val_main_call1_cst_apply]
  simp only [Ideal.maximumf_def, Ideal.ofBits_def, Ideal.ofBits_zero_f32]
  rfl

end Layer2

/-! ## The mean over each graph -/

section Pooling

variable (x0 : (⟨S100000x1, .f32⟩ : BufTy).Contents (Elt Ideal)) (x1 : (⟨S2x1600000, .i32⟩ : BufTy).Contents (Elt Ideal))
  (x2 : (⟨S100000, .i32⟩ : BufTy).Contents (Elt Ideal)) (x3 : (⟨S1x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x32, .f32⟩ : BufTy).Contents (Elt Ideal))
  (x8 : (⟨S32, .f32⟩ : BufTy).Contents (Elt Ideal)) (x9 : (⟨S32x1, .f32⟩ : BufTy).Contents (Elt Ideal))
  (x10 : (⟨S1, .f32⟩ : BufTy).Contents (Elt Ideal))

/-- The features of the nodes of graph `q`, summed. -/
theorem poolsum_apply
    (hdst0 : ∀ e : Fin 1600000, 0 ≤ (x1 (ix2 1 e)).toInt)
    (q : Fin 1024) (j : Fin 128) :
    val_main_v108 (F := Ideal) x0 x1 x2 x3 x4 x5 x6 (ix2 q j) = 0 + ∑ i ∈ pooled (mkGraph x1 x2) q, refH2 (mkGraph x1 x2) (mkNet x0 x3 x4 x5 x6 x7 x8 x9 x10) i j := by
  unfold val_main_v108
  rw [scatterAdd_rows_apply _ rfl rfl rfl rfl]
  have hz : val_main_v106 (F := Ideal) (ix2 q j) = 0 := by
    rw [val_main_v106_apply, val_main_cst_24_apply]
    exact Ideal.ofBits_zero_f32
  have hf : (Finset.univ.filter fun a : Fin 100000 => rowTgt 1024 (val_main_v107 (F := Ideal) x2 (ix2 a 0)) = some q)
      = pooled (mkGraph x1 x2) q :=
    Finset.filter_congr fun a _ => by rw [L2.batch_word_a]; exact Iff.rfl
  rw [hz, hf]
  exact congrArg _ (Finset.sum_congr rfl fun i _ => h2_apply x0 x1 x2 x3 x4 x5 x6 x7 x8 x9 x10 hdst0 i j)

/-- The number of nodes of graph `q`. -/
theorem cnt_apply (q : Fin 1024) : val_main_v112 (F := Ideal) x2 (ix1 q) = cnt (mkGraph x1 x2) q := by
  unfold val_main_v112
  rw [scatterAdd_vec_apply _ rfl rfl rfl rfl]
  have hz : val_main_v110 (F := Ideal) (ix1 q) = 0 := by
    rw [val_main_v110_apply, val_main_cst_26_apply]
    exact Ideal.ofBits_zero_f32
  have hf : (Finset.univ.filter fun a : Fin 100000 => rowTgt 1024 (val_main_v111 (F := Ideal) x2 (ix2 a 0)) = some q)
      = pooled (mkGraph x1 x2) q :=
    Finset.filter_congr fun a _ => by rw [L2.batch_word_b]; exact Iff.rfl
  have hone : ∀ a : Fin 100000, val_main_v109 (F := Ideal) (ix1 a) = 1 := fun a => by
    rw [val_main_v109_apply, val_main_cst_25_apply]
    exact L2.one_word
  rw [hz, hf]
  exact congrArg _ (Finset.sum_congr rfl fun a _ => hone a)

/-- The divisor of the mean: the count, or one for an empty graph, spread along the feature axis. -/
theorem divisor_apply (q : Fin 1024) (j : Fin 128) :
    val_main_v116 (F := Ideal) x2 (ix2 q j) = max (cnt (mkGraph x1 x2) q) 1 := by
  have h116 : idx_main_v116 (ix2 q j) = ix2 q 0 := by
    funext a
    match a with
    | ⟨0, _⟩ => rfl
    | ⟨1, _⟩ => rfl
  have h115 : idx_main_v115 (ix2 q 0) = ix1 q := by
    funext a
    match a with
    | ⟨0, _⟩ => rfl
  rw [val_main_v116_apply, h116, val_main_v115_apply, h115, val_main_v114_apply, cnt_apply x1 x2, val_main_v113_apply,
    val_main_cst_27_apply]
  simp only [Ideal.maximumf_def, Ideal.ofBits_def, L2.one_word]

/-- The mean of the features over graph `q`. -/
theorem pool_apply
    (hdst0 : ∀ e : Fin 1600000, 0 ≤ (x1 (ix2 1 e)).toInt)
    (q : Fin 1024) (j : Fin 128) :
    val_main_v117 (F := Ideal) x0 x1 x2 x3 x4 x5 x6 (ix2 q j) = refPool (mkGraph x1 x2) (mkNet x0 x3 x4 x5 x6 x7 x8 x9 x10) q j := by
  rw [val_main_v117_apply, poolsum_apply x0 x1 x2 x3 x4 x5 x6 x7 x8 x9 x10 hdst0, divisor_apply x1 x2]
  rfl

end Pooling

/-! ## The head -/

section Head

variable (x0 : (⟨S100000x1, .f32⟩ : BufTy).Contents (Elt Ideal)) (x1 : (⟨S2x1600000, .i32⟩ : BufTy).Contents (Elt Ideal))
  (x2 : (⟨S100000, .i32⟩ : BufTy).Contents (Elt Ideal)) (x3 : (⟨S1x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x32, .f32⟩ : BufTy).Contents (Elt Ideal))
  (x8 : (⟨S32, .f32⟩ : BufTy).Contents (Elt Ideal)) (x9 : (⟨S32x1, .f32⟩ : BufTy).Contents (Elt Ideal))
  (x10 : (⟨S1, .f32⟩ : BufTy).Contents (Elt Ideal))

/-- The head's hidden layer: the pooled row against a column of the first head matrix, plus bias, rectified. -/
theorem hidden_apply
    (hdst0 : ∀ e : Fin 1600000, 0 ≤ (x1 (ix2 1 e)).toInt)
    (q : Fin 1024) (r : Fin 32) :
    val_main_v122 (F := Ideal) x0 x1 x2 x3 x4 x5 x6 x7 x8 (ix2 q r) = headHidden (mkNet x0 x3 x4 x5 x6 x7 x8 x9 x10) (refPool (mkGraph x1 x2) (mkNet x0 x3 x4 x5 x6 x7 x8 x9 x10)) q r := by
  have hb : val_main_v120 (F := Ideal) x8 (ix2 q r) = x8 (ix1 r) := by
    have h120 : idx_main_v120 (ix2 q r) = ix2 0 r := by
      funext a
      match a with
      | ⟨0, _⟩ => rfl
      | ⟨1, _⟩ => rfl
    have h119 : idx_main_v119 (ix2 0 r) = ix1 r := by
      funext a
      match a with
      | ⟨0, _⟩ => rfl
    rw [val_main_v120_apply, h120, val_main_v119_apply, h119]
  have hd : val_main_v118 (F := Ideal) x0 x1 x2 x3 x4 x5 x6 x7 (ix2 q r)
      = ∑ j : Fin 128, refPool (mkGraph x1 x2) (mkNet x0 x3 x4 x5 x6 x7 x8 x9 x10) q j * x7 (ix2 j r) := by
    rw [val_main_v118_apply]
    refine Finset.sum_congr rfl fun k _ => ?_
    have el : lidx_main_v118 (ix2 q r) k = ix2 q k := by
      funext a
      match a with
      | ⟨0, _⟩ => rfl
      | ⟨1, _⟩ => rfl
    have er : ridx_main_v118 (ix2 q r) k = ix2 k r := by
      funext a
      match a with
      | ⟨0, _⟩ => rfl
      | ⟨1, _⟩ => rfl
    rw [el, er, pool_apply x0 x1 x2 x3 x4 x5 x6 x7 x8 x9 x10 hdst0]
  rw [val_main_v122_apply, val_main_v121_apply, hd, hb, val_main_call2_v0_apply, val_main_call2_cst_apply]
  simp only [Ideal.maximumf_def, Ideal.addf_def, Ideal.ofBits_def, Ideal.ofBits_zero_f32]
  rfl

/-- The head's output before the final reshape. -/
theorem head_apply
    (hdst0 : ∀ e : Fin 1600000, 0 ≤ (x1 (ix2 1 e)).toInt)
    (q : Fin 1024) :
    val_main_v126 (F := Ideal) x0 x1 x2 x3 x4 x5 x6 x7 x8 x9 x10 (ix2 q 0) = head (mkNet x0 x3 x4 x5 x6 x7 x8 x9 x10) (refPool (mkGraph x1 x2) (mkNet x0 x3 x4 x5 x6 x7 x8 x9 x10)) q := by
  have hb : val_main_v125 (F := Ideal) x10 (ix2 q 0) = x10 (ix1 0) := by
    have h125 : idx_main_v125 (ix2 q 0) = ix2 0 0 := by
      funext a
      match a with
      | ⟨0, _⟩ => rfl
      | ⟨1, _⟩ => rfl
    have h124 : idx_main_v124 (ix2 0 0) = ix1 0 := by
      funext a
      match a with
      | ⟨0, _⟩ => rfl
    rw [val_main_v125_apply, h125, val_main_v124_apply, h124]
  have hd : val_main_v123 (F := Ideal) x0 x1 x2 x3 x4 x5 x6 x7 x8 x9 (ix2 q 0)
      = ∑ r : Fin 32, headHidden (mkNet x0 x3 x4 x5 x6 x7 x8 x9 x10) (refPool (mkGraph x1 x2) (mkNet x0 x3 x4 x5 x6 x7 x8 x9 x10)) q r * x9 (ix2 r 0) := by
    rw [val_main_v123_apply]
    refine Finset.sum_congr rfl fun k _ => ?_
    have el : lidx_main_v123 (ix2 q 0) k = ix2 q k := by
      funext a
      match a with
      | ⟨0, _⟩ => rfl
      | ⟨1, _⟩ => rfl
    have er : ridx_main_v123 (ix2 q 0) k = ix2 k 0 := by
      funext a
      match a with
      | ⟨0, _⟩ => rfl
      | ⟨1, _⟩ => rfl
    rw [el, er, hidden_apply x0 x1 x2 x3 x4 x5 x6 x7 x8 x9 x10 hdst0]
  rw [val_main_v126_apply, hd, hb]
  rfl

/-- The delivered vector: the head's column with its unit axis dropped. -/
theorem out_apply
    (hdst0 : ∀ e : Fin 1600000, 0 ≤ (x1 (ix2 1 e)).toInt)
    (q : Fin 1024) :
    val_main_v127 (F := Ideal) x0 x1 x2 x3 x4 x5 x6 x7 x8 x9 x10 (ix1 q) = refOut (mkGraph x1 x2) (mkNet x0 x3 x4 x5 x6 x7 x8 x9 x10) q := by
  have h127 : idx_main_v127 (ix1 q) = ix2 q 0 := by
    funext a
    refine Fin.ext ?_
    match a with
    | ⟨0, _⟩ => exact Nat.div_one _
    | ⟨1, _⟩ => rfl
  rw [val_main_v127_apply, h127, head_apply x0 x1 x2 x3 x4 x5 x6 x7 x8 x9 x10 hdst0]
  rfl

end Head

/-! ## The whole reference -/

/-- The graph of a memory's edge and batch arrays. -/
abbrev gOf (m' : (ℓ : Loc nD τ sig) → Buf (Elt Ideal) ℓ) (c : Dev nD) : Graph (Fin 1600000) (Fin 100000) (Fin 1024) :=
  mkGraph (m' ((c.tc : Thread nD τ).loc main_arg1)) (m' ((c.tc : Thread nD τ).loc main_arg2))

/-- The parameters and inputs of a memory's float arrays. -/
abbrev pOf (m' : (ℓ : Loc nD τ sig) → Buf (Elt Ideal) ℓ) (c : Dev nD) : Net (Fin 100000) (Fin 128) (Fin 32) :=
  mkNet (m' ((c.tc : Thread nD τ).loc main_arg0)) (m' ((c.tc : Thread nD τ).loc main_arg3))
    (m' ((c.tc : Thread nD τ).loc main_arg4)) (m' ((c.tc : Thread nD τ).loc main_arg5))
    (m' ((c.tc : Thread nD τ).loc main_arg6)) (m' ((c.tc : Thread nD τ).loc main_arg7))
    (m' ((c.tc : Thread nD τ).loc main_arg8)) (m' ((c.tc : Thread nD τ).loc main_arg9))
    (m' ((c.tc : Thread nD τ).loc main_arg10))

/-- When no destination word is negative, the reference's result is the specification's output at the graph and the
parameters of its arguments. -/
theorem ref_value (m' : (ℓ : Loc nD τ sig) → Buf (Elt Ideal) ℓ) (c : Dev nD)
    (hdst0 : ∀ e : Fin 1600000, 0 ≤ (m' ((c.tc : Thread nD τ).loc main_arg1) (ix2 1 e)).toInt) :
    Cert.ReferenceIdeal.Value.res_main_v127 (F := Ideal) m' c = fun q => refOut (gOf m' c) (pOf m' c) (q 0) := by
  rw [val_main_v127_eq]
  funext q
  obtain ⟨q0, rfl⟩ : ∃ q0 : Fin 1024, q = ix1 q0 := ⟨q 0, eq_ix1 q⟩
  exact out_apply _ _ _ _ _ _ _ _ _ _ _ hdst0 q0

end Cert.ReferenceIdeal.RefValue

end
-- ==== Proof.SpecEq.lean ====
/-
  The two arrangements of the graph-convolution network of `Spec.lean` compute the same function when every
  parameter is a real number and every message that reaches a node reads its destination's normaliser at that node.

  The degree of a node is a natural number plus one, so its inverse square root `d` is a positive real with
  `d · d = 1 / deg`.  With real parameters every intermediate value is real, and in the reals a layer

      Σ_{e → i} h(src e) · (d(src e) · d(i)) + h(i) · (1 / deg i)   =   ((Σ_{e → i} h(src e) · d(src e)) + h(i) · d(i)) · d(i)

  by distributing `d(i)` over the sum.  The pooled mean is a sum over a filtered set, which is the sum of the
  indicator times the summand, divided by a real count that is at least one.
-/
import proofs.«420787_j68083821576362_3_alg».proof.Proof.Concrete

noncomputable section

namespace Cert.Gcn

open Idealize.ShloMosaic

/-! ## Real numbers inside the extended reals -/

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals is monotone, so it commutes with the maximum. -/
theorem coe_max (a b : ℝ) : ((max a b : ℝ) : EReal) = max (a : EReal) (b : EReal) :=
  EReal.coe_strictMono.monotone.map_max

theorem max_coe_zero (r : ℝ) : max (r : EReal) 0 = ((max r 0 : ℝ) : EReal) := by
  rw [coe_max, EReal.coe_zero]

/-- A sum of ones over a finite set is the number of its elements, a real number. -/
theorem sum_one_coe {ι : Type} (s : Finset ι) :
    (0 : EReal) + ∑ _i ∈ s, (1 : EReal) = ((s.card : ℝ) : EReal) := by
  rw [zero_add, Finset.sum_const, nsmul_one, EReal.coe_natCast]

/-- Dividing by a nonzero real is multiplying by the quotient of one by it. -/
theorem div_eq_mul_div_one (s : EReal) {c : ℝ} (hc : c ≠ 0) :
    Ideal.div s (c : EReal) = s * Ideal.div 1 (c : EReal) := by
  rw [Ideal.div_coe hc, Ideal.div_coe hc, one_mul]

variable {E N H G R : Type} [Fintype E] [Fintype N] [Fintype H] [Fintype G] [Fintype R] [DecidableEq N] [DecidableEq G]
variable (g : Graph E N G) (p : Net N H R)

/-! ## The degree and its inverse square root are real -/

/-- The degree as a real number: the number of incoming messages, plus one. -/
def degR (i : N) : ℝ := ((into g i).card : ℝ) + 1
/-- Its inverse square root as a real number. -/
def dinvR (i : N) : ℝ := (Real.sqrt (degR g i))⁻¹

theorem degR_pos (i : N) : 0 < degR g i := by
  unfold degR
  positivity

theorem deg_coe (i : N) : deg g i = ((degR g i : ℝ) : EReal) := by
  unfold deg degR
  rw [sum_one_coe, EReal.coe_add, EReal.coe_one]

theorem dinv_coe (i : N) : dinv g i = ((dinvR g i : ℝ) : EReal) := by
  unfold dinv dinvR
  rw [deg_coe, Ideal.rsqrt_coe, if_neg (not_lt.2 (degR_pos g i).le), if_neg (degR_pos g i).ne']

/-- The square of the inverse square root of a positive real is its reciprocal. -/
theorem dinvR_mul_self (i : N) : dinvR g i * dinvR g i = 1 / degR g i := by
  unfold dinvR
  rw [← mul_inv, Real.mul_self_sqrt (degR_pos g i).le, one_div]

theorem div_deg_coe (i : N) : Ideal.div 1 (deg g i) = ((dinvR g i * dinvR g i : ℝ) : EReal) := by
  rw [deg_coe, Ideal.div_coe (degR_pos g i).ne', one_mul, dinvR_mul_self]

/-! ## One layer on real features -/

/-- The value both arrangements of a layer share before the bias: the messages scaled at their sources and
    summed, plus the scaled self term, all scaled at the destination. -/
def layR (h : N → ℝ) (i : N) : ℝ :=
  ((∑ e ∈ into g i, h (g.gsrc e) * dinvR g (g.gsrc e)) + h i * dinvR g i) * dinvR g i

/-- A constant factor on the features comes out of the layer. -/
theorem layR_mul (h : N → ℝ) (w : ℝ) (i : N) : layR g (fun i => h i * w) i = layR g h i * w := by
  unfold layR
  rw [Finset.sum_congr rfl (fun e _ => mul_right_comm (h (g.gsrc e)) w (dinvR g (g.gsrc e))), ← Finset.sum_mul]
  ring

/-- The reference's arrangement: both ends' normalisers on each message, the reciprocal of the degree on the
    self term.  Every message into `i` has destination `i`, and `d i · d i = 1 / deg i`. -/
theorem layer_ref (hdst : ∀ e i, g.tgt e = some i → g.gdst e = i) (h : N → ℝ) (i : N) :
    (0 + ∑ e ∈ into g i, (h (g.gsrc e) : EReal) * (dinv g (g.gsrc e) * dinv g (g.gdst e)))
        + (h i : EReal) * Ideal.div 1 (deg g i) = ((layR g h i : ℝ) : EReal) := by
  have hs : ∑ e ∈ into g i, (h (g.gsrc e) : EReal) * (dinv g (g.gsrc e) * dinv g (g.gdst e))
      = ((∑ e ∈ into g i, h (g.gsrc e) * (dinvR g (g.gsrc e) * dinvR g i) : ℝ) : EReal) := by
    rw [coe_sum]
    refine Finset.sum_congr rfl fun e he => ?_
    have he' : e ∈ Finset.univ.filter (fun e => g.tgt e = some i) := he
    rw [hdst e i (Finset.mem_filter.1 he').2]
    simp only [dinv_coe, ← EReal.coe_mul]
  rw [hs, div_deg_coe, zero_add, ← EReal.coe_mul, ← EReal.coe_add, EReal.coe_eq_coe_iff]
  unfold layR
  rw [add_mul, Finset.sum_mul]
  congr 1
  · exact Finset.sum_congr rfl fun e _ => (mul_assoc _ _ _).symm
  · exact (mul_assoc _ _ _).symm

/-- The kernel's arrangement: scaled at the source before the sum, at the destination after it. -/
theorem layer_k (h : N → ℝ) (i : N) :
    ((0 + ∑ e ∈ into g i, (h (g.gsrc e) : EReal) * dinv g (g.gsrc e)) + (h i : EReal) * dinv g i) * dinv g i
      = ((layR g h i : ℝ) : EReal) := by
  simp only [dinv_coe, zero_add, ← EReal.coe_mul, ← coe_sum, ← EReal.coe_add]
  rfl

/-! ## The two layers -/

/-- Layer 1 is real and the same in both arrangements: the weight `W1 k` is a common factor of every message. -/
theorem h1_real (hp : p.Finite) (hdst : ∀ e i, g.tgt e = some i → g.gdst e = i) (i : N) (k : H) :
    ∃ r : ℝ, refH1 g p i k = r ∧ kH1 g p i k = r := by
  choose x hx using hp.x
  obtain ⟨w, hw⟩ := hp.W1 k
  obtain ⟨b, hb⟩ := hp.b1 k
  refine ⟨max (layR g x i * w + b) 0, ?_, ?_⟩
  · unfold refH1 refLayer
    simp only [hx, hw, hb, ← EReal.coe_mul]
    rw [layer_ref g hdst (fun i => x i * w) i, layR_mul, ← EReal.coe_add, max_coe_zero]
  · unfold kH1 kS kY
    simp only [hx, hw, hb]
    rw [layer_k g x i, ← EReal.coe_mul, ← EReal.coe_add, max_coe_zero]

/-- Layer 2 is real and the same in both arrangements: its features are the real linear map of layer 1. -/
theorem h2_real (hp : p.Finite) (hdst : ∀ e i, g.tgt e = some i → g.gdst e = i) (i : N) (j : H) :
    ∃ r : ℝ, refH2 g p i j = r ∧ kH2 g p i j = r := by
  choose h1 hr hk using h1_real g p hp hdst
  choose w hw using hp.W2
  obtain ⟨b, hb⟩ := hp.b2 j
  have hlin : ∀ i, refLin2 g p i j = ((∑ k, h1 i k * w k j : ℝ) : EReal) := by
    intro i
    unfold refLin2
    simp only [hr, hw, ← EReal.coe_mul, ← coe_sum]
  have hkd : ∀ i, kHd g p i j = ((∑ k, h1 i k * w k j : ℝ) : EReal) * dinv g i := by
    intro i
    unfold kHd
    simp only [hk, hw, ← EReal.coe_mul, ← coe_sum]
  refine ⟨max (layR g (fun i => ∑ k, h1 i k * w k j) i + b) 0, ?_, ?_⟩
  · unfold refH2 refLayer
    simp only [hlin, hb]
    rw [layer_ref g hdst (fun i => ∑ k, h1 i k * w k j) i, ← EReal.coe_add, max_coe_zero]
  · unfold kH2 kAgg
    simp only [hkd, hb]
    rw [layer_k g (fun i => ∑ k, h1 i k * w k j) i, ← EReal.coe_add, max_coe_zero]

theorem refH2_eq_kH2 (hp : p.Finite) (hdst : ∀ e i, g.tgt e = some i → g.gdst e = i) :
    refH2 g p = kH2 g p := by
  funext i j
  obtain ⟨r, h1, h2⟩ := h2_real g p hp hdst i j
  rw [h1, h2]

/-! ## Pooling -/

/-- A sum over the nodes of one graph is the sum over all nodes of the indicator times the summand. -/
theorem sum_pooled (q : G) (f : N → EReal) :
    0 + ∑ i ∈ pooled g q, f i = ∑ i, (if g.tb i = some q then (1 : EReal) else 0) * f i := by
  unfold pooled
  rw [zero_add, Finset.sum_filter]
  refine Finset.sum_congr rfl fun i _ => ?_
  split_ifs
  · rw [one_mul]
  · rw [zero_mul]

/-- The node count of a graph, raised to at least one, is a nonzero real. -/
theorem cnt_max_coe (q : G) : ∃ c : ℝ, c ≠ 0 ∧ max (cnt g q) 1 = (c : EReal) := by
  refine ⟨max ((pooled g q).card : ℝ) 1, (lt_of_lt_of_le one_pos (le_max_right _ _)).ne', ?_⟩
  unfold cnt
  rw [sum_one_coe, coe_max, EReal.coe_one]

theorem refPool_eq_kPool (hp : p.Finite) (hdst : ∀ e i, g.tgt e = some i → g.gdst e = i) :
    refPool g p = kPool g p := by
  funext q j
  obtain ⟨c, hc, hcq⟩ := cnt_max_coe g q
  unfold refPool kPool
  rw [hcq, div_eq_mul_div_one _ hc, sum_pooled g q (fun i => refH2 g p i j), refH2_eq_kH2 g p hp hdst]

/-! ## The network -/

/-- The head is one function of the pooled array, so the two arrangements agree. -/
theorem kOut_eq_refOut (g : Graph E N G) (p : Net N H R) (hp : p.Finite)
    (hdst : ∀ e i, g.tgt e = some i → g.gdst e = i) : kOut g p = refOut g p := by
  funext q
  unfold kOut refOut
  rw [refPool_eq_kPool g p hp hdst]

/-! ## The graph read off the arrays -/

/-- An index word that names a row in `[0, n)` is not negative, so it is left alone by the wrap, and the clamp
    into `[0, n - 1]` returns the same row. -/
theorem rowClamp_of_rowTgt (v : BitVec 32) (i : Fin 100000) (h : rowTgt 100000 v = some i) :
    rowClamp 100000 (by decide) (wrapIdx 100000#32 v) = i := by
  unfold rowTgt at h
  split_ifs at h with hv
  have hi := Option.some.inj h
  have hw : wrapIdx 100000#32 v = v := by
    unfold wrapIdx
    rw [if_neg (by omega)]
  rw [hw, ← hi]
  unfold rowClamp
  apply Fin.ext
  show min v.toInt.toNat (100000 - 1) = v.toInt.toNat
  omega

theorem mkGraph_gdst (ei : SEdgeIndex.Idx → BitVec 32) (batch : SNodes.Idx → BitVec 32) :
    ∀ e i, (mkGraph ei batch).tgt e = some i → (mkGraph ei batch).gdst e = i :=
  fun e i h => rowClamp_of_rowTgt (ei (ValueIdx.ix2 1 e)) i h

end Cert.Gcn

end
-- ==== Proof.PreFacts.lean ====
/-
  The precondition read back.

  The printed test is a conjunction of ten tests, each an "all elements" reduction by `and` into a single bit.
  Nine of them say of a float array that the absolute value of every entry is below +∞; over the extended reals
  `|x| = max x (-x)` is +∞ at both infinities, so such an entry is a real number.  The tenth takes row 1 of the
  edge array (a slice at row offset 1, then the unit row axis dropped) and says every word of it, read as a signed
  integer, is at least 0.

  A reduction by `and` that comes out 1 met only 1s, so each test gives its element fact at every index; the
  conjunction that is all ones gives every test.
-/
import proofs.«420787_j68083821576362_3_alg».proof.Defs
import proofs.«420787_j68083821576362_3_alg».proof.Proof.Gen.Pre_finite_inputs
import proofs.«420787_j68083821576362_3_alg».proof.Proof.Concrete
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.TcCoe Idealize.SL.Sem Idealize.ShloMosaic.ValueIdx

section Decode
open Cert.Pre_finite_inputs

/-- The scalar shape has one index. -/
instance : Subsingleton S_.Idx := ⟨fun a b => funext fun d => d.elim0⟩

/-- An extended real whose absolute value `max x (-x)` tests below the pattern of +∞ is a real number: at either
    infinity the absolute value is +∞ itself. -/
theorem real_of_abs_lt_inf (x : EReal)
    (h : Ideal.cmp .olt (max x (-x)) (Ideal.ofBits .f32 0x7F800000#32) = 1#1) : ∃ r : ℝ, x = r := by
  have ht : Ideal.ofBits .f32 0x7F800000#32 = (⊤ : EReal) := by simp [Ideal.ofBits, Ideal.ieee]
  rw [ht] at h
  induction x using EReal.rec with
  | bot => exact absurd h (by simp [Ideal.cmp])
  | coe r => exact ⟨r, rfl⟩
  | top => exact absurd h (by simp [Ideal.cmp])

/-- One float test, at any shape: if "all |x| < +∞" is 1 then every entry of `x` is real. -/
theorem all_real {S : Shape} {axes : List (Fin S.rank)} (x : FVec Ideal S .f32)
    (hb : S_.BroadcastsInDim S (![] : Fin 0 → Fin S.rank)) (hr : S.ReducesTo axes S_) (h0 : 0 < S_.numel)
    (e : Host.reduce IntOp.andi (cmpf .olt (Host.absf x) (broadcastInDim S ![] hb (constant S_ .f32 0x7F800000#32)))
          (constantI S_ 1 1#1) hr h0 ix0 = 1#1) (i : S.Idx) : ∃ r : ℝ, x i = r :=
  real_of_abs_lt_inf (x i) (Host.reduce_andi_all _ _ hr h0 ix0 e i)

variable [hPre : Cert.Pre_finite_inputs.Facts]

/-! ### One lemma per test, over the test's operand -/

theorem finite_x (a : FVec Ideal S100000x1 .f32)
    (e : Host.reduce IntOp.andi (cmpf .olt (Host.absf a) (broadcastInDim S100000x1 ![] Facts.bcast_S_S100000x1 (constant S_ .f32 0x7F800000#32)))
          (constantI S_ 1 1#1) Facts.reducesTo_S100000x1_S_d0_1 Facts.h_S_ ix0 = 1#1) (i : Fin 100000) : ∃ r : ℝ, a (ix2 i 0) = r :=
  all_real a _ _ _ e _

theorem finite_W1 (a : FVec Ideal S1x128 .f32)
    (e : Host.reduce IntOp.andi (cmpf .olt (Host.absf a) (broadcastInDim S1x128 ![] Facts.bcast_S_S1x128 (constant S_ .f32 0x7F800000#32)))
          (constantI S_ 1 1#1) Facts.reducesTo_S1x128_S_d0_1 Facts.h_S_ ix0 = 1#1) (k : Fin 128) : ∃ r : ℝ, a (ix2 0 k) = r :=
  all_real a _ _ _ e _

theorem finite_b (a : FVec Ideal S128 .f32)
    (e : Host.reduce IntOp.andi (cmpf .olt (Host.absf a) (broadcastInDim S128 ![] Facts.bcast_S_S128 (constant S_ .f32 0x7F800000#32)))
          (constantI S_ 1 1#1) Facts.reducesTo_S128_S_d0 Facts.h_S_ ix0 = 1#1) (k : Fin 128) : ∃ r : ℝ, a (ix1 k) = r :=
  all_real a _ _ _ e _

theorem finite_W2 (a : FVec Ideal S128x128 .f32)
    (e : Host.reduce IntOp.andi (cmpf .olt (Host.absf a) (broadcastInDim S128x128 ![] Facts.bcast_S_S128x128 (constant S_ .f32 0x7F800000#32)))
          (constantI S_ 1 1#1) Facts.reducesTo_S128x128_S_d0_1 Facts.h_S_ ix0 = 1#1) (k j : Fin 128) : ∃ r : ℝ, a (ix2 k j) = r :=
  all_real a _ _ _ e _

theorem finite_Wf1 (a : FVec Ideal S128x32 .f32)
    (e : Host.reduce IntOp.andi (cmpf .olt (Host.absf a) (broadcastInDim S128x32 ![] Facts.bcast_S_S128x32 (constant S_ .f32 0x7F800000#32)))
          (constantI S_ 1 1#1) Facts.reducesTo_S128x32_S_d0_1 Facts.h_S_ ix0 = 1#1) (k : Fin 128) (j : Fin 32) : ∃ r : ℝ, a (ix2 k j) = r :=
  all_real a _ _ _ e _

theorem finite_bf1 (a : FVec Ideal S32 .f32)
    (e : Host.reduce IntOp.andi (cmpf .olt (Host.absf a) (broadcastInDim S32 ![] Facts.bcast_S_S32 (constant S_ .f32 0x7F800000#32)))
          (constantI S_ 1 1#1) Facts.reducesTo_S32_S_d0 Facts.h_S_ ix0 = 1#1) (k : Fin 32) : ∃ r : ℝ, a (ix1 k) = r :=
  all_real a _ _ _ e _

theorem finite_Wf2 (a : FVec Ideal S32x1 .f32)
    (e : Host.reduce IntOp.andi (cmpf .olt (Host.absf a) (broadcastInDim S32x1 ![] Facts.bcast_S_S32x1 (constant S_ .f32 0x7F800000#32)))
          (constantI S_ 1 1#1) Facts.reducesTo_S32x1_S_d0_1 Facts.h_S_ ix0 = 1#1) (k : Fin 32) : ∃ r : ℝ, a (ix2 k 0) = r :=
  all_real a _ _ _ e _

theorem finite_bf2 (a : FVec Ideal S1 .f32)
    (e : Host.reduce IntOp.andi (cmpf .olt (Host.absf a) (broadcastInDim S1 ![] Facts.bcast_S_S1 (constant S_ .f32 0x7F800000#32)))
          (constantI S_ 1 1#1) Facts.reducesTo_S1_S_d0 Facts.h_S_ ix0 = 1#1) : ∃ r : ℝ, a (ix1 0) = r :=
  all_real a _ _ _ e _

/-- Row 1 of the edge array, as the slice and the reshape read it: entry `e` of the vector is entry `(1, e)` of the
    array.  The reshape matches row-major positions, and `(0, e)` of a one-row rectangle sits at position `e`; the
    slice adds its offsets `(1, 0)`. -/
theorem row1_apply (a : IVec S2x1600000 32) (hs : S2x1600000.Slices ![1, 0] S1x1600000)
    (hc : S1x1600000.ShapeCasts S1600000) (e : Fin 1600000) :
    shapeCast S1600000 (extractStridedSlice S1x1600000 ![1, 0] a hs) hc (ix1 e) = a (ix2 1 e) := by
  have hpos : Shape.reshapeEquiv hc (ix1 e) = (ix2 0 e : S1x1600000.Idx) :=
    Shape.reshapeEquiv_eq_of_rowMajor hc (by
      rw [Shape.rowMajor_val_two, Shape.rowMajor_val_one]
      show 0 * 1600000 + e.val = e.val
      omega)
  show extractStridedSlice S1x1600000 ![1, 0] a hs (Shape.reshapeEquiv hc (ix1 e)) = a (ix2 1 e)
  rw [hpos]
  unfold extractStridedSlice
  refine congrArg a (funext fun d => Fin.ext ?_)
  match d with
  | ⟨0, _⟩ => rfl
  | ⟨1, _⟩ => show 0 + e.val = e.val; omega

/-- The integer test: if "all of row 1 ≥ 0" is 1 then every word of row 1 is nonnegative read signed. -/
theorem dst_ge (a : IVec S2x1600000 32)
    (h : Host.reduce IntOp.andi
          (cmpi .sge (shapeCast S1600000 (extractStridedSlice S1x1600000 ![1, 0] a Facts.slices_S2x1600000_S1x1600000_1_0) Facts.shapeCasts_S1x1600000_S1600000)
            (broadcastInDim S1600000 ![] Facts.bcast_S_S1600000 (constantI S_ 32 0#32)))
          (constantI S_ 1 1#1) Facts.reducesTo_S1600000_S_d0 Facts.h_S_ ix0 = 1#1) (e : Fin 1600000) : 0 ≤ (a (ix2 1 e)).toInt := by
  have h1 := Host.reduce_andi_all _ _ Facts.reducesTo_S1600000_S_d0 Facts.h_S_ ix0 h (ix1 e)
  have h2 : IntOp.cmpi .sge (shapeCast S1600000 (extractStridedSlice S1x1600000 ![1, 0] a Facts.slices_S2x1600000_S1x1600000_1_0)
      Facts.shapeCasts_S1x1600000_S1600000 (ix1 e)) 0#32 = 1#1 := h1
  rw [row1_apply, IntOp.cmpi_sge] at h2
  exact h2

/-- The conjunction split: the printed test all ones gives each of its ten tests. -/
theorem conj (a0 : FVec Ideal S100000x1 .f32) (a1 : IVec S2x1600000 32) (a2 : IVec S100000 32) (a3 : FVec Ideal S1x128 .f32)
    (a4 : FVec Ideal S128 .f32) (a5 : FVec Ideal S128x128 .f32) (a6 : FVec Ideal S128 .f32) (a7 : FVec Ideal S128x32 .f32)
    (a8 : FVec Ideal S32 .f32) (a9 : FVec Ideal S32x1 .f32) (a10 : FVec Ideal S1 .f32)
    (h : fn (F := Ideal) a0 a1 a2 a3 a4 a5 a6 a7 a8 a9 a10 = fun _ => 1#1) :
    ((∀ i : Fin 100000, ∃ r : ℝ, a0 (ix2 i 0) = r) ∧ (∀ k : Fin 128, ∃ r : ℝ, a3 (ix2 0 k) = r) ∧ (∀ k : Fin 128, ∃ r : ℝ, a4 (ix1 k) = r)
      ∧ (∀ k j : Fin 128, ∃ r : ℝ, a5 (ix2 k j) = r) ∧ (∀ k : Fin 128, ∃ r : ℝ, a6 (ix1 k) = r)
      ∧ (∀ (k : Fin 128) (j : Fin 32), ∃ r : ℝ, a7 (ix2 k j) = r) ∧ (∀ k : Fin 32, ∃ r : ℝ, a8 (ix1 k) = r)
      ∧ (∀ k : Fin 32, ∃ r : ℝ, a9 (ix2 k 0) = r) ∧ (∃ r : ℝ, a10 (ix1 0) = r))
    ∧ ∀ e : Fin 1600000, 0 ≤ (a1 (ix2 1 e)).toInt := by
  have e := congrFun h ix0
  unfold fn fn_part1 fn_part2 at e
  dsimp only at e
  simp only [andi, IntOp.andi_eq_one] at e
  obtain ⟨⟨⟨⟨⟨⟨⟨⟨⟨h0, h3⟩, h4⟩, h5⟩, h6⟩, h7⟩, h8⟩, h9⟩, h10⟩, h1⟩ := e
  exact ⟨⟨finite_x a0 h0, finite_W1 a3 h3, finite_b a4 h4, finite_W2 a5 h5, finite_b a6 h6, finite_Wf1 a7 h7, finite_bf1 a8 h8,
    finite_Wf2 a9 h9, finite_bf2 a10 h10⟩, dst_ge a1 h1⟩

end Decode

section Final
open Cert.KernelIdeal
variable [hPre : Cert.Pre_finite_inputs.Facts]

/-- The graph of a memory's edge and batch arrays on device `c`. -/
abbrev gOf (m : (ℓ : Loc nD τ sig) → Buf (Elt Ideal) ℓ) (c : Dev nD) : Cert.Gcn.Graph (Fin 1600000) (Fin 100000) (Fin 1024) :=
  Cert.Gcn.mkGraph (m ((c.tc : Thread nD τ).loc main_arg1)) (m ((c.tc : Thread nD τ).loc main_arg2))

/-- The network parameters and node inputs of a memory's float arrays on device `c`. -/
abbrev pOf (m : (ℓ : Loc nD τ sig) → Buf (Elt Ideal) ℓ) (c : Dev nD) : Cert.Gcn.Net (Fin 100000) (Fin 128) (Fin 32) :=
  Cert.Gcn.mkNet (m ((c.tc : Thread nD τ).loc main_arg0)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))

/-- Under the precondition every parameter and every node input is a real number. -/
theorem net_finite (m : (ℓ : Loc nD τ sig) → Buf (Elt Ideal) ℓ) (h : Cert.Pre_KernelIdeal m) (c : Dev nD) : (pOf m c).Finite := by
  obtain ⟨⟨hx, hW1, hb1, hW2, hb2, hWf1, hbf1, hWf2, hbf2⟩, -⟩ := conj _ _ _ _ _ _ _ _ _ _ _ (h c)
  exact ⟨hx, hW1, hb1, hW2, hb2, hWf1, hbf1, hWf2, hbf2⟩

/-- Under the precondition every destination word of the edge array is nonnegative read signed. -/
theorem dst_nonneg (m : (ℓ : Loc nD τ sig) → Buf (Elt Ideal) ℓ) (h : Cert.Pre_KernelIdeal m) (c : Dev nD) :
    ∀ e : Fin 1600000, 0 ≤ (m ((c.tc : Thread nD τ).loc main_arg1) (ix2 1 e)).toInt :=
  (conj _ _ _ _ _ _ _ _ _ _ _ (h c)).2

end Final

end Cert.PreFacts

end
-- ==== Proof.Claims.lean ====
/-
  The five claims.  Both kernel programs run by the launch of their seven segments (four host stretches around three
  kernel regions), which ends with every unscoped buffer at the last boundary's contents: the arguments as launched, and
  — at the ideal instance — the result array at the kernel's arrangement of the network (`kOut`).  The reference's run
  ends at the reference's arrangement (`refOut`) of the same graph and parameters.  Under the precondition every
  parameter is a real number and every destination word is non-negative, and then the two arrangements are one function
  (`kOut_eq_refOut`): a message that reaches node i has destination word i, deg i is a real number ≥ 1, and
  rsqrt (deg i) · rsqrt (deg i) = 1 / deg i.
-/
import proofs.«420787_j68083821576362_3_alg».proof.Defs
import proofs.«420787_j68083821576362_3_alg».proof.Proof.Gen.Kernel
import proofs.«420787_j68083821576362_3_alg».proof.Proof.Gen.KernelIdeal
import proofs.«420787_j68083821576362_3_alg».proof.Proof.Gen.ReferenceIdeal
import proofs.«420787_j68083821576362_3_alg».proof.Proof.Gen.Pre_finite_inputs
import proofs.«420787_j68083821576362_3_alg».proof.Proof.Gen.ReferenceIdeal.Run
import proofs.«420787_j68083821576362_3_alg».proof.Proof.K.Run
import proofs.«420787_j68083821576362_3_alg».proof.Proof.KI.Run
import proofs.«420787_j68083821576362_3_alg».proof.Proof.KI.Value
import proofs.«420787_j68083821576362_3_alg».proof.Proof.RefValue2
import proofs.«420787_j68083821576362_3_alg».proof.Proof.SpecEq
import proofs.«420787_j68083821576362_3_alg».proof.Proof.PreFacts

noncomputable section

namespace Cert.Proof.Claims

open Idealize.ShloMosaic Idealize.ShloMosaic.TcCoe Idealize.SL.Sem Idealize.ShloMosaic.ValueIdx

theorem frame_k : Cert.frame_Kernel := fun m ρ _ => Cert.Kernel.Hand.frame_all m ρ

theorem frame_ki : Cert.frame_KernelIdeal := fun m ρ _ => Cert.KernelIdeal.Hand.frame_all m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section
open Cert.KernelIdeal Cert.KernelIdeal.Gen Cert.KernelIdeal.Hand

/-- The kernel's run with its result named: the result array at the kernel's arrangement, the arguments as launched. -/
theorem kernel_run (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v55) = (fun q => Cert.Gcn.kOut (gOf m c) (pOf m c) (q 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run Cert.KernelIdeal.defs _ _).mono (fun r h c =>
    ⟨(h c _ (mem_uc main_v55 (by decide))).trans (kernel_value m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c)⟩)
    (run_all (F := Ideal) m ρ)
end

theorem algebraic : Cert.algebraic_KernelIdeal_ReferenceIdeal := by
  intro m ρ m' ρ' hpre hagree
  refine ⟨_, kernel_run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10⟩ := hagree c
  have hd : ∀ e : Fin 1600000, 0 ≤ (m' ((c.tc : Thread Cert.ReferenceIdeal.nD Cert.ReferenceIdeal.τ).loc Cert.ReferenceIdeal.main_arg1) (ix2 1 e)).toInt := by
    rw [h1]; exact Cert.PreFacts.dst_nonneg m hpre c
  have hf : (Cert.KernelIdeal.Hand.pOf m c).Finite := Cert.PreFacts.net_finite m hpre c
  have hg : Cert.ReferenceIdeal.RefValue.gOf m' c = Cert.KernelIdeal.Hand.gOf m c := by
    unfold Cert.KernelIdeal.Hand.gOf; dsimp only [Cert.ReferenceIdeal.RefValue.gOf]; rw [h1, h2]
  have hp : Cert.ReferenceIdeal.RefValue.pOf m' c = Cert.KernelIdeal.Hand.pOf m c := by
    unfold Cert.KernelIdeal.Hand.pOf; dsimp only [Cert.ReferenceIdeal.RefValue.pOf]; rw [h0, h3, h4, h5, h6, h7, h8, h9, h10]
  rw [Cert.ReferenceIdeal.RefValue.ref_value m' c hd, hg, hp]
  funext q
  have hgd : ∀ e i, (Cert.KernelIdeal.Hand.gOf m c).tgt e = some i → (Cert.KernelIdeal.Hand.gOf m c).gdst e = i := by
    unfold Cert.KernelIdeal.Hand.gOf; exact Cert.Gcn.mkGraph_gdst _ _
  exact (congrFun (Cert.Gcn.kOut_eq_refOut _ _ hf hgd) (q 0)).symm

end Cert.Proof.Claims

end
-- ==== Proof.lean ====
/-
  The certificate's claim, assembled.  A two-layer graph convolution with a global mean pool and a two-layer head,
  computed by three pipelined kernel regions between stretches of host gathers and scatter-adds, against its plain
  reference.  The kernel rearranges each layer — it scales a message by deg^(-1/2) at its source before the
  neighbourhood sum and at its destination after it, aggregates the one input feature before the first linear map, and
  pools by a product with the one-hot membership matrix accumulated over the grid — and over the extended reals both
  arrangements are one function of the graph and the parameters, given finite parameters and non-negative destination
  indices (`Claims.algebraic`).  Each program's frame is its run with the result dropped.
-/
import proofs.«420787_j68083821576362_3_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
